-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x128 : Shape := ⟨2, ![8192, 128]⟩
abbrev S128x128 : Shape := ⟨2, ![128, 128]⟩
abbrev S256x1 : Shape := ⟨2, ![256, 1]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S256x1 : S_.BroadcastsInDim S256x1 (![] : Fin 0 → Fin S256x1.rank)
  reducesTo_S256x1_S_d0_1 : S256x1.ReducesTo [0, 1] S_

variable [Facts]

def fn {F : FTy → Type} [FloatOps F] (main_arg0 : IVec S8192x8192 32) (main_arg1 : FVec F S8192x128 .f32) (main_arg2 : FVec F S128x128 .f32) (main_arg3 : FVec F S256x1 .f32) : IVec S_ 1 :=
  let main_v0 : FVec F S8192x128 .f32 := Host.absf main_arg1
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S256x1 .f32 := Host.absf main_arg3
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  main_v13
-- ==== Kernel.lean ====
abbrev S8192x8192 : Shape := ⟨2, ![8192, 8192]⟩
abbrev S8192x128 : Shape := ⟨2, ![8192, 128]⟩
abbrev S128x128 : Shape := ⟨2, ![128, 128]⟩
abbrev S256x1 : Shape := ⟨2, ![256, 1]⟩
abbrev S128x1 : Shape := ⟨2, ![128, 1]⟩
abbrev S1x128 : Shape := ⟨2, ![1, 128]⟩
abbrev S8192x1 : Shape := ⟨2, ![8192, 1]⟩
abbrev S2048x128 : Shape := ⟨2, ![2048, 128]⟩
abbrev S2048x1 : Shape := ⟨2, ![2048, 1]⟩
abbrev S2048 : Shape := ⟨1, ![2048]⟩
abbrev S1x8192 : Shape := ⟨2, ![1, 8192]⟩
abbrev S1024x1024 : Shape := ⟨2, ![1024, 1024]⟩
abbrev S1024x1 : Shape := ⟨2, ![1024, 1]⟩
abbrev S1x1024 : Shape := ⟨2, ![1, 1024]⟩
abbrev S1024x128 : Shape := ⟨2, ![1024, 128]⟩
abbrev S1024 : Shape := ⟨1, ![1024]⟩

abbrev nBuf : Space → Nat
  | .hbm => 13
  | .vmem => 24
  | .smem => 0
  | _ => 0

abbrev bufTy : (tb : Table) → Fin (tcTables nBuf tb) → BufTy
  | .hbm, ⟨0, _⟩ => ⟨S8192x8192, .i32⟩
  | .hbm, ⟨1, _⟩ => ⟨S8192x128, .f32⟩
  | .hbm, ⟨2, _⟩ => ⟨S128x128, .f32⟩
  | .hbm, ⟨3, _⟩ => ⟨S256x1, .f32⟩
  | .hbm, ⟨4, _⟩ => ⟨S128x1, .f32⟩
  | .hbm, ⟨5, _⟩ => ⟨S1x128, .f32⟩
  | .hbm, ⟨6, _⟩ => ⟨S128x1, .f32⟩
  | .hbm, ⟨7, _⟩ => ⟨S1x128, .f32⟩
  | .hbm, ⟨8, _⟩ => ⟨S8192x128, .bf16⟩
  | .hbm, ⟨9, _⟩ => ⟨S8192x1, .f32⟩
  | .hbm, ⟨10, _⟩ => ⟨S8192x1, .f32⟩
  | .hbm, ⟨11, _⟩ => ⟨S1x8192, .f32⟩
  | .hbm, ⟨12, _⟩ => ⟨S8192x128, .f32⟩
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S2048x128, .bf16⟩
  | .local _ .vmem, ⟨6, _⟩ => ⟨S2048x128, .bf16⟩
  | .local _ .vmem, ⟨7, _⟩ => ⟨S2048x1, .f32⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | .local _ .vmem, ⟨11, _⟩ => ⟨S1024x1024, .i32⟩
  | .local _ .vmem, ⟨12, _⟩ => ⟨S1024x1024, .i32⟩
  | .local _ .vmem, ⟨13, _⟩ => ⟨S1024x1, .f32⟩
  | .local _ .vmem, ⟨14, _⟩ => ⟨S1024x1, .f32⟩
  | .local _ .vmem, ⟨15, _⟩ => ⟨S1x1024, .f32⟩
  | .local _ .vmem, ⟨16, _⟩ => ⟨S1x1024, .f32⟩
  | .local _ .vmem, ⟨17, _⟩ => ⟨S1024x128, .bf16⟩
  | .local _ .vmem, ⟨18, _⟩ => ⟨S1024x128, .bf16⟩
  | .local _ .vmem, ⟨19, _⟩ => ⟨S1024x128, .f32⟩
  | .local _ .vmem, ⟨20, _⟩ => ⟨S1024x128, .f32⟩
  | .local _ .vmem, ⟨21, _⟩ => ⟨S1024x1, .f32⟩
  | .local _ .vmem, ⟨22, _⟩ => ⟨S1024x1, .f32⟩
  | .local _ .vmem, ⟨23, _⟩ => ⟨S1024x128, .f32⟩
  | _, _ => ⟨S8192x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v50 : BitVec 1 := Scalar.cmpi .eq arg1 c7_i32
  let v51 : BitVec 32 := Scalar.extui v50
  let c0_i32_27 : BitVec 32 := 0#32
  let v52 : BitVec 1 := Scalar.cmpi .ne v51 c0_i32_27
  v52

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  slices_S256x1_S128x1_0_0 : S256x1.Slices ![0, 0] S128x1
  transposes_S128x1_S1x128_1_0 : S128x1.Transposes [1, 0] S1x128
  slices_S256x1_S128x1_128_0 : S256x1.Slices ![128, 0] S128x1
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S2048x128_S2048x128_0_0 : (Rect.unit (s := S2048x128) ![0, 0] S2048x128.size inb_S2048x128_S2048x128_0_0).PackedRows (EltTy.packing .bf16)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  reduces_S2048x128_S2048 : S2048x128.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  transposes_S8192x1_S1x8192_1_0 : S8192x1.Transposes [1, 0] S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x128 : S1024x1.Broadcasts S1024x128
  dot_S2048x128_S128x128_S2048x128_1_0_0_1_n_n_wf : DotDims.WF S2048x128 S128x128 S2048x128 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x128.size a
  hwx0_0 : ∀ i : grid0.Coords, EltTy.bits .f32 = 32 ∨ (Rect.block (s := S8192x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S8192x128.size a
  hwx0_4 : ∀ i : grid0.Coords, EltTy.bits .bf16 = 32 ∨ (Rect.block (s := S8192x128) S2048x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1.size a ≤ S8192x1.size a
  hwx0_5 : ∀ i : grid0.Coords, EltTy.bits .f32 = 32 ∨ (Rect.block (s := S8192x1) S2048x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x1.size a ≤ S8192x1.size a
  hwx0_6 : ∀ i : grid0.Coords, EltTy.bits .f32 = 32 ∨ (Rect.block (s := S8192x1) S2048x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .i32 = 32 ∨ (Rect.block (s := S8192x8192) S1024x1024.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .f32 = 32 ∨ (Rect.block (s := S1x8192) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .bf16 = 32 ∨ (Rect.block (s := S8192x128) S1024x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S8192x128.size a
  hwx1_4 : ∀ i : grid1.Coords, EltTy.bits .f32 = 32 ∨ (Rect.block (s := S8192x128) S1024x128.size (cc1_transform_4 i) (hinb1_4 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg1) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S2048x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S2048x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S2048x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4_0) S1024x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x128 : Shape := ⟨2, ![8192, 128]⟩
abbrev S128x128 : Shape := ⟨2, ![128, 128]⟩
abbrev S256x1 : Shape := ⟨2, ![256, 1]⟩
abbrev S128x1 : Shape := ⟨2, ![128, 1]⟩
abbrev S8192x1 : Shape := ⟨2, ![8192, 1]⟩
abbrev S1x8192 : Shape := ⟨2, ![1, 8192]⟩
abbrev S_ : Shape := ⟨0, ![]⟩
abbrev S8192 : Shape := ⟨1, ![8192]⟩

abbrev nBuf : Space → Nat
  | .hbm => 57
  | .vmem => 0
  | .smem => 0
  | _ => 0

abbrev bufTy : (tb : Table) → Fin (tcTables nBuf tb) → BufTy
  | .hbm, ⟨0, _⟩ => ⟨S8192x8192, .i32⟩
  | .hbm, ⟨1, _⟩ => ⟨S8192x128, .f32⟩
  | .hbm, ⟨2, _⟩ => ⟨S128x128, .f32⟩
  | .hbm, ⟨3, _⟩ => ⟨S256x1, .f32⟩
  | .hbm, ⟨4, _⟩ => ⟨S8192x128, .f32⟩
  | .hbm, ⟨5, _⟩ => ⟨S128x1, .f32⟩
  | .hbm, ⟨6, _⟩ => ⟨S8192x1, .f32⟩
  | .hbm, ⟨7, _⟩ => ⟨S128x1, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S_, .f32⟩
  | .hbm, ⟨15, _⟩ => ⟨S8192x8192, .f32⟩
  | .hbm, ⟨16, _⟩ => ⟨S8192x8192, .i1⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S8192x1, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x8192, .f32⟩
  | .hbm, ⟨40, _⟩ => ⟨S8192x8192, .f32⟩
  | .hbm, ⟨41, _⟩ => ⟨S8192x128, .f32⟩
  | .hbm, ⟨42, _⟩ => ⟨S_, .f32⟩
  | .hbm, ⟨43, _⟩ => ⟨S8192x128, .f32⟩
  | .hbm, ⟨44, _⟩ => ⟨S8192x128, .i1⟩
  | .hbm, ⟨45, _⟩ => ⟨S_, .f32⟩
  | .hbm, ⟨46, _⟩ => ⟨S8192x128, .f32⟩
  | .hbm, ⟨47, _⟩ => ⟨S8192x128, .i1⟩
  | .hbm, ⟨48, _⟩ => ⟨S_, .f32⟩
  | .hbm, ⟨49, _⟩ => ⟨S_, .f32⟩
  | .hbm, ⟨50, _⟩ => ⟨S8192x128, .f32⟩
  | .hbm, ⟨51, _⟩ => ⟨S8192x128, .f32⟩
  | .hbm, ⟨52, _⟩ => ⟨S8192x128, .f32⟩
  | .hbm, ⟨53, _⟩ => ⟨S_, .f32⟩
  | .hbm, ⟨54, _⟩ => ⟨S8192x128, .f32⟩
  | .hbm, ⟨55, _⟩ => ⟨S8192x128, .f32⟩
  | .hbm, ⟨56, _⟩ => ⟨S8192x128, .f32⟩
  | _, _ => ⟨S8192x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_call1_v0 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call2_cst : Ref sig .tc := ⟨.hbm, 42, rfl⟩
abbrev main_call2_v0 : Ref sig .tc := ⟨.hbm, 43, rfl⟩
abbrev main_call2_v1 : Ref sig .tc := ⟨.hbm, 44, rfl⟩
abbrev main_call2_cst_0 : Ref sig .tc := ⟨.hbm, 45, rfl⟩
abbrev main_call2_v2 : Ref sig .tc := ⟨.hbm, 46, rfl⟩
abbrev main_call2_v3 : Ref sig .tc := ⟨.hbm, 47, rfl⟩
abbrev main_call2_cst_1 : Ref sig .tc := ⟨.hbm, 48, rfl⟩
abbrev main_call2_call0_v0 : Ref sig .tc := ⟨.hbm, 49, rfl⟩
abbrev main_call2_call0_v1 : Ref sig .tc := ⟨.hbm, 50, rfl⟩
abbrev main_call2_v4 : Ref sig .tc := ⟨.hbm, 51, rfl⟩
abbrev main_call2_v5 : Ref sig .tc := ⟨.hbm, 52, rfl⟩
abbrev main_call2_cst_2 : Ref sig .tc := ⟨.hbm, 53, rfl⟩
abbrev main_call2_v6 : Ref sig .tc := ⟨.hbm, 54, rfl⟩
abbrev main_call2_v7 : Ref sig .tc := ⟨.hbm, 55, rfl⟩
abbrev main_v25 : Ref sig .tc := ⟨.hbm, 56, rfl⟩

abbrev nD : Nat := 1
abbrev τ : Topo := Topo.v7x

variable {F : FTy → Type} [FloatOps F]

class Facts₀ : Prop where
  slices_S256x1_S128x1_0_0 : S256x1.Slices ![0, 0] S128x1
  slices_S256x1_S128x1_128_0 : S256x1.Slices ![128, 0] S128x1
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S_S8192x128 : S_.BroadcastsInDim S8192x128 (![] : Fin 0 → Fin S8192x128.rank)
  dot_S8192x128_S128x128_S8192x128_1_0_0_1_n_n_wf : DotDims.WF S8192x128 S128x128 S8192x128 [1] [0] [0] [1] [] []
  dot_S8192x128_S128x1_S8192x1_1_0_0_1_n_n_wf : DotDims.WF S8192x128 S128x1 S8192x1 [1] [0] [0] [1] [] []
  dot_S8192x8192_S8192x128_S8192x128_1_0_0_1_n_n_wf : DotDims.WF S8192x8192 S8192x128 S8192x128 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.K.Data.lean ====
/-
  The proof data of the two pallas_calls, as definitions only (no proofs here).

  Region 0 (the projection): at grid point t the body reads the h-block x0 (2048×128), the whole W (x1), the two
  rows a1 (x2) and a2 (x3), and leaves  Wh = x0·W  (stored in the bf16 output),  Wh·a1ᵀ  and  Wh·a2ᵀ  (two columns).
  Region 1 (the attention): grid 8×8, point t = 8·i + j.  Three scratch buffers are carried along j:
  the running row maximum m, the running denominator l and the running numerator acc.  They are reset at j = 0,
  updated at every j from the block's masked scores, and at j = 7 the output block  elu(acc / l)  is stored.
-/
import proofs.«413953_j28767690949412_3_alg».proof.Proof.Gen.Kernel.Launch
import proofs.«413953_j28767690949412_3_alg».proof.Proof.Gen.Kernel.Skeleton
import proofs.«413953_j28767690949412_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered
variable (V : (c : Dev nD) → (b : Ref sig .tc) → Buf (Elt F) ((c : Thread nD τ).loc b))

/-! ## Region 0: the projection -/

/-- Window `w`'s block at point `t` of the projection, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The bf16 output block: the product of the h-block with W. -/
def out0_4 (x0 : Vec F S2048x128 .f32) (x1 : Vec F S128x128 .f32) : Vec F S2048x128 .bf16 := k0_pay2 x0 x1
/-- The first score column: each row of the product against the row a1. -/
def out0_5 (x0 : Vec F S2048x128 .f32) (x1 : Vec F S128x128 .f32) (x2 : Vec F S1x128 .f32) : Vec F S2048x1 .f32 := k0_pay3 x0 x1 x2
/-- The second score column: each row of the product against the row a2. -/
def out0_6 (x0 : Vec F S2048x128 .f32) (x1 : Vec F S128x128 .f32) (x3 : Vec F S1x128 .f32) : Vec F S2048x1 .f32 := k0_pay4 x0 x1 x3

/-- The projection's proof data: inputs stay at their blocks, each output holds its function of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

/-! ## Region 1: the attention -/

/-- Window `w`'s block at point `t` of the attention call, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three scratch operands as whole memrefs. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x128 .f32 := Memref.whole cc1_scratch2

/-- The carried state: running maximum, running denominator, running numerator. -/
abbrev St1 (F : FTy → Type) [FloatOps F] : Type := Vec F S1024x1 .f32 × Vec F S1024x1 .f32 × Vec F S1024x128 .f32

/-- The state the reset at j = 0 stores: -inf, 0, 0. -/
def reset1 : St1 F := (k1_pay4, k1_pay5, k1_pay6)

/-- One update of the state from the blocks: x0 the adjacency block, x1 the column of first scores,
    x2 the row of second scores, x3 the block of Wh rows. -/
def step1 (s : St1 F) (x0 : Vec F S1024x1024 .i32) (x1 : Vec F S1024x1 .f32) (x2 : Vec F S1x1024 .f32) (x3 : Vec F S1024x128 .bf16) : St1 F :=
  (k1_pay2 (k1_pay8 x1 x2 x0 s.1),
   k1_pay11 x1 x2 x0 s.1 s.1 s.2.1,
   k1_pay1 (k1_pay9 x1 x2 x0 s.1 s.1) (k1_pay10 x1 x2 x0 s.1) x3 s.2.2)

/-- What the last column step stores into the output block: elu(acc / l). -/
def out1_4 (s : St1 F) : Vec F S1024x128 .f32 := k1_pay3 s.2.2 s.2.1

/-- The state after point `n`: the update applied to the reset state at the start of a row of blocks
    (n ≡ 0 mod 8), to the state after point n-1 otherwise. -/
def scAt1 (c : Dev nD) : (n : ℕ) → n < cfg1.N → St1 F
  | 0, hn => step1 reset1 (iblk1 V c 0 ⟨0, hn⟩) (iblk1 V c 1 ⟨0, hn⟩) (iblk1 V c 2 ⟨0, hn⟩) (iblk1 V c 3 ⟨0, hn⟩)
  | n + 1, hn => step1 (if (n + 1) % 8 = 0 then reset1 else scAt1 c n (Nat.lt_of_succ_lt hn))
      (iblk1 V c 0 ⟨n + 1, hn⟩) (iblk1 V c 1 ⟨n + 1, hn⟩) (iblk1 V c 2 ⟨n + 1, hn⟩) (iblk1 V c 3 ⟨n + 1, hn⟩)

/-- The region invariant before position `n`: before the first point the class's (every scoped buffer at anything);
    afterwards the other call's staging buffers at anything, the three scratch buffers at the state after point n-1,
    and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f)
      ∗ owns (c : Thread nD τ) scM1_0 fullShare (scAt1 V c n hn).1
      ∗ owns (c : Thread nD τ) scM1_1 fullShare (scAt1 V c n hn).2.1
      ∗ owns (c : Thread nD τ) scM1_2 fullShare (scAt1 V c n hn).2.2) ∗ (∃ r, prngReg c r))

/-- The attention call's proof data: inputs stay at their blocks; the output block holds elu(acc / l) of the
    state after the point (consulted only at the points j = 7, where it is written back). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (scAt1 V c t.val t.isLt)
  Φ t := PhiS1 V c t.val (Nat.le_of_lt_succ t.isLt)
  q _ := fullShare
  owed _ := 0

end Regions

end Cert.Kernel.Hand

end
-- ==== Proof.K.Body0.lean ====
/-
  The projection call's body at a grid point: it leaves each input block in place and each output buffer at its
  function of the input blocks (the proof data of KI/Data.lean).
-/
import proofs.«413953_j28767690949412_3_alg».proof.Proof.K.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The input windows hold their blocks -/

/-- Input window 0's current staging buffer holds its block at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole W, a constant index map) holds its block at every point: fetched at the first point,
    and where it is not fetched the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the row a1, a constant index map) holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the row a2, a constant index map) holds its block at every point. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's triple -/

/-- The zero offsets of a rank-2 access, as a constant function. -/
theorem zero_off2 : (![0, 0] : Fin 2 → Nat) = fun _ => 0 := funext fun a => by fin_cases a <;> rfl

/-- One store through the whole-shape rectangle at zero offsets, over any prior contents, reads back as its payload:
    the rectangle holds every index, so the store covers the buffer. -/
theorem read_write_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  rw [View.read_writes_eq_canon v f _ (fun y => ⟨_, List.mem_singleton_self _, View.mem_set_unit_zero h inb y⟩),
    View.canon_unit_zero h inb]

/-- A load through the whole-shape rectangle at zero offsets reads the view's contents. -/
theorem readAt_whole {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f := by
  rw [View.readAt_eq_ld, View.ld_unit_zero h inb]

set_option maxHeartbeats 1000000 in
/-- The kernel body on whole staging memrefs, the inputs' at read contents x0..x3 and the outputs' at anything (each
    output buffer is loaded before it is stored, and the loaded value is dropped), runs to the continuation holding
    the inputs' as they were and the outputs' at the product, and the product's two score columns. -/
theorem sound_kernel0 (c : Dev nD) (E : Set ℕ) (i : grid0.Coords)
    (arg1 : Memref sig .tc .vmem S2048x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S2048x128 .bf16) (harg5 : arg5.IsWhole)
    (arg6 : Memref sig .tc .vmem S2048x1 .f32) (harg6 : arg6.IsWhole)
    (arg7 : Memref sig .tc .vmem S2048x1 .f32) (harg7 : arg7.IsWhole)
    (x0 : Vec F S2048x128 .f32) (x1 : Vec F S128x128 .f32) (x2 : Vec F S1x128 .f32) (x3 : Vec F S1x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1)
            ∗ owns (c : Thread nD τ) arg6 fullShare (out0_5 x0 x1 x2)
            ∗ owns (c : Thread nD τ) arg7 fullShare (out0_6 x0 x1 x3)) -∗ K ⟨⟩))
      ⊢ wp frame (wpE (defs₀ (F := F)) Variants.none c none) E
          (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold out0_4
    rw [read_write_whole _ _ zero_off2, readAt_whole _ _ zero_off2, readAt_whole _ _ zero_off2]
  isplitl [H5]
  · iexists _; isplitr
    swap; · iexact H5
    ipureintro
    unfold out0_5
    rw [read_write_whole _ _ zero_off2, readAt_whole _ _ zero_off2, readAt_whole _ _ zero_off2, readAt_whole _ _ zero_off2]
  iexists _; isplitr
  swap; · iexact H6
  ipureintro
  unfold out0_6
  rw [read_write_whole _ _ zero_off2, readAt_whole _ _ zero_off2, readAt_whole _ _ zero_off2, readAt_whole _ _ zero_off2]

/-! ## The proof data, projected -/

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`: the invariant, the core's debts, and the seven windows one by one. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for the projection call, at every grid point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.K.Kernel1.lean ====
/-
  The attention call's body as three triples, one per position of the column step j in its row of blocks:
  the first step (j = 0: the scratch is reset, then updated), a middle step (updated only) and the last step
  (j = 7: updated, then the output block stored). On whole memrefs: the four input blocks are left in place; the
  scratch goes from the state before to the state after (Data.lean's `step1`); the output buffer is handed back
  untouched at the first and middle steps and holds elu(acc / l) after the last.
-/
import proofs.«413953_j28767690949412_3_alg».proof.Proof.K.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition (the reset): the column step is 0. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)
/-- The second branch's condition (the output's store): the column step is 7. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-- The two zero offsets of a rank-2 rectangle, as the constant function. -/
theorem hz2 : (![0, 0] : Fin 2 → Nat) = fun _ => 0 := funext fun a => by fin_cases a <;> rfl

/-- A store through the whole-shape rectangle, last in the list, leaves its payload: the rectangle covers every
    index, so the contents read as the canonical form of the pieces, whose head wins. -/
theorem read_writes_unit {S : Shape} {e : EltTy} (v : View sig .tc .vmem S e) (f : v.ty.Contents (Elt F))
    {off : Fin S.rank → Nat} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero hz inb y⟩),
    View.canon_cons_unit_zero hz]

/-- A load through the whole-shape rectangle of a whole memref at the contents that read `X` reads `X`. -/
theorem readAt_unit {S : Shape} {e : EltTy} {m : Memref sig .tc .vmem S e} (h : m.IsWhole)
    {off : Fin S.rank → Nat} (hz : off = fun _ => 0) (inb : ∀ a, off a + S.size a ≤ S.size a) (X : S.Idx → Elt F e) :
    View.readAt (Elt F) m.view (Rect.unit off S.size inb).toLoadRect (h.unread X) = X := by
  rw [View.readAt_eq_ld, h.read_unread, View.ld_unit_zero hz]

set_option maxHeartbeats 1000000 in
/-- The first column step: whatever the scratch held, it ends at the update of the reset state; the output buffer is untouched. -/
theorem sound_kernel1_A (c : Dev nD) (E : Set ℕ) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole)
    (hc0 : cond1_0 i) (hc1 : ¬cond1_1 i) (x0 : Vec F S1024x1024 .i32) (x1 : Vec F S1024x1 .f32) (x2 : Vec F S1x1024 .f32) (x3 : Vec F S1024x128 .bf16) (xo : Vec F S1024x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo
            ∗ owns (c : Thread nD τ) arg7 fullShare (step1 reset1 x0 x1 x2 x3).1 ∗ owns (c : Thread nD τ) arg8 fullShare (step1 reset1 x0 x1 x2 x3).2.1 ∗ owns (c : Thread nD τ) arg9 fullShare (step1 reset1 x0 x1 x2 x3).2.2) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3
  obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr; swap; · iexact HS0
    ipureintro
    sl_unfold_run_names
    refine (read_writes_unit _ _ hz2 _ _ _).trans ?_
    dsimp only
    simp only [readAt_unit (S := S1024x1) _ hz2, readAt_unit (S := S1x1024) _ hz2, readAt_unit (S := S1024x1024) _ hz2, readAt_unit (S := S1024x128) _ hz2, View.readCov_unit_zero (S := S1024x1) _ hz2, View.readCov_unit_zero (S := S1024x128) _ hz2]
    rfl
  isplitl [HS1]
  · iexists _; isplitr; swap; · iexact HS1
    ipureintro
    sl_unfold_run_names
    refine (read_writes_unit _ _ hz2 _ _ _).trans ?_
    dsimp only
    simp only [readAt_unit (S := S1024x1) _ hz2, readAt_unit (S := S1x1024) _ hz2, readAt_unit (S := S1024x1024) _ hz2, readAt_unit (S := S1024x128) _ hz2, View.readCov_unit_zero (S := S1024x1) _ hz2, View.readCov_unit_zero (S := S1024x128) _ hz2]
    rfl
  · iexists _; isplitr; swap; · iexact HS2
    ipureintro
    sl_unfold_run_names
    refine (read_writes_unit _ _ hz2 _ _ _).trans ?_
    dsimp only
    simp only [readAt_unit (S := S1024x1) _ hz2, readAt_unit (S := S1x1024) _ hz2, readAt_unit (S := S1024x1024) _ hz2, readAt_unit (S := S1024x128) _ hz2, View.readCov_unit_zero (S := S1024x1) _ hz2, View.readCov_unit_zero (S := S1024x128) _ hz2]
    rfl

set_option maxHeartbeats 1000000 in
/-- A middle column step: the scratch goes from the state `s` to its update; the output buffer is untouched. -/
theorem sound_kernel1_B (c : Dev nD) (E : Set ℕ) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole)
    (hc0 : ¬cond1_0 i) (hc1 : ¬cond1_1 i) (x0 : Vec F S1024x1024 .i32) (x1 : Vec F S1024x1 .f32) (x2 : Vec F S1x1024 .f32) (x3 : Vec F S1024x128 .bf16) (s : St1 F) (xo : Vec F S1024x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo
        ∗ owns (c : Thread nD τ) arg7 fullShare s.1 ∗ owns (c : Thread nD τ) arg8 fullShare s.2.1 ∗ owns (c : Thread nD τ) arg9 fullShare s.2.2
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo
            ∗ owns (c : Thread nD τ) arg7 fullShare (step1 s x0 x1 x2 x3).1 ∗ owns (c : Thread nD τ) arg8 fullShare (step1 s x0 x1 x2 x3).2.1 ∗ owns (c : Thread nD τ) arg9 fullShare (step1 s x0 x1 x2 x3).2.2) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hfs0; obtain rfl := harg8.eq_unread hfs1; obtain rfl := harg9.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr; swap; · iexact HS0
    ipureintro
    refine (read_writes_unit _ _ hz2 _ _ _).trans ?_
    dsimp only
    simp only [readAt_unit (S := S1024x1) _ hz2, readAt_unit (S := S1x1024) _ hz2, readAt_unit (S := S1024x1024) _ hz2, readAt_unit (S := S1024x128) _ hz2]
    rfl
  isplitl [HS1]
  · iexists _; isplitr; swap; · iexact HS1
    ipureintro
    refine (read_writes_unit _ _ hz2 _ _ _).trans ?_
    dsimp only
    simp only [readAt_unit (S := S1024x1) _ hz2, readAt_unit (S := S1x1024) _ hz2, readAt_unit (S := S1024x1024) _ hz2, readAt_unit (S := S1024x128) _ hz2]
    rfl
  · iexists _; isplitr; swap; · iexact HS2
    ipureintro
    refine (read_writes_unit _ _ hz2 _ _ _).trans ?_
    dsimp only
    simp only [readAt_unit (S := S1024x1) _ hz2, readAt_unit (S := S1x1024) _ hz2, readAt_unit (S := S1024x1024) _ hz2, readAt_unit (S := S1024x128) _ hz2]
    rfl

set_option maxHeartbeats 1000000 in
/-- The last column step: the scratch goes from the state `s` to its update, and the output buffer ends at elu(acc / l) of it. -/
theorem sound_kernel1_C (c : Dev nD) (E : Set ℕ) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole)
    (hc0 : ¬cond1_0 i) (hc1 : cond1_1 i) (x0 : Vec F S1024x1024 .i32) (x1 : Vec F S1024x1 .f32) (x2 : Vec F S1x1024 .f32) (x3 : Vec F S1024x128 .bf16) (s : St1 F) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d)
        ∗ owns (c : Thread nD τ) arg7 fullShare s.1 ∗ owns (c : Thread nD τ) arg8 fullShare s.2.1 ∗ owns (c : Thread nD τ) arg9 fullShare s.2.2
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (out1_4 (step1 s x0 x1 x2 x3))
            ∗ owns (c : Thread nD τ) arg7 fullShare (step1 s x0 x1 x2 x3).1 ∗ owns (c : Thread nD τ) arg8 fullShare (step1 s x0 x1 x2 x3).2.1 ∗ owns (c : Thread nD τ) arg9 fullShare (step1 s x0 x1 x2 x3).2.2) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3
  obtain rfl := harg7.eq_unread hfs0; obtain rfl := harg8.eq_unread hfs1; obtain rfl := harg9.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    sl_unfold_run_names
    refine (read_writes_unit _ _ hz2 _ _ _).trans ?_
    dsimp only
    simp only [readAt_unit (S := S1024x1) _ hz2, readAt_unit (S := S1x1024) _ hz2, readAt_unit (S := S1024x1024) _ hz2, readAt_unit (S := S1024x128) _ hz2, View.readCov_unit_zero (S := S1024x1) _ hz2, View.readCov_unit_zero (S := S1024x128) _ hz2]
    rfl
  isplitl [HS0]
  · iexists _; isplitr; swap; · iexact HS0
    ipureintro
    sl_unfold_run_names
    refine (read_writes_unit _ _ hz2 _ _ _).trans ?_
    dsimp only
    simp only [readAt_unit (S := S1024x1) _ hz2, readAt_unit (S := S1x1024) _ hz2, readAt_unit (S := S1024x1024) _ hz2, readAt_unit (S := S1024x128) _ hz2, View.readCov_unit_zero (S := S1024x1) _ hz2, View.readCov_unit_zero (S := S1024x128) _ hz2]
    rfl
  isplitl [HS1]
  · iexists _; isplitr; swap; · iexact HS1
    ipureintro
    sl_unfold_run_names
    refine (read_writes_unit _ _ hz2 _ _ _).trans ?_
    dsimp only
    simp only [readAt_unit (S := S1024x1) _ hz2, readAt_unit (S := S1x1024) _ hz2, readAt_unit (S := S1024x1024) _ hz2, readAt_unit (S := S1024x128) _ hz2, View.readCov_unit_zero (S := S1024x1) _ hz2, View.readCov_unit_zero (S := S1024x128) _ hz2]
    rfl
  · iexists _; isplitr; swap; · iexact HS2
    ipureintro
    sl_unfold_run_names
    refine (read_writes_unit _ _ hz2 _ _ _).trans ?_
    dsimp only
    simp only [readAt_unit (S := S1024x1) _ hz2, readAt_unit (S := S1x1024) _ hz2, readAt_unit (S := S1024x1024) _ hz2, readAt_unit (S := S1024x128) _ hz2, View.readCov_unit_zero (S := S1024x1) _ hz2, View.readCov_unit_zero (S := S1024x128) _ hz2]
    rfl

end Cert.Kernel.Hand

end
-- ==== Proof.K.Body1.lean ====
/-
  The attention call's body at a grid point: it leaves each input block in place, takes the three scratch buffers from
  the state after the point before (anything at the first point) to the state after this point, and at the last
  column step stores the output block.
-/
import proofs.«413953_j28767690949412_3_alg».proof.Proof.K.Kernel1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The carried state, point by point -/

/-- At the first column step of a row of blocks the state is the update of the reset state. -/
theorem scAt1_reset (c : Dev nD) (t : Fin cfg1.N) (h0 : t.val % 8 = 0) :
    scAt1 V c t.val t.isLt = step1 reset1 (iblk1 V c 0 t) (iblk1 V c 1 t) (iblk1 V c 2 t) (iblk1 V c 3 t) := by
  obtain ⟨n, hn⟩ := t
  cases n with
  | zero => exact rfl
  | succ n =>
    dsimp only at h0
    dsimp only [scAt1]
    rw [if_pos h0]

/-- At any other column step it is the update of the state after the point before. -/
theorem scAt1_step (c : Dev nD) (t : Fin cfg1.N) (h0 : ¬t.val % 8 = 0) :
    scAt1 V c t.val t.isLt = step1 (scAt1 V c (t.val - 1) (Nat.lt_of_le_of_lt (Nat.sub_le _ _) t.isLt))
      (iblk1 V c 0 t) (iblk1 V c 1 t) (iblk1 V c 2 t) (iblk1 V c 3 t) := by
  obtain ⟨n, hn⟩ := t
  cases n with
  | zero => exact (by exfalso; (try dsimp only at h0); exact absurd (Nat.zero_mod _) h0)
  | succ n =>
    dsimp only at h0
    dsimp only [scAt1]
    rw [if_neg h0]
    rfl

/-! ## The invariant, position by position -/

/-- One scoped buffer whole at some contents. -/
abbrev anyAt (c : Dev nD) (b : Ref sig .tc) : sProp 𝕄 :=
  iprop(∃ f : Buf (Elt F) ((c : Thread nD τ).loc b), ((c : Thread nD τ).loc b) ↦{fullShare} f)

/-- The invariant's shape around the three scratch buffers: the other call's staging buffers at anything, the scratch
    buffers at `P0`, `P1`, `P2`, the generator register at some state. -/
def Phi1Of (c : Dev nD) (P0 P1 P2 : sProp 𝕄) : sProp 𝕄 :=
  iprop(iprop(anyAt c cc0_stg0_0 ∗ anyAt c cc0_stg0_1 ∗ anyAt c cc0_stg1_0 ∗ anyAt c cc0_stg2_0 ∗ anyAt c cc0_stg3_0 ∗ anyAt c cc0_stg4_0 ∗ anyAt c cc0_stg4_1 ∗ anyAt c cc0_stg5_0 ∗ anyAt c cc0_stg5_1 ∗ anyAt c cc0_stg6_0 ∗ anyAt c cc0_stg6_1
      ∗ P0 ∗ P1 ∗ P2) ∗ (∃ r, prngReg c r))

/-- What of the invariant the body never touches. -/
def Rest1 (c : Dev nD) : sProp 𝕄 :=
  iprop(anyAt c cc0_stg0_0 ∗ anyAt c cc0_stg0_1 ∗ anyAt c cc0_stg1_0 ∗ anyAt c cc0_stg2_0 ∗ anyAt c cc0_stg3_0 ∗ anyAt c cc0_stg4_0 ∗ anyAt c cc0_stg4_1 ∗ anyAt c cc0_stg5_0 ∗ anyAt c cc0_stg5_1 ∗ anyAt c cc0_stg6_0 ∗ anyAt c cc0_stg6_1
      ∗ (∃ r, prngReg c r))

/-- The scratch buffers taken out of the invariant's shape, -/
theorem Phi1Of_open (c : Dev nD) (P0 P1 P2 : sProp 𝕄) : Phi1Of (F := F) c P0 P1 P2 ⊢ iprop(Rest1 (F := F) c ∗ P0 ∗ P1 ∗ P2) := by
  unfold Phi1Of Rest1
  iintro ⟨⟨E0, E1, E2, E3, E4, E5, E6, E7, E8, E9, E10, H0, H1, H2⟩, Hg⟩
  isplitl [E0 E1 E2 E3 E4 E5 E6 E7 E8 E9 E10 Hg]
  · isplitl [E0]; · iexact E0
    isplitl [E1]; · iexact E1
    isplitl [E2]; · iexact E2
    isplitl [E3]; · iexact E3
    isplitl [E4]; · iexact E4
    isplitl [E5]; · iexact E5
    isplitl [E6]; · iexact E6
    isplitl [E7]; · iexact E7
    isplitl [E8]; · iexact E8
    isplitl [E9]; · iexact E9
    isplitl [E10]; · iexact E10
    iexact Hg
  isplitl [H0]; · iexact H0
  isplitl [H1]; · iexact H1
  iexact H2

/-- and put back. -/
theorem Phi1Of_close (c : Dev nD) (P0 P1 P2 : sProp 𝕄) : iprop(Rest1 (F := F) c ∗ P0 ∗ P1 ∗ P2) ⊢ Phi1Of (F := F) c P0 P1 P2 := by
  unfold Phi1Of Rest1
  iintro ⟨⟨E0, E1, E2, E3, E4, E5, E6, E7, E8, E9, E10, Hg⟩, H0, H1, H2⟩
  isplitr [Hg]
  · isplitl [E0]; · iexact E0
    isplitl [E1]; · iexact E1
    isplitl [E2]; · iexact E2
    isplitl [E3]; · iexact E3
    isplitl [E4]; · iexact E4
    isplitl [E5]; · iexact E5
    isplitl [E6]; · iexact E6
    isplitl [E7]; · iexact E7
    isplitl [E8]; · iexact E8
    isplitl [E9]; · iexact E9
    isplitl [E10]; · iexact E10
    isplitl [H0]; · iexact H0
    isplitl [H1]; · iexact H1
    iexact H2
  iexact Hg

/-- The invariant with the scratch at a named state. -/
abbrev PhiAt1 (c : Dev nD) (s : St1 F) : sProp 𝕄 :=
  Phi1Of c (owns (c : Thread nD τ) scM1_0 fullShare s.1) (owns (c : Thread nD τ) scM1_1 fullShare s.2.1) (owns (c : Thread nD τ) scM1_2 fullShare s.2.2)

theorem PhiS1_zero (c : Dev nD) (n : ℕ) (h : n ≤ cfg1.N) (hz : n = 0) : PhiS1 V c n h = Pipeline.ΦA spec1 c := by
  subst hz; rfl

/-- After point `n`: the scratch at that point's state. -/
theorem PhiS1_succ (c : Dev nD) (n : ℕ) (hn : n < cfg1.N) : PhiS1 V c (n + 1) hn = PhiAt1 c (scAt1 V c n hn) := rfl

/-- Before a point that is not the first: the scratch at the state after the point before. -/
theorem PhiS1_pos (c : Dev nD) (n : ℕ) (h : n ≤ cfg1.N) (hz : n ≠ 0) :
    PhiS1 V c n h = PhiAt1 c (scAt1 V c (n - 1) (by omega)) := by
  cases n with
  | zero => exact absurd rfl hz
  | succ n => rfl

/-- What the launch hands the region, in the invariant's shape: the three scratch buffers whole at anything. -/
theorem PhiA1_eq (c : Dev nD) :
    (Pipeline.ΦA spec1 c : sProp 𝕄)
      = Phi1Of c iprop(∃ d, owns (c : Thread nD τ) scM1_0 fullShare d) iprop(∃ d, owns (c : Thread nD τ) scM1_1 fullShare d) iprop(∃ d, owns (c : Thread nD τ) scM1_2 fullShare d) := by
  unfold Pipeline.ΦA Phi1Of; rw [scopedRest1_eq]; simp only [scM1_0, scM1_1, scM1_2, owns_whole]; try rfl

/-! ## The proof data's projections -/

theorem A_eq1 (c : Dev nD) (w : Fin cfg1.W) : (dat1 V c).A w = V c (Pipeline.arrRef spec1 w) := by
  dsimp only [dat1]

/-- The invariant at a point's start, restated at the point's number. -/
theorem Phi1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (scAt1 V c t.val t.isLt) := by dsimp only [dat1]

/-- Each input's current staging buffer holds its block at every point, fetched there or not: an unfetched window's
    block index has not moved, and the body left the block in place. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-! ## Where the windows are idle -/

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- The output is idle away from the last column step, -/
theorem idleAt1_4 : ∀ t : Fin cfg1.N, ¬cond1_1 (grid1.coords t) → cfg1.idle 4 (grid1.coords t) = true := by decide +kernel
/-- live at it, -/
theorem liveAt1_4 : ∀ t : Fin cfg1.N, cond1_1 (grid1.coords t) → cfg1.idle 4 (grid1.coords t) = false := by decide +kernel
/-- and written back only there. -/
theorem noFlush1_4 (t : Fin cfg1.N) (h : ¬t.val % 8 = 7) : (cfg1.win 4).flush t = false := by
  cases hf : (cfg1.win 4).flush t with
  | false => rfl
  | true => exact absurd ((flush1_4 t).mp hf) h

/-! ## The body obligation, at a generic point -/

/-- Each window's current staging memref at point `t`, as the pipeline passes it, and its wholeness. -/
abbrev ms1_0 (t : Fin cfg1.N) : Memref sig .tc .vmem S1024x1024 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x128 .f32 := win1_4.stage (cfg1.slots t 4)
abbrev hs1_4 (t : Fin cfg1.N) : (ms1_4 t).IsWhole := hstage1_4 ((cfg1.slots t 4).cast nbuf1_4)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' memrefs hold their blocks; the point's column step says which of the three
    triples applies. The invariant hands the body the scratch at the state after the point before (at anything at
    the first point; at a later first column step the named state is forgotten) and takes it back at this point's
    state, by the state's equation at the point. Away from the last column step the output's buffer is handed
    back as it was found; at the last it holds the output block of this point's state. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 8 = 0
  · have h1 : ¬t.val % 8 = 7 := by omega
    rw [Dat.leavesExact_idle (dat1 V c) 4 t (idleAt1_4 t (fun h => h1 ((hcond1_1 t).mp h))) (noFlush1_4 t h1)]
    rw [scAt1_reset V c t h0]
    by_cases hz : t.val = 0
    · rw [Phi1_castSucc V c t, PhiS1_zero V c _ _ hz, PhiA1_eq]
      iintro ⟨HP, Ho, ⟨%d0, H0⟩, ⟨%d1, H1⟩, ⟨%d2, H2⟩, ⟨%d3, H3⟩, ⟨%d4, H4⟩⟩
      icases (Phi1Of_open (F := F) c _ _ _) $$ HP with ⟨HR, HS0, HS1, HS2⟩
      iapply (sound_kernel1_A c Set.univ (grid1.coords t) _ (hs1_0 t) _ (hs1_1 t) _ (hs1_2 t) _ (hs1_3 t) _ (hs1_4 t) _ (Memref.isWhole_whole _) _ (Memref.isWhole_whole _) _ (Memref.isWhole_whole _) ((hcond1_0 t).mpr h0) (fun h => h1 ((hcond1_1 t).mp h)) (iblk1 V c 0 t) (iblk1 V c 1 t) (iblk1 V c 2 t) (iblk1 V c 3 t) ((dat1 V c).before 4 t d4) _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HR HS0 HS1 HS2]
      · iapply (Phi1Of_close (F := F) c _ _ _)
        isplitl [HR]; · iexact HR
        isplitl [HS0]; · iexact HS0
        isplitl [HS1]; · iexact HS1
        iexact HS2
      isplitl [Ho]; · iexact Ho
      isplitl [H0]; · iexact H0
      isplitl [H1]; · iexact H1
      isplitl [H2]; · iexact H2
      isplitl [H3]; · iexact H3
      iexists d4; iexact H4
    · rw [Phi1_castSucc V c t, PhiS1_pos V c _ _ hz]
      iintro ⟨HP, Ho, ⟨%d0, H0⟩, ⟨%d1, H1⟩, ⟨%d2, H2⟩, ⟨%d3, H3⟩, ⟨%d4, H4⟩⟩
      icases (Phi1Of_open (F := F) c _ _ _) $$ HP with ⟨HR, HS0, HS1, HS2⟩
      iapply (sound_kernel1_A c Set.univ (grid1.coords t) _ (hs1_0 t) _ (hs1_1 t) _ (hs1_2 t) _ (hs1_3 t) _ (hs1_4 t) _ (Memref.isWhole_whole _) _ (Memref.isWhole_whole _) _ (Memref.isWhole_whole _) ((hcond1_0 t).mpr h0) (fun h => h1 ((hcond1_1 t).mp h)) (iblk1 V c 0 t) (iblk1 V c 1 t) (iblk1 V c 2 t) (iblk1 V c 3 t) ((dat1 V c).before 4 t d4) _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, HS0, HS1, HS2⟩
      isplitl [HR HS0 HS1 HS2]
      · iapply (Phi1Of_close (F := F) c _ _ _)
        isplitl [HR]; · iexact HR
        isplitl [HS0]; · iexact HS0
        isplitl [HS1]; · iexact HS1
        iexact HS2
      isplitl [Ho]; · iexact Ho
      isplitl [H0]; · iexact H0
      isplitl [H1]; · iexact H1
      isplitl [H2]; · iexact H2
      isplitl [H3]; · iexact H3
      iexists d4; iexact H4
  · have hz : t.val ≠ 0 := fun h => h0 (by rw [h])
    rw [scAt1_step V c t h0]
    rw [Phi1_castSucc V c t, PhiS1_pos V c _ _ hz]
    by_cases h1 : t.val % 8 = 7
    · rw [show (dat1 V c).leavesExact 4 t = owns (c : Thread nD τ) (ms1_4 t) fullShare ((dat1 V c).after 4 t) from by
        unfold Dat.leavesExact; rw [liveAt1_4 t ((hcond1_1 t).mpr h1)], after1_4]
      rw [scAt1_step V c t h0]
      iintro ⟨HP, Ho, ⟨%d0, H0⟩, ⟨%d1, H1⟩, ⟨%d2, H2⟩, ⟨%d3, H3⟩, ⟨%d4, H4⟩⟩
      icases (Phi1Of_open (F := F) c _ _ _) $$ HP with ⟨HR, HS0, HS1, HS2⟩
      iapply (sound_kernel1_C c Set.univ (grid1.coords t) _ (hs1_0 t) _ (hs1_1 t) _ (hs1_2 t) _ (hs1_3 t) _ (hs1_4 t) _ (Memref.isWhole_whole _) _ (Memref.isWhole_whole _) _ (Memref.isWhole_whole _) (fun h => h0 ((hcond1_0 t).mp h)) ((hcond1_1 t).mpr h1) (iblk1 V c 0 t) (iblk1 V c 1 t) (iblk1 V c 2 t) (iblk1 V c 3 t) (scAt1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, H4, HS0, HS1, HS2⟩
      isplitl [HR HS0 HS1 HS2]
      · iapply (Phi1Of_close (F := F) c _ _ _)
        isplitl [HR]; · iexact HR
        isplitl [HS0]; · iexact HS0
        isplitl [HS1]; · iexact HS1
        iexact HS2
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idleAt1_4 t (fun h => h1 ((hcond1_1 t).mp h))) (noFlush1_4 t h1)]
      iintro ⟨HP, Ho, ⟨%d0, H0⟩, ⟨%d1, H1⟩, ⟨%d2, H2⟩, ⟨%d3, H3⟩, ⟨%d4, H4⟩⟩
      icases (Phi1Of_open (F := F) c _ _ _) $$ HP with ⟨HR, HS0, HS1, HS2⟩
      iapply (sound_kernel1_B c Set.univ (grid1.coords t) _ (hs1_0 t) _ (hs1_1 t) _ (hs1_2 t) _ (hs1_3 t) _ (hs1_4 t) _ (Memref.isWhole_whole _) _ (Memref.isWhole_whole _) _ (Memref.isWhole_whole _) (fun h => h0 ((hcond1_0 t).mp h)) (fun h => h1 ((hcond1_1 t).mp h)) (iblk1 V c 0 t) (iblk1 V c 1 t) (iblk1 V c 2 t) (iblk1 V c 3 t) (scAt1 V c (t.val - 1) (Nat.lt_of_le_of_lt (Nat.sub_le _ _) t.isLt)) ((dat1 V c).before 4 t d4) _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HR HS0 HS1 HS2]
      · iapply (Phi1Of_close (F := F) c _ _ _)
        isplitl [HR]; · iexact HR
        isplitl [HS0]; · iexact HS0
        isplitl [HS1]; · iexact HS1
        iexact HS2
      isplitl [Ho]; · iexact Ho
      isplitl [H0]; · iexact H0
      isplitl [H1]; · iexact H1
      isplitl [H2]; · iexact H2
      isplitl [H3]; · iexact H3
      iexists d4; iexact H4

/-- The library's body obligation for the attention call, at every grid point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named state is forgotten. -/
theorem Phi1_out (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro HP
  icases (Phi1Of_open (F := F) c _ _ _) $$ HP with ⟨HR, HS0, HS1, HS2⟩
  iapply (Phi1Of_close (F := F) c _ _ _)
  isplitl [HR]; · iexact HR
  isplitl [HS0]; · iexists _; iexact HS0
  isplitl [HS1]; · iexists _; iexact HS1
  iexists _; iexact HS2

/-- After the last point the invariant gives the class's back: the scratch contents are forgotten. -/
theorem hout1 (c : Dev nD) : (dat1 V c).Φ (Fin.last cfg1.N) ⊢ (Pipeline.ΦA spec1 c : sProp 𝕄) :=
  Phi1_out V c _ (by rw [Fin.val_last]; have : cfg1.N = 64 := N_1; omega)

end

end Cert.Kernel.Hand

end
-- ==== Proof.K.Run.lean ====
/-
  The run of @main, from the launch to the return, as four segments: the host operations before the projection
  call, the projection call, the transpose between the calls, the attention call.  The buffer contents at each
  boundary are a fold from the launch memory: a host stretch leaves its operations' results, a call leaves each
  window's array at what its write-backs fold to and every other buffer as entered.  The run's post reads every
  unscoped buffer of the TensorCore at the last boundary's contents; from it each argument array is read back to
  its launch contents, and the arrays the calls are entered with are read off the fold.
-/
import proofs.«413953_j28767690949412_3_alg».proof.Proof.K.Body0
import proofs.«413953_j28767690949412_3_alg».proof.Proof.K.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data's arrays are the contents the region is entered with -/

theorem dat0_A (V : (c : Dev nD) → (b : Ref sig .tc) → Buf (Elt F) ((c : Thread nD τ).loc b)) (c : Dev nD) (w : Fin cfg0.W) :
    (dat0 V c).A w = V c (Pipeline.arrRef spec0 w) := by
  dsimp only [dat0]
theorem dat1_A (V : (c : Dev nD) → (b : Ref sig .tc) → Buf (Elt F) ((c : Thread nD τ).loc b)) (c : Dev nD) (w : Fin cfg1.W) :
    (dat1 V c).A w = V c (Pipeline.arrRef spec1 w) := by
  dsimp only [dat1]

/-! ## What the host stretches write, and what they keep -/

/-- No operation of the first stretch allocates a buffer. -/
theorem hostOps0_fresh : (hostOps0 : List (HloOp τ sig (Elt F))).Forall fun op => op.fresh = ∅ := by
  simp only [List.Forall]; repeat' constructor
/-- No operation of the second stretch allocates a buffer. -/
theorem hostOps1_fresh : (hostOps1 : List (HloOp τ sig (Elt F))).Forall fun op => op.fresh = ∅ := by
  simp only [List.Forall]; repeat' constructor

/-- The first stretch writes only the two slices and their transposes. -/
theorem hostOps0_writes : (hostOps0 : List (HloOp τ sig (Elt F))).Forall fun op =>
    op.writes ⊆ (([main_v0, main_v1, main_v2, main_v3] : List (Ref sig .tc)).map (Proc.devRef (τ := τ) .tc)).toFinset := by
  simp only [List.Forall]
  refine ⟨?_, ?_, ?_, ?_⟩ <;>
  · simp only [StableHlo.unary_writes, Finset.singleton_subset_iff, List.mem_toFinset]
    exact List.mem_map_of_mem (by decide)
/-- The second stretch writes only the transposed score row. -/
theorem hostOps1_writes : (hostOps1 : List (HloOp τ sig (Elt F))).Forall fun op =>
    op.writes ⊆ (([main_v5] : List (Ref sig .tc)).map (Proc.devRef (τ := τ) .tc)).toFinset := by
  simp only [List.Forall]
  simp only [StableHlo.unary_writes, Finset.singleton_subset_iff, List.mem_toFinset]
  exact List.mem_map_of_mem (by decide)

/-- A buffer the first stretch does not write keeps its contents through it. -/
theorem hostOps0_keeps (W : Valuation τ sig (Elt F)) (r : Ref sig .tc)
    (h : r ∉ ([main_v0, main_v1, main_v2, main_v3] : List (Ref sig .tc))) :
    StableHlo.after hostOps0 W (Proc.devRef .tc r) = W (Proc.devRef .tc r) :=
  StableHlo.after_of_writes_sub hostOps0 _ hostOps0_writes h
/-- A buffer the second stretch does not write keeps its contents through it. -/
theorem hostOps1_keeps (W : Valuation τ sig (Elt F)) (r : Ref sig .tc) (h : r ∉ ([main_v5] : List (Ref sig .tc))) :
    StableHlo.after hostOps1 W (Proc.devRef .tc r) = W (Proc.devRef .tc r) :=
  StableHlo.after_of_writes_sub hostOps1 _ hostOps1_writes h

/-! ## The buffer contents at each segment boundary: a fold through @main -/

/-- Core `c`'s buffers at launch. -/
abbrev W0 : Dev nD → Valuation τ sig (Elt F) := fun c b => (s₀ m ρ).mem ((c : Dev nD), b)
/-- After the first host stretch (the projection call's entry). -/
abbrev W1 : Dev nD → Valuation τ sig (Elt F) := fun c => StableHlo.after hostOps0 (W0 m ρ c)
/-- The same read at the TensorCore's references (what the projection's proof data take). -/
abbrev V1 : (c : Dev nD) → (b : Ref sig .tc) → Buf (Elt F) ((c : Thread nD τ).loc b) := fun c b => W1 m ρ c b
/-- At the projection call's exit: its arrays at what the pipeline leaves (the inputs as entered, each output's
    write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the projection call's exit contents). -/
abbrev V2 : (c : Dev nD) → (b : Ref sig .tc) → Buf (Elt F) ((c : Thread nD τ).loc b) := fun c b => W2 m ρ c b
/-- At the projection call's exit each of its arrays holds what the pipeline leaves and every other buffer what
    it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention call's entry). -/
abbrev W3 : Dev nD → Valuation τ sig (Elt F) := fun c => StableHlo.after hostOps1 (W2 m ρ c)
/-- The same read at the TensorCore's references (what the attention call's proof data take). -/
abbrev V3 : (c : Dev nD) → (b : Ref sig .tc) → Buf (Elt F) ((c : Thread nD τ).loc b) := fun c b => W3 m ρ c b
/-- At the attention call's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (the attention call's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host operation writes one, and a call reads it through an input window
    or bypasses it, so the fold at an argument's buffer walks back to the launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) :=
          (W4_arr m ρ c 0).trans (((dat1 (V3 m ρ) c).arrAt_in 0 rfl _).trans (dat1_A (V3 m ρ) c 0))
    _ = W2 m ρ c (Proc.devRef .tc main_arg0) := hostOps1_keeps _ main_arg0 (by decide)
    _ = W1 m ρ c (Proc.devRef .tc main_arg0) := W2_of_ne m ρ c main_arg0 (by decide)
    _ = W0 m ρ c (Proc.devRef .tc main_arg0) := hostOps0_keeps _ main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := hostOps1_keeps _ main_arg1 (by decide)
    _ = W1 m ρ c (Proc.devRef .tc main_arg1) :=
          (W2_arr m ρ c 0).trans (((dat0 (V1 m ρ) c).arrAt_in 0 rfl _).trans (dat0_A (V1 m ρ) c 0))
    _ = W0 m ρ c (Proc.devRef .tc main_arg1) := hostOps0_keeps _ main_arg1 (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := hostOps1_keeps _ main_arg2 (by decide)
    _ = W1 m ρ c (Proc.devRef .tc main_arg2) :=
          (W2_arr m ρ c 1).trans (((dat0 (V1 m ρ) c).arrAt_in 1 rfl _).trans (dat0_A (V1 m ρ) c 1))
    _ = W0 m ρ c (Proc.devRef .tc main_arg2) := hostOps0_keeps _ main_arg2 (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := hostOps1_keeps _ main_arg3 (by decide)
    _ = W1 m ρ c (Proc.devRef .tc main_arg3) := W2_of_ne m ρ c main_arg3 (by decide)
    _ = W0 m ρ c (Proc.devRef .tc main_arg3) := hostOps0_keeps _ main_arg3 (by decide)
    _ = m ((c : Thread nD τ).loc main_arg3) := rfl

/-- The attention call's output array ends at what its write-backs fold to. -/
theorem W4_main_v6 (c : Dev nD) : W4 m ρ c (Proc.devRef .tc main_v6) = (dat1 (V3 m ρ) c).arrAt 4 cfg1.N :=
  W4_arr m ρ c 4

/-! ### The arrays the calls are entered with -/

theorem V1_main_arg1 (c : Dev nD) : V1 m ρ c main_arg1 = m ((c : Thread nD τ).loc main_arg1) :=
  hostOps0_keeps _ main_arg1 (by decide)
theorem V1_main_arg2 (c : Dev nD) : V1 m ρ c main_arg2 = m ((c : Thread nD τ).loc main_arg2) :=
  hostOps0_keeps _ main_arg2 (by decide)

/-- The first row the projection reads: the upper half of the column `a`, transposed. -/
theorem V1_main_v1 (c : Dev nD) : V1 m ρ c main_v1
    = transpose S1x128 [1, 0] (extractStridedSlice S128x1 ![0, 0] (m ((c : Thread nD τ).loc main_arg3)) slices_S256x1_S128x1_0_0) transposes_S128x1_S1x128_1_0 := by
  show StableHlo.after hostOps0 _ (Proc.devRef .tc main_v1) = _
  after_results
/-- The second row the projection reads: the lower half of the column `a`, transposed. -/
theorem V1_main_v3 (c : Dev nD) : V1 m ρ c main_v3
    = transpose S1x128 [1, 0] (extractStridedSlice S128x1 ![128, 0] (m ((c : Thread nD τ).loc main_arg3)) slices_S256x1_S128x1_128_0) transposes_S128x1_S1x128_1_0 := by
  show StableHlo.after hostOps0 _ (Proc.devRef .tc main_v3) = _
  after_results

theorem V3_main_arg0 (c : Dev nD) : V3 m ρ c main_arg0 = m ((c : Thread nD τ).loc main_arg0) :=
  calc V3 m ρ c main_arg0
    _ = W2 m ρ c (Proc.devRef .tc main_arg0) := hostOps1_keeps _ main_arg0 (by decide)
    _ = W1 m ρ c (Proc.devRef .tc main_arg0) := W2_of_ne m ρ c main_arg0 (by decide)
    _ = W0 m ρ c (Proc.devRef .tc main_arg0) := hostOps0_keeps _ main_arg0 (by decide)
    _ = m ((c : Thread nD τ).loc main_arg0) := rfl

theorem V3_main_v4_0 (c : Dev nD) : V3 m ρ c main_v4_0 = (dat0 (V1 m ρ) c).arrAt 4 cfg0.N :=
  (hostOps1_keeps _ main_v4_0 (by decide)).trans (W2_arr m ρ c 4)
theorem V3_main_v4_1 (c : Dev nD) : V3 m ρ c main_v4_1 = (dat0 (V1 m ρ) c).arrAt 5 cfg0.N :=
  (hostOps1_keeps _ main_v4_1 (by decide)).trans (W2_arr m ρ c 5)
/-- The score row the attention call reads: the projection's second score column, transposed. -/
theorem V3_main_v5 (c : Dev nD) : V3 m ρ c main_v5
    = transpose S1x8192 [1, 0] ((dat0 (V1 m ρ) c).arrAt 6 cfg0.N) transposes_S8192x1_S1x8192_1_0 := by
  have e : V3 m ρ c main_v5 = transpose S1x8192 [1, 0] (W2 m ρ c (Proc.devRef .tc main_v4_2)) transposes_S8192x1_S1x8192_1_0 := by
    show StableHlo.after hostOps1 _ (Proc.devRef .tc main_v5) = _
    after_results
  rw [e, W2_arr m ρ c 6]

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the
    generator register at some state. -/
abbrev Tₙ (c : Dev nD) : sProp 𝕄 := iprop(StableHlo.held (c : Thread nD τ) (Pipeline.ucRefs τ sig) (W4 m ρ c) ∗ ∃ r, prngReg c r)

/-! ## The calls as segments -/

set_option backward.isDefEq.respectTransparency.types false in
/-- The projection call over the thread state: entered from every unscoped buffer at `W1`, left at `W2`.  Its
    arrays split out of the unscoped buffers and put back at the exit contents; the generator register into the
    class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call over the thread state: entered from every unscoped buffer at `W3`, left at `W4`.  Its
    arrays split out of the unscoped buffers and put back at the exit contents; its invariant is entered from the
    class's (the scratch buffers at anything) and gives the class's back after the last point (the scratch contents
    forgotten); nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    refine (show _ ⊢ (Pipeline.ΦA spec1 c : sProp 𝕄) from ?_).trans (hin1 (V3 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V3 m ρ) c).Φ (Fin.last cfg1.N) from rfl]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order: a host segment per stretch from its boundary's contents, a region per call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- At the compiled mesh, from any memory with zero counters, every weakly fair execution of @main on the
    TensorCores terminates, nothing faulting, and every final state has each unscoped buffer of each core at the
    last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- Every argument array ends as launched: each is an unscoped buffer, read at the last boundary's contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_main m ρ)

end Cert.Kernel.Hand

end
-- ==== Proof.KI.Data.lean ====
/-
  The proof data of the two pallas_calls, as definitions only (no proofs here).

  Region 0 (the projection): at grid point t the body reads the h-block x0 (2048×128), the whole W (x1), the two
  rows a1 (x2) and a2 (x3), and leaves  Wh = x0·W  (stored in the bf16 output),  Wh·a1ᵀ  and  Wh·a2ᵀ  (two columns).
  Region 1 (the attention): grid 8×8, point t = 8·i + j.  Three scratch buffers are carried along j:
  the running row maximum m, the running denominator l and the running numerator acc.  They are reset at j = 0,
  updated at every j from the block's masked scores, and at j = 7 the output block  elu(acc / l)  is stored.
-/
import proofs.«413953_j28767690949412_3_alg».proof.Proof.Gen.KernelIdeal.Launch
import proofs.«413953_j28767690949412_3_alg».proof.Proof.Gen.KernelIdeal.Skeleton
import proofs.«413953_j28767690949412_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered
variable (V : (c : Dev nD) → (b : Ref sig .tc) → Buf (Elt F) ((c : Thread nD τ).loc b))

/-! ## Region 0: the projection -/

/-- Window `w`'s block at point `t` of the projection, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The bf16 output block: the product of the h-block with W. -/
def out0_4 (x0 : Vec F S2048x128 .f32) (x1 : Vec F S128x128 .f32) : Vec F S2048x128 .bf16 := k0_pay2 x0 x1
/-- The first score column: each row of the product against the row a1. -/
def out0_5 (x0 : Vec F S2048x128 .f32) (x1 : Vec F S128x128 .f32) (x2 : Vec F S1x128 .f32) : Vec F S2048x1 .f32 := k0_pay3 x0 x1 x2
/-- The second score column: each row of the product against the row a2. -/
def out0_6 (x0 : Vec F S2048x128 .f32) (x1 : Vec F S128x128 .f32) (x3 : Vec F S1x128 .f32) : Vec F S2048x1 .f32 := k0_pay4 x0 x1 x3

/-- The projection's proof data: inputs stay at their blocks, each output holds its function of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

/-! ## Region 1: the attention -/

/-- Window `w`'s block at point `t` of the attention call, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three scratch operands as whole memrefs. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x128 .f32 := Memref.whole cc1_scratch2

/-- The carried state: running maximum, running denominator, running numerator. -/
abbrev St1 (F : FTy → Type) [FloatOps F] : Type := Vec F S1024x1 .f32 × Vec F S1024x1 .f32 × Vec F S1024x128 .f32

/-- The state the reset at j = 0 stores: -inf, 0, 0. -/
def reset1 : St1 F := (k1_pay4, k1_pay5, k1_pay6)

/-- One update of the state from the blocks: x0 the adjacency block, x1 the column of first scores,
    x2 the row of second scores, x3 the block of Wh rows. -/
def step1 (s : St1 F) (x0 : Vec F S1024x1024 .i32) (x1 : Vec F S1024x1 .f32) (x2 : Vec F S1x1024 .f32) (x3 : Vec F S1024x128 .bf16) : St1 F :=
  (k1_pay2 (k1_pay8 x1 x2 x0 s.1),
   k1_pay11 x1 x2 x0 s.1 s.1 s.2.1,
   k1_pay1 (k1_pay9 x1 x2 x0 s.1 s.1) (k1_pay10 x1 x2 x0 s.1) x3 s.2.2)

/-- What the last column step stores into the output block: elu(acc / l). -/
def out1_4 (s : St1 F) : Vec F S1024x128 .f32 := k1_pay3 s.2.2 s.2.1

/-- The state after point `n`: the update applied to the reset state at the start of a row of blocks
    (n ≡ 0 mod 8), to the state after point n-1 otherwise. -/
def scAt1 (c : Dev nD) : (n : ℕ) → n < cfg1.N → St1 F
  | 0, hn => step1 reset1 (iblk1 V c 0 ⟨0, hn⟩) (iblk1 V c 1 ⟨0, hn⟩) (iblk1 V c 2 ⟨0, hn⟩) (iblk1 V c 3 ⟨0, hn⟩)
  | n + 1, hn => step1 (if (n + 1) % 8 = 0 then reset1 else scAt1 c n (Nat.lt_of_succ_lt hn))
      (iblk1 V c 0 ⟨n + 1, hn⟩) (iblk1 V c 1 ⟨n + 1, hn⟩) (iblk1 V c 2 ⟨n + 1, hn⟩) (iblk1 V c 3 ⟨n + 1, hn⟩)

/-- The region invariant before position `n`: before the first point the class's (every scoped buffer at anything);
    afterwards the other call's staging buffers at anything, the three scratch buffers at the state after point n-1,
    and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f)
      ∗ owns (c : Thread nD τ) scM1_0 fullShare (scAt1 V c n hn).1
      ∗ owns (c : Thread nD τ) scM1_1 fullShare (scAt1 V c n hn).2.1
      ∗ owns (c : Thread nD τ) scM1_2 fullShare (scAt1 V c n hn).2.2) ∗ (∃ r, prngReg c r))

/-- The attention call's proof data: inputs stay at their blocks; the output block holds elu(acc / l) of the
    state after the point (consulted only at the points j = 7, where it is written back). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (scAt1 V c t.val t.isLt)
  Φ t := PhiS1 V c t.val (Nat.le_of_lt_succ t.isLt)
  q _ := fullShare
  owed _ := 0

end Regions

end Cert.KernelIdeal.Hand

end
-- ==== Proof.KI.Body0.lean ====
/-
  The projection call's body at a grid point: it leaves each input block in place and each output buffer at its
  function of the input blocks (the proof data of KI/Data.lean).
-/
import proofs.«413953_j28767690949412_3_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The input windows hold their blocks -/

/-- Input window 0's current staging buffer holds its block at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole W, a constant index map) holds its block at every point: fetched at the first point,
    and where it is not fetched the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the row a1, a constant index map) holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the row a2, a constant index map) holds its block at every point. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's triple -/

/-- The zero offsets of a rank-2 access, as a constant function. -/
theorem zero_off2 : (![0, 0] : Fin 2 → Nat) = fun _ => 0 := funext fun a => by fin_cases a <;> rfl

/-- One store through the whole-shape rectangle at zero offsets, over any prior contents, reads back as its payload:
    the rectangle holds every index, so the store covers the buffer. -/
theorem read_write_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  rw [View.read_writes_eq_canon v f _ (fun y => ⟨_, List.mem_singleton_self _, View.mem_set_unit_zero h inb y⟩),
    View.canon_unit_zero h inb]

/-- A load through the whole-shape rectangle at zero offsets reads the view's contents. -/
theorem readAt_whole {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f := by
  rw [View.readAt_eq_ld, View.ld_unit_zero h inb]

set_option maxHeartbeats 1000000 in
/-- The kernel body on whole staging memrefs, the inputs' at read contents x0..x3 and the outputs' at anything (each
    output buffer is loaded before it is stored, and the loaded value is dropped), runs to the continuation holding
    the inputs' as they were and the outputs' at the product, and the product's two score columns. -/
theorem sound_kernel0 (c : Dev nD) (E : Set ℕ) (i : grid0.Coords)
    (arg1 : Memref sig .tc .vmem S2048x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S2048x128 .bf16) (harg5 : arg5.IsWhole)
    (arg6 : Memref sig .tc .vmem S2048x1 .f32) (harg6 : arg6.IsWhole)
    (arg7 : Memref sig .tc .vmem S2048x1 .f32) (harg7 : arg7.IsWhole)
    (x0 : Vec F S2048x128 .f32) (x1 : Vec F S128x128 .f32) (x2 : Vec F S1x128 .f32) (x3 : Vec F S1x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1)
            ∗ owns (c : Thread nD τ) arg6 fullShare (out0_5 x0 x1 x2)
            ∗ owns (c : Thread nD τ) arg7 fullShare (out0_6 x0 x1 x3)) -∗ K ⟨⟩))
      ⊢ wp frame (wpE (defs₀ (F := F)) Variants.none c none) E
          (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold out0_4
    rw [read_write_whole _ _ zero_off2, readAt_whole _ _ zero_off2, readAt_whole _ _ zero_off2]
  isplitl [H5]
  · iexists _; isplitr
    swap; · iexact H5
    ipureintro
    unfold out0_5
    rw [read_write_whole _ _ zero_off2, readAt_whole _ _ zero_off2, readAt_whole _ _ zero_off2, readAt_whole _ _ zero_off2]
  iexists _; isplitr
  swap; · iexact H6
  ipureintro
  unfold out0_6
  rw [read_write_whole _ _ zero_off2, readAt_whole _ _ zero_off2, readAt_whole _ _ zero_off2, readAt_whole _ _ zero_off2]

/-! ## The proof data, projected -/

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`: the invariant, the core's debts, and the seven windows one by one. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for the projection call, at every grid point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KI.Kernel1.lean ====
/-
  The attention call's body as three triples, one per position of the column step j in its row of blocks:
  the first step (j = 0: the scratch is reset, then updated), a middle step (updated only) and the last step
  (j = 7: updated, then the output block stored). On whole memrefs: the four input blocks are left in place; the
  scratch goes from the state before to the state after (Data.lean's `step1`); the output buffer is handed back
  untouched at the first and middle steps and holds elu(acc / l) after the last.
-/
import proofs.«413953_j28767690949412_3_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition (the reset): the column step is 0. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)
/-- The second branch's condition (the output's store): the column step is 7. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-- The two zero offsets of a rank-2 rectangle, as the constant function. -/
theorem hz2 : (![0, 0] : Fin 2 → Nat) = fun _ => 0 := funext fun a => by fin_cases a <;> rfl

/-- A store through the whole-shape rectangle, last in the list, leaves its payload: the rectangle covers every
    index, so the contents read as the canonical form of the pieces, whose head wins. -/
theorem read_writes_unit {S : Shape} {e : EltTy} (v : View sig .tc .vmem S e) (f : v.ty.Contents (Elt F))
    {off : Fin S.rank → Nat} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero hz inb y⟩),
    View.canon_cons_unit_zero hz]

/-- A load through the whole-shape rectangle of a whole memref at the contents that read `X` reads `X`. -/
theorem readAt_unit {S : Shape} {e : EltTy} {m : Memref sig .tc .vmem S e} (h : m.IsWhole)
    {off : Fin S.rank → Nat} (hz : off = fun _ => 0) (inb : ∀ a, off a + S.size a ≤ S.size a) (X : S.Idx → Elt F e) :
    View.readAt (Elt F) m.view (Rect.unit off S.size inb).toLoadRect (h.unread X) = X := by
  rw [View.readAt_eq_ld, h.read_unread, View.ld_unit_zero hz]

set_option maxHeartbeats 1000000 in
/-- The first column step: whatever the scratch held, it ends at the update of the reset state; the output buffer is untouched. -/
theorem sound_kernel1_A (c : Dev nD) (E : Set ℕ) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole)
    (hc0 : cond1_0 i) (hc1 : ¬cond1_1 i) (x0 : Vec F S1024x1024 .i32) (x1 : Vec F S1024x1 .f32) (x2 : Vec F S1x1024 .f32) (x3 : Vec F S1024x128 .bf16) (xo : Vec F S1024x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo
            ∗ owns (c : Thread nD τ) arg7 fullShare (step1 reset1 x0 x1 x2 x3).1 ∗ owns (c : Thread nD τ) arg8 fullShare (step1 reset1 x0 x1 x2 x3).2.1 ∗ owns (c : Thread nD τ) arg9 fullShare (step1 reset1 x0 x1 x2 x3).2.2) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3
  obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr; swap; · iexact HS0
    ipureintro
    sl_unfold_run_names
    refine (read_writes_unit _ _ hz2 _ _ _).trans ?_
    dsimp only
    simp only [readAt_unit (S := S1024x1) _ hz2, readAt_unit (S := S1x1024) _ hz2, readAt_unit (S := S1024x1024) _ hz2, readAt_unit (S := S1024x128) _ hz2, View.readCov_unit_zero (S := S1024x1) _ hz2, View.readCov_unit_zero (S := S1024x128) _ hz2]
    rfl
  isplitl [HS1]
  · iexists _; isplitr; swap; · iexact HS1
    ipureintro
    sl_unfold_run_names
    refine (read_writes_unit _ _ hz2 _ _ _).trans ?_
    dsimp only
    simp only [readAt_unit (S := S1024x1) _ hz2, readAt_unit (S := S1x1024) _ hz2, readAt_unit (S := S1024x1024) _ hz2, readAt_unit (S := S1024x128) _ hz2, View.readCov_unit_zero (S := S1024x1) _ hz2, View.readCov_unit_zero (S := S1024x128) _ hz2]
    rfl
  · iexists _; isplitr; swap; · iexact HS2
    ipureintro
    sl_unfold_run_names
    refine (read_writes_unit _ _ hz2 _ _ _).trans ?_
    dsimp only
    simp only [readAt_unit (S := S1024x1) _ hz2, readAt_unit (S := S1x1024) _ hz2, readAt_unit (S := S1024x1024) _ hz2, readAt_unit (S := S1024x128) _ hz2, View.readCov_unit_zero (S := S1024x1) _ hz2, View.readCov_unit_zero (S := S1024x128) _ hz2]
    rfl

set_option maxHeartbeats 1000000 in
/-- A middle column step: the scratch goes from the state `s` to its update; the output buffer is untouched. -/
theorem sound_kernel1_B (c : Dev nD) (E : Set ℕ) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole)
    (hc0 : ¬cond1_0 i) (hc1 : ¬cond1_1 i) (x0 : Vec F S1024x1024 .i32) (x1 : Vec F S1024x1 .f32) (x2 : Vec F S1x1024 .f32) (x3 : Vec F S1024x128 .bf16) (s : St1 F) (xo : Vec F S1024x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo
        ∗ owns (c : Thread nD τ) arg7 fullShare s.1 ∗ owns (c : Thread nD τ) arg8 fullShare s.2.1 ∗ owns (c : Thread nD τ) arg9 fullShare s.2.2
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo
            ∗ owns (c : Thread nD τ) arg7 fullShare (step1 s x0 x1 x2 x3).1 ∗ owns (c : Thread nD τ) arg8 fullShare (step1 s x0 x1 x2 x3).2.1 ∗ owns (c : Thread nD τ) arg9 fullShare (step1 s x0 x1 x2 x3).2.2) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hfs0; obtain rfl := harg8.eq_unread hfs1; obtain rfl := harg9.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr; swap; · iexact HS0
    ipureintro
    refine (read_writes_unit _ _ hz2 _ _ _).trans ?_
    dsimp only
    simp only [readAt_unit (S := S1024x1) _ hz2, readAt_unit (S := S1x1024) _ hz2, readAt_unit (S := S1024x1024) _ hz2, readAt_unit (S := S1024x128) _ hz2]
    rfl
  isplitl [HS1]
  · iexists _; isplitr; swap; · iexact HS1
    ipureintro
    refine (read_writes_unit _ _ hz2 _ _ _).trans ?_
    dsimp only
    simp only [readAt_unit (S := S1024x1) _ hz2, readAt_unit (S := S1x1024) _ hz2, readAt_unit (S := S1024x1024) _ hz2, readAt_unit (S := S1024x128) _ hz2]
    rfl
  · iexists _; isplitr; swap; · iexact HS2
    ipureintro
    refine (read_writes_unit _ _ hz2 _ _ _).trans ?_
    dsimp only
    simp only [readAt_unit (S := S1024x1) _ hz2, readAt_unit (S := S1x1024) _ hz2, readAt_unit (S := S1024x1024) _ hz2, readAt_unit (S := S1024x128) _ hz2]
    rfl

set_option maxHeartbeats 1000000 in
/-- The last column step: the scratch goes from the state `s` to its update, and the output buffer ends at elu(acc / l) of it. -/
theorem sound_kernel1_C (c : Dev nD) (E : Set ℕ) (i : grid1.Coords) (arg2 : Memref sig .tc .vmem S1024x1024 .i32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole)
    (hc0 : ¬cond1_0 i) (hc1 : cond1_1 i) (x0 : Vec F S1024x1024 .i32) (x1 : Vec F S1024x1 .f32) (x2 : Vec F S1x1024 .f32) (x3 : Vec F S1024x128 .bf16) (s : St1 F) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d)
        ∗ owns (c : Thread nD τ) arg7 fullShare s.1 ∗ owns (c : Thread nD τ) arg8 fullShare s.2.1 ∗ owns (c : Thread nD τ) arg9 fullShare s.2.2
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (out1_4 (step1 s x0 x1 x2 x3))
            ∗ owns (c : Thread nD τ) arg7 fullShare (step1 s x0 x1 x2 x3).1 ∗ owns (c : Thread nD τ) arg8 fullShare (step1 s x0 x1 x2 x3).2.1 ∗ owns (c : Thread nD τ) arg9 fullShare (step1 s x0 x1 x2 x3).2.2) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3
  obtain rfl := harg7.eq_unread hfs0; obtain rfl := harg8.eq_unread hfs1; obtain rfl := harg9.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    sl_unfold_run_names
    refine (read_writes_unit _ _ hz2 _ _ _).trans ?_
    dsimp only
    simp only [readAt_unit (S := S1024x1) _ hz2, readAt_unit (S := S1x1024) _ hz2, readAt_unit (S := S1024x1024) _ hz2, readAt_unit (S := S1024x128) _ hz2, View.readCov_unit_zero (S := S1024x1) _ hz2, View.readCov_unit_zero (S := S1024x128) _ hz2]
    rfl
  isplitl [HS0]
  · iexists _; isplitr; swap; · iexact HS0
    ipureintro
    sl_unfold_run_names
    refine (read_writes_unit _ _ hz2 _ _ _).trans ?_
    dsimp only
    simp only [readAt_unit (S := S1024x1) _ hz2, readAt_unit (S := S1x1024) _ hz2, readAt_unit (S := S1024x1024) _ hz2, readAt_unit (S := S1024x128) _ hz2, View.readCov_unit_zero (S := S1024x1) _ hz2, View.readCov_unit_zero (S := S1024x128) _ hz2]
    rfl
  isplitl [HS1]
  · iexists _; isplitr; swap; · iexact HS1
    ipureintro
    sl_unfold_run_names
    refine (read_writes_unit _ _ hz2 _ _ _).trans ?_
    dsimp only
    simp only [readAt_unit (S := S1024x1) _ hz2, readAt_unit (S := S1x1024) _ hz2, readAt_unit (S := S1024x1024) _ hz2, readAt_unit (S := S1024x128) _ hz2, View.readCov_unit_zero (S := S1024x1) _ hz2, View.readCov_unit_zero (S := S1024x128) _ hz2]
    rfl
  · iexists _; isplitr; swap; · iexact HS2
    ipureintro
    sl_unfold_run_names
    refine (read_writes_unit _ _ hz2 _ _ _).trans ?_
    dsimp only
    simp only [readAt_unit (S := S1024x1) _ hz2, readAt_unit (S := S1x1024) _ hz2, readAt_unit (S := S1024x1024) _ hz2, readAt_unit (S := S1024x128) _ hz2, View.readCov_unit_zero (S := S1024x1) _ hz2, View.readCov_unit_zero (S := S1024x128) _ hz2]
    rfl

end Cert.KernelIdeal.Hand

end
-- ==== Proof.KI.Body1.lean ====
/-
  The attention call's body at a grid point: it leaves each input block in place, takes the three scratch buffers from
  the state after the point before (anything at the first point) to the state after this point, and at the last
  column step stores the output block.
-/
import proofs.«413953_j28767690949412_3_alg».proof.Proof.KI.Kernel1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The carried state, point by point -/

/-- At the first column step of a row of blocks the state is the update of the reset state. -/
theorem scAt1_reset (c : Dev nD) (t : Fin cfg1.N) (h0 : t.val % 8 = 0) :
    scAt1 V c t.val t.isLt = step1 reset1 (iblk1 V c 0 t) (iblk1 V c 1 t) (iblk1 V c 2 t) (iblk1 V c 3 t) := by
  obtain ⟨n, hn⟩ := t
  cases n with
  | zero => exact rfl
  | succ n =>
    dsimp only at h0
    dsimp only [scAt1]
    rw [if_pos h0]

/-- At any other column step it is the update of the state after the point before. -/
theorem scAt1_step (c : Dev nD) (t : Fin cfg1.N) (h0 : ¬t.val % 8 = 0) :
    scAt1 V c t.val t.isLt = step1 (scAt1 V c (t.val - 1) (Nat.lt_of_le_of_lt (Nat.sub_le _ _) t.isLt))
      (iblk1 V c 0 t) (iblk1 V c 1 t) (iblk1 V c 2 t) (iblk1 V c 3 t) := by
  obtain ⟨n, hn⟩ := t
  cases n with
  | zero => exact (by exfalso; (try dsimp only at h0); exact absurd (Nat.zero_mod _) h0)
  | succ n =>
    dsimp only at h0
    dsimp only [scAt1]
    rw [if_neg h0]
    rfl

/-! ## The invariant, position by position -/

/-- One scoped buffer whole at some contents. -/
abbrev anyAt (c : Dev nD) (b : Ref sig .tc) : sProp 𝕄 :=
  iprop(∃ f : Buf (Elt F) ((c : Thread nD τ).loc b), ((c : Thread nD τ).loc b) ↦{fullShare} f)

/-- The invariant's shape around the three scratch buffers: the other call's staging buffers at anything, the scratch
    buffers at `P0`, `P1`, `P2`, the generator register at some state. -/
def Phi1Of (c : Dev nD) (P0 P1 P2 : sProp 𝕄) : sProp 𝕄 :=
  iprop(iprop(anyAt c cc0_stg0_0 ∗ anyAt c cc0_stg0_1 ∗ anyAt c cc0_stg1_0 ∗ anyAt c cc0_stg2_0 ∗ anyAt c cc0_stg3_0 ∗ anyAt c cc0_stg4_0 ∗ anyAt c cc0_stg4_1 ∗ anyAt c cc0_stg5_0 ∗ anyAt c cc0_stg5_1 ∗ anyAt c cc0_stg6_0 ∗ anyAt c cc0_stg6_1
      ∗ P0 ∗ P1 ∗ P2) ∗ (∃ r, prngReg c r))

/-- What of the invariant the body never touches. -/
def Rest1 (c : Dev nD) : sProp 𝕄 :=
  iprop(anyAt c cc0_stg0_0 ∗ anyAt c cc0_stg0_1 ∗ anyAt c cc0_stg1_0 ∗ anyAt c cc0_stg2_0 ∗ anyAt c cc0_stg3_0 ∗ anyAt c cc0_stg4_0 ∗ anyAt c cc0_stg4_1 ∗ anyAt c cc0_stg5_0 ∗ anyAt c cc0_stg5_1 ∗ anyAt c cc0_stg6_0 ∗ anyAt c cc0_stg6_1
      ∗ (∃ r, prngReg c r))

/-- The scratch buffers taken out of the invariant's shape, -/
theorem Phi1Of_open (c : Dev nD) (P0 P1 P2 : sProp 𝕄) : Phi1Of (F := F) c P0 P1 P2 ⊢ iprop(Rest1 (F := F) c ∗ P0 ∗ P1 ∗ P2) := by
  unfold Phi1Of Rest1
  iintro ⟨⟨E0, E1, E2, E3, E4, E5, E6, E7, E8, E9, E10, H0, H1, H2⟩, Hg⟩
  isplitl [E0 E1 E2 E3 E4 E5 E6 E7 E8 E9 E10 Hg]
  · isplitl [E0]; · iexact E0
    isplitl [E1]; · iexact E1
    isplitl [E2]; · iexact E2
    isplitl [E3]; · iexact E3
    isplitl [E4]; · iexact E4
    isplitl [E5]; · iexact E5
    isplitl [E6]; · iexact E6
    isplitl [E7]; · iexact E7
    isplitl [E8]; · iexact E8
    isplitl [E9]; · iexact E9
    isplitl [E10]; · iexact E10
    iexact Hg
  isplitl [H0]; · iexact H0
  isplitl [H1]; · iexact H1
  iexact H2

/-- and put back. -/
theorem Phi1Of_close (c : Dev nD) (P0 P1 P2 : sProp 𝕄) : iprop(Rest1 (F := F) c ∗ P0 ∗ P1 ∗ P2) ⊢ Phi1Of (F := F) c P0 P1 P2 := by
  unfold Phi1Of Rest1
  iintro ⟨⟨E0, E1, E2, E3, E4, E5, E6, E7, E8, E9, E10, Hg⟩, H0, H1, H2⟩
  isplitr [Hg]
  · isplitl [E0]; · iexact E0
    isplitl [E1]; · iexact E1
    isplitl [E2]; · iexact E2
    isplitl [E3]; · iexact E3
    isplitl [E4]; · iexact E4
    isplitl [E5]; · iexact E5
    isplitl [E6]; · iexact E6
    isplitl [E7]; · iexact E7
    isplitl [E8]; · iexact E8
    isplitl [E9]; · iexact E9
    isplitl [E10]; · iexact E10
    isplitl [H0]; · iexact H0
    isplitl [H1]; · iexact H1
    iexact H2
  iexact Hg

/-- The invariant with the scratch at a named state. -/
abbrev PhiAt1 (c : Dev nD) (s : St1 F) : sProp 𝕄 :=
  Phi1Of c (owns (c : Thread nD τ) scM1_0 fullShare s.1) (owns (c : Thread nD τ) scM1_1 fullShare s.2.1) (owns (c : Thread nD τ) scM1_2 fullShare s.2.2)

theorem PhiS1_zero (c : Dev nD) (n : ℕ) (h : n ≤ cfg1.N) (hz : n = 0) : PhiS1 V c n h = Pipeline.ΦA spec1 c := by
  subst hz; rfl

/-- After point `n`: the scratch at that point's state. -/
theorem PhiS1_succ (c : Dev nD) (n : ℕ) (hn : n < cfg1.N) : PhiS1 V c (n + 1) hn = PhiAt1 c (scAt1 V c n hn) := rfl

/-- Before a point that is not the first: the scratch at the state after the point before. -/
theorem PhiS1_pos (c : Dev nD) (n : ℕ) (h : n ≤ cfg1.N) (hz : n ≠ 0) :
    PhiS1 V c n h = PhiAt1 c (scAt1 V c (n - 1) (by omega)) := by
  cases n with
  | zero => exact absurd rfl hz
  | succ n => rfl

/-- What the launch hands the region, in the invariant's shape: the three scratch buffers whole at anything. -/
theorem PhiA1_eq (c : Dev nD) :
    (Pipeline.ΦA spec1 c : sProp 𝕄)
      = Phi1Of c iprop(∃ d, owns (c : Thread nD τ) scM1_0 fullShare d) iprop(∃ d, owns (c : Thread nD τ) scM1_1 fullShare d) iprop(∃ d, owns (c : Thread nD τ) scM1_2 fullShare d) := by
  unfold Pipeline.ΦA Phi1Of; rw [scopedRest1_eq]; simp only [scM1_0, scM1_1, scM1_2, owns_whole]; try rfl

/-! ## The proof data's projections -/

theorem A_eq1 (c : Dev nD) (w : Fin cfg1.W) : (dat1 V c).A w = V c (Pipeline.arrRef spec1 w) := by
  dsimp only [dat1]

/-- The invariant at a point's start, restated at the point's number. -/
theorem Phi1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (scAt1 V c t.val t.isLt) := by dsimp only [dat1]

/-- Each input's current staging buffer holds its block at every point, fetched there or not: an unfetched window's
    block index has not moved, and the body left the block in place. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-! ## Where the windows are idle -/

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- The output is idle away from the last column step, -/
theorem idleAt1_4 : ∀ t : Fin cfg1.N, ¬cond1_1 (grid1.coords t) → cfg1.idle 4 (grid1.coords t) = true := by decide +kernel
/-- live at it, -/
theorem liveAt1_4 : ∀ t : Fin cfg1.N, cond1_1 (grid1.coords t) → cfg1.idle 4 (grid1.coords t) = false := by decide +kernel
/-- and written back only there. -/
theorem noFlush1_4 (t : Fin cfg1.N) (h : ¬t.val % 8 = 7) : (cfg1.win 4).flush t = false := by
  cases hf : (cfg1.win 4).flush t with
  | false => rfl
  | true => exact absurd ((flush1_4 t).mp hf) h

/-! ## The body obligation, at a generic point -/

/-- Each window's current staging memref at point `t`, as the pipeline passes it, and its wholeness. -/
abbrev ms1_0 (t : Fin cfg1.N) : Memref sig .tc .vmem S1024x1024 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x128 .f32 := win1_4.stage (cfg1.slots t 4)
abbrev hs1_4 (t : Fin cfg1.N) : (ms1_4 t).IsWhole := hstage1_4 ((cfg1.slots t 4).cast nbuf1_4)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' memrefs hold their blocks; the point's column step says which of the three
    triples applies. The invariant hands the body the scratch at the state after the point before (at anything at
    the first point; at a later first column step the named state is forgotten) and takes it back at this point's
    state, by the state's equation at the point. Away from the last column step the output's buffer is handed
    back as it was found; at the last it holds the output block of this point's state. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 8 = 0
  · have h1 : ¬t.val % 8 = 7 := by omega
    rw [Dat.leavesExact_idle (dat1 V c) 4 t (idleAt1_4 t (fun h => h1 ((hcond1_1 t).mp h))) (noFlush1_4 t h1)]
    rw [scAt1_reset V c t h0]
    by_cases hz : t.val = 0
    · rw [Phi1_castSucc V c t, PhiS1_zero V c _ _ hz, PhiA1_eq]
      iintro ⟨HP, Ho, ⟨%d0, H0⟩, ⟨%d1, H1⟩, ⟨%d2, H2⟩, ⟨%d3, H3⟩, ⟨%d4, H4⟩⟩
      icases (Phi1Of_open (F := F) c _ _ _) $$ HP with ⟨HR, HS0, HS1, HS2⟩
      iapply (sound_kernel1_A c Set.univ (grid1.coords t) _ (hs1_0 t) _ (hs1_1 t) _ (hs1_2 t) _ (hs1_3 t) _ (hs1_4 t) _ (Memref.isWhole_whole _) _ (Memref.isWhole_whole _) _ (Memref.isWhole_whole _) ((hcond1_0 t).mpr h0) (fun h => h1 ((hcond1_1 t).mp h)) (iblk1 V c 0 t) (iblk1 V c 1 t) (iblk1 V c 2 t) (iblk1 V c 3 t) ((dat1 V c).before 4 t d4) _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HR HS0 HS1 HS2]
      · iapply (Phi1Of_close (F := F) c _ _ _)
        isplitl [HR]; · iexact HR
        isplitl [HS0]; · iexact HS0
        isplitl [HS1]; · iexact HS1
        iexact HS2
      isplitl [Ho]; · iexact Ho
      isplitl [H0]; · iexact H0
      isplitl [H1]; · iexact H1
      isplitl [H2]; · iexact H2
      isplitl [H3]; · iexact H3
      iexists d4; iexact H4
    · rw [Phi1_castSucc V c t, PhiS1_pos V c _ _ hz]
      iintro ⟨HP, Ho, ⟨%d0, H0⟩, ⟨%d1, H1⟩, ⟨%d2, H2⟩, ⟨%d3, H3⟩, ⟨%d4, H4⟩⟩
      icases (Phi1Of_open (F := F) c _ _ _) $$ HP with ⟨HR, HS0, HS1, HS2⟩
      iapply (sound_kernel1_A c Set.univ (grid1.coords t) _ (hs1_0 t) _ (hs1_1 t) _ (hs1_2 t) _ (hs1_3 t) _ (hs1_4 t) _ (Memref.isWhole_whole _) _ (Memref.isWhole_whole _) _ (Memref.isWhole_whole _) ((hcond1_0 t).mpr h0) (fun h => h1 ((hcond1_1 t).mp h)) (iblk1 V c 0 t) (iblk1 V c 1 t) (iblk1 V c 2 t) (iblk1 V c 3 t) ((dat1 V c).before 4 t d4) _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, HS0, HS1, HS2⟩
      isplitl [HR HS0 HS1 HS2]
      · iapply (Phi1Of_close (F := F) c _ _ _)
        isplitl [HR]; · iexact HR
        isplitl [HS0]; · iexact HS0
        isplitl [HS1]; · iexact HS1
        iexact HS2
      isplitl [Ho]; · iexact Ho
      isplitl [H0]; · iexact H0
      isplitl [H1]; · iexact H1
      isplitl [H2]; · iexact H2
      isplitl [H3]; · iexact H3
      iexists d4; iexact H4
  · have hz : t.val ≠ 0 := fun h => h0 (by rw [h])
    rw [scAt1_step V c t h0]
    rw [Phi1_castSucc V c t, PhiS1_pos V c _ _ hz]
    by_cases h1 : t.val % 8 = 7
    · rw [show (dat1 V c).leavesExact 4 t = owns (c : Thread nD τ) (ms1_4 t) fullShare ((dat1 V c).after 4 t) from by
        unfold Dat.leavesExact; rw [liveAt1_4 t ((hcond1_1 t).mpr h1)], after1_4]
      rw [scAt1_step V c t h0]
      iintro ⟨HP, Ho, ⟨%d0, H0⟩, ⟨%d1, H1⟩, ⟨%d2, H2⟩, ⟨%d3, H3⟩, ⟨%d4, H4⟩⟩
      icases (Phi1Of_open (F := F) c _ _ _) $$ HP with ⟨HR, HS0, HS1, HS2⟩
      iapply (sound_kernel1_C c Set.univ (grid1.coords t) _ (hs1_0 t) _ (hs1_1 t) _ (hs1_2 t) _ (hs1_3 t) _ (hs1_4 t) _ (Memref.isWhole_whole _) _ (Memref.isWhole_whole _) _ (Memref.isWhole_whole _) (fun h => h0 ((hcond1_0 t).mp h)) ((hcond1_1 t).mpr h1) (iblk1 V c 0 t) (iblk1 V c 1 t) (iblk1 V c 2 t) (iblk1 V c 3 t) (scAt1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, H4, HS0, HS1, HS2⟩
      isplitl [HR HS0 HS1 HS2]
      · iapply (Phi1Of_close (F := F) c _ _ _)
        isplitl [HR]; · iexact HR
        isplitl [HS0]; · iexact HS0
        isplitl [HS1]; · iexact HS1
        iexact HS2
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idleAt1_4 t (fun h => h1 ((hcond1_1 t).mp h))) (noFlush1_4 t h1)]
      iintro ⟨HP, Ho, ⟨%d0, H0⟩, ⟨%d1, H1⟩, ⟨%d2, H2⟩, ⟨%d3, H3⟩, ⟨%d4, H4⟩⟩
      icases (Phi1Of_open (F := F) c _ _ _) $$ HP with ⟨HR, HS0, HS1, HS2⟩
      iapply (sound_kernel1_B c Set.univ (grid1.coords t) _ (hs1_0 t) _ (hs1_1 t) _ (hs1_2 t) _ (hs1_3 t) _ (hs1_4 t) _ (Memref.isWhole_whole _) _ (Memref.isWhole_whole _) _ (Memref.isWhole_whole _) (fun h => h0 ((hcond1_0 t).mp h)) (fun h => h1 ((hcond1_1 t).mp h)) (iblk1 V c 0 t) (iblk1 V c 1 t) (iblk1 V c 2 t) (iblk1 V c 3 t) (scAt1 V c (t.val - 1) (Nat.lt_of_le_of_lt (Nat.sub_le _ _) t.isLt)) ((dat1 V c).before 4 t d4) _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HR HS0 HS1 HS2]
      · iapply (Phi1Of_close (F := F) c _ _ _)
        isplitl [HR]; · iexact HR
        isplitl [HS0]; · iexact HS0
        isplitl [HS1]; · iexact HS1
        iexact HS2
      isplitl [Ho]; · iexact Ho
      isplitl [H0]; · iexact H0
      isplitl [H1]; · iexact H1
      isplitl [H2]; · iexact H2
      isplitl [H3]; · iexact H3
      iexists d4; iexact H4

/-- The library's body obligation for the attention call, at every grid point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named state is forgotten. -/
theorem Phi1_out (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro HP
  icases (Phi1Of_open (F := F) c _ _ _) $$ HP with ⟨HR, HS0, HS1, HS2⟩
  iapply (Phi1Of_close (F := F) c _ _ _)
  isplitl [HR]; · iexact HR
  isplitl [HS0]; · iexists _; iexact HS0
  isplitl [HS1]; · iexists _; iexact HS1
  iexists _; iexact HS2

/-- After the last point the invariant gives the class's back: the scratch contents are forgotten. -/
theorem hout1 (c : Dev nD) : (dat1 V c).Φ (Fin.last cfg1.N) ⊢ (Pipeline.ΦA spec1 c : sProp 𝕄) :=
  Phi1_out V c _ (by rw [Fin.val_last]; have : cfg1.N = 64 := N_1; omega)

end

end Cert.KernelIdeal.Hand

end
-- ==== Proof.KI.Run.lean ====
/-
  The run of @main, from the launch to the return, as four segments: the host operations before the projection
  call, the projection call, the transpose between the calls, the attention call.  The buffer contents at each
  boundary are a fold from the launch memory: a host stretch leaves its operations' results, a call leaves each
  window's array at what its write-backs fold to and every other buffer as entered.  The run's post reads every
  unscoped buffer of the TensorCore at the last boundary's contents; from it each argument array is read back to
  its launch contents, and the arrays the calls are entered with are read off the fold.
-/
import proofs.«413953_j28767690949412_3_alg».proof.Proof.KI.Body0
import proofs.«413953_j28767690949412_3_alg».proof.Proof.KI.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data's arrays are the contents the region is entered with -/

theorem dat0_A (V : (c : Dev nD) → (b : Ref sig .tc) → Buf (Elt F) ((c : Thread nD τ).loc b)) (c : Dev nD) (w : Fin cfg0.W) :
    (dat0 V c).A w = V c (Pipeline.arrRef spec0 w) := by
  dsimp only [dat0]
theorem dat1_A (V : (c : Dev nD) → (b : Ref sig .tc) → Buf (Elt F) ((c : Thread nD τ).loc b)) (c : Dev nD) (w : Fin cfg1.W) :
    (dat1 V c).A w = V c (Pipeline.arrRef spec1 w) := by
  dsimp only [dat1]

/-! ## What the host stretches write, and what they keep -/

/-- No operation of the first stretch allocates a buffer. -/
theorem hostOps0_fresh : (hostOps0 : List (HloOp τ sig (Elt F))).Forall fun op => op.fresh = ∅ := by
  simp only [List.Forall]; repeat' constructor
/-- No operation of the second stretch allocates a buffer. -/
theorem hostOps1_fresh : (hostOps1 : List (HloOp τ sig (Elt F))).Forall fun op => op.fresh = ∅ := by
  simp only [List.Forall]; repeat' constructor

/-- The first stretch writes only the two slices and their transposes. -/
theorem hostOps0_writes : (hostOps0 : List (HloOp τ sig (Elt F))).Forall fun op =>
    op.writes ⊆ (([main_v0, main_v1, main_v2, main_v3] : List (Ref sig .tc)).map (Proc.devRef (τ := τ) .tc)).toFinset := by
  simp only [List.Forall]
  refine ⟨?_, ?_, ?_, ?_⟩ <;>
  · simp only [StableHlo.unary_writes, Finset.singleton_subset_iff, List.mem_toFinset]
    exact List.mem_map_of_mem (by decide)
/-- The second stretch writes only the transposed score row. -/
theorem hostOps1_writes : (hostOps1 : List (HloOp τ sig (Elt F))).Forall fun op =>
    op.writes ⊆ (([main_v5] : List (Ref sig .tc)).map (Proc.devRef (τ := τ) .tc)).toFinset := by
  simp only [List.Forall]
  simp only [StableHlo.unary_writes, Finset.singleton_subset_iff, List.mem_toFinset]
  exact List.mem_map_of_mem (by decide)

/-- A buffer the first stretch does not write keeps its contents through it. -/
theorem hostOps0_keeps (W : Valuation τ sig (Elt F)) (r : Ref sig .tc)
    (h : r ∉ ([main_v0, main_v1, main_v2, main_v3] : List (Ref sig .tc))) :
    StableHlo.after hostOps0 W (Proc.devRef .tc r) = W (Proc.devRef .tc r) :=
  StableHlo.after_of_writes_sub hostOps0 _ hostOps0_writes h
/-- A buffer the second stretch does not write keeps its contents through it. -/
theorem hostOps1_keeps (W : Valuation τ sig (Elt F)) (r : Ref sig .tc) (h : r ∉ ([main_v5] : List (Ref sig .tc))) :
    StableHlo.after hostOps1 W (Proc.devRef .tc r) = W (Proc.devRef .tc r) :=
  StableHlo.after_of_writes_sub hostOps1 _ hostOps1_writes h

/-! ## The buffer contents at each segment boundary: a fold through @main -/

/-- Core `c`'s buffers at launch. -/
abbrev W0 : Dev nD → Valuation τ sig (Elt F) := fun c b => (s₀ m ρ).mem ((c : Dev nD), b)
/-- After the first host stretch (the projection call's entry). -/
abbrev W1 : Dev nD → Valuation τ sig (Elt F) := fun c => StableHlo.after hostOps0 (W0 m ρ c)
/-- The same read at the TensorCore's references (what the projection's proof data take). -/
abbrev V1 : (c : Dev nD) → (b : Ref sig .tc) → Buf (Elt F) ((c : Thread nD τ).loc b) := fun c b => W1 m ρ c b
/-- At the projection call's exit: its arrays at what the pipeline leaves (the inputs as entered, each output's
    write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the projection call's exit contents). -/
abbrev V2 : (c : Dev nD) → (b : Ref sig .tc) → Buf (Elt F) ((c : Thread nD τ).loc b) := fun c b => W2 m ρ c b
/-- At the projection call's exit each of its arrays holds what the pipeline leaves and every other buffer what
    it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention call's entry). -/
abbrev W3 : Dev nD → Valuation τ sig (Elt F) := fun c => StableHlo.after hostOps1 (W2 m ρ c)
/-- The same read at the TensorCore's references (what the attention call's proof data take). -/
abbrev V3 : (c : Dev nD) → (b : Ref sig .tc) → Buf (Elt F) ((c : Thread nD τ).loc b) := fun c b => W3 m ρ c b
/-- At the attention call's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (the attention call's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host operation writes one, and a call reads it through an input window
    or bypasses it, so the fold at an argument's buffer walks back to the launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) :=
          (W4_arr m ρ c 0).trans (((dat1 (V3 m ρ) c).arrAt_in 0 rfl _).trans (dat1_A (V3 m ρ) c 0))
    _ = W2 m ρ c (Proc.devRef .tc main_arg0) := hostOps1_keeps _ main_arg0 (by decide)
    _ = W1 m ρ c (Proc.devRef .tc main_arg0) := W2_of_ne m ρ c main_arg0 (by decide)
    _ = W0 m ρ c (Proc.devRef .tc main_arg0) := hostOps0_keeps _ main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := hostOps1_keeps _ main_arg1 (by decide)
    _ = W1 m ρ c (Proc.devRef .tc main_arg1) :=
          (W2_arr m ρ c 0).trans (((dat0 (V1 m ρ) c).arrAt_in 0 rfl _).trans (dat0_A (V1 m ρ) c 0))
    _ = W0 m ρ c (Proc.devRef .tc main_arg1) := hostOps0_keeps _ main_arg1 (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := hostOps1_keeps _ main_arg2 (by decide)
    _ = W1 m ρ c (Proc.devRef .tc main_arg2) :=
          (W2_arr m ρ c 1).trans (((dat0 (V1 m ρ) c).arrAt_in 1 rfl _).trans (dat0_A (V1 m ρ) c 1))
    _ = W0 m ρ c (Proc.devRef .tc main_arg2) := hostOps0_keeps _ main_arg2 (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := hostOps1_keeps _ main_arg3 (by decide)
    _ = W1 m ρ c (Proc.devRef .tc main_arg3) := W2_of_ne m ρ c main_arg3 (by decide)
    _ = W0 m ρ c (Proc.devRef .tc main_arg3) := hostOps0_keeps _ main_arg3 (by decide)
    _ = m ((c : Thread nD τ).loc main_arg3) := rfl

/-- The attention call's output array ends at what its write-backs fold to. -/
theorem W4_main_v6 (c : Dev nD) : W4 m ρ c (Proc.devRef .tc main_v6) = (dat1 (V3 m ρ) c).arrAt 4 cfg1.N :=
  W4_arr m ρ c 4

/-! ### The arrays the calls are entered with -/

theorem V1_main_arg1 (c : Dev nD) : V1 m ρ c main_arg1 = m ((c : Thread nD τ).loc main_arg1) :=
  hostOps0_keeps _ main_arg1 (by decide)
theorem V1_main_arg2 (c : Dev nD) : V1 m ρ c main_arg2 = m ((c : Thread nD τ).loc main_arg2) :=
  hostOps0_keeps _ main_arg2 (by decide)

/-- The first row the projection reads: the upper half of the column `a`, transposed. -/
theorem V1_main_v1 (c : Dev nD) : V1 m ρ c main_v1
    = transpose S1x128 [1, 0] (extractStridedSlice S128x1 ![0, 0] (m ((c : Thread nD τ).loc main_arg3)) slices_S256x1_S128x1_0_0) transposes_S128x1_S1x128_1_0 := by
  show StableHlo.after hostOps0 _ (Proc.devRef .tc main_v1) = _
  after_results
/-- The second row the projection reads: the lower half of the column `a`, transposed. -/
theorem V1_main_v3 (c : Dev nD) : V1 m ρ c main_v3
    = transpose S1x128 [1, 0] (extractStridedSlice S128x1 ![128, 0] (m ((c : Thread nD τ).loc main_arg3)) slices_S256x1_S128x1_128_0) transposes_S128x1_S1x128_1_0 := by
  show StableHlo.after hostOps0 _ (Proc.devRef .tc main_v3) = _
  after_results

theorem V3_main_arg0 (c : Dev nD) : V3 m ρ c main_arg0 = m ((c : Thread nD τ).loc main_arg0) :=
  calc V3 m ρ c main_arg0
    _ = W2 m ρ c (Proc.devRef .tc main_arg0) := hostOps1_keeps _ main_arg0 (by decide)
    _ = W1 m ρ c (Proc.devRef .tc main_arg0) := W2_of_ne m ρ c main_arg0 (by decide)
    _ = W0 m ρ c (Proc.devRef .tc main_arg0) := hostOps0_keeps _ main_arg0 (by decide)
    _ = m ((c : Thread nD τ).loc main_arg0) := rfl

theorem V3_main_v4_0 (c : Dev nD) : V3 m ρ c main_v4_0 = (dat0 (V1 m ρ) c).arrAt 4 cfg0.N :=
  (hostOps1_keeps _ main_v4_0 (by decide)).trans (W2_arr m ρ c 4)
theorem V3_main_v4_1 (c : Dev nD) : V3 m ρ c main_v4_1 = (dat0 (V1 m ρ) c).arrAt 5 cfg0.N :=
  (hostOps1_keeps _ main_v4_1 (by decide)).trans (W2_arr m ρ c 5)
/-- The score row the attention call reads: the projection's second score column, transposed. -/
theorem V3_main_v5 (c : Dev nD) : V3 m ρ c main_v5
    = transpose S1x8192 [1, 0] ((dat0 (V1 m ρ) c).arrAt 6 cfg0.N) transposes_S8192x1_S1x8192_1_0 := by
  have e : V3 m ρ c main_v5 = transpose S1x8192 [1, 0] (W2 m ρ c (Proc.devRef .tc main_v4_2)) transposes_S8192x1_S1x8192_1_0 := by
    show StableHlo.after hostOps1 _ (Proc.devRef .tc main_v5) = _
    after_results
  rw [e, W2_arr m ρ c 6]

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the
    generator register at some state. -/
abbrev Tₙ (c : Dev nD) : sProp 𝕄 := iprop(StableHlo.held (c : Thread nD τ) (Pipeline.ucRefs τ sig) (W4 m ρ c) ∗ ∃ r, prngReg c r)

/-! ## The calls as segments -/

set_option backward.isDefEq.respectTransparency.types false in
/-- The projection call over the thread state: entered from every unscoped buffer at `W1`, left at `W2`.  Its
    arrays split out of the unscoped buffers and put back at the exit contents; the generator register into the
    class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call over the thread state: entered from every unscoped buffer at `W3`, left at `W4`.  Its
    arrays split out of the unscoped buffers and put back at the exit contents; its invariant is entered from the
    class's (the scratch buffers at anything) and gives the class's back after the last point (the scratch contents
    forgotten); nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    refine (show _ ⊢ (Pipeline.ΦA spec1 c : sProp 𝕄) from ?_).trans (hin1 (V3 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V3 m ρ) c).Φ (Fin.last cfg1.N) from rfl]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order: a host segment per stretch from its boundary's contents, a region per call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segs m ρ) := (main_chain c).trans (by chain_rfl)

set_option backward.isDefEq.respectTransparency.types false in
/-- At the compiled mesh, from any memory with zero counters, every weakly fair execution of @main on the
    TensorCores terminates, nothing faulting, and every final state has each unscoped buffer of each core at the
    last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- Every argument array ends as launched: each is an unscoped buffer, read at the last boundary's contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_main m ρ)

end Cert.KernelIdeal.Hand

end
-- ==== Proof.Spec.lean ====
/-
  The function both programs compute, index by index, on the extended reals.

  With  Wh = h·W,  s1 = Wh·a[0:128],  s2 = Wh·a[128:256],  the masked score of row r against column c is
  x r c = leaky(s1 r + s2 c)  where adj r c > 0, the fill value elsewhere; the attention weights are the softmax
  of each row of x, the aggregate is  ∑ c, softmax(x r) c · Wh c k,  and the result is its ELU.
-/
import Idealize.ShloMosaic.PureOps.Ideal
import Idealize.ShloMosaic.Lib.ValueIdx

noncomputable section

namespace Cert.Spec

open Idealize.ShloMosaic Idealize.ShloMosaic.ValueIdx

abbrev SAdj : Shape := ⟨2, ![8192, 8192]⟩
abbrev SH : Shape := ⟨2, ![8192, 128]⟩
abbrev SW : Shape := ⟨2, ![128, 128]⟩
abbrev SA : Shape := ⟨2, ![256, 1]⟩

variable (adj : SAdj.Idx → BitVec 32) (h : SH.Idx → EReal) (W : SW.Idx → EReal) (a : SA.Idx → EReal)

/-- The projected features: row r of h against column k of W. -/
def Wh (r : Fin 8192) (k : Fin 128) : EReal := ∑ q : Fin 128, h (ix2 r q) * W (ix2 q k)
/-- The first attention score of node r: its projected row against the upper half of a. -/
def s1 (r : Fin 8192) : EReal := ∑ k : Fin 128, Wh h W r k * a (ix2 ⟨k.val, by omega⟩ (0 : Fin 1))
/-- The second attention score of node c: its projected row against the lower half of a. -/
def s2 (c : Fin 8192) : EReal := ∑ k : Fin 128, Wh h W c k * a (ix2 ⟨128 + k.val, by omega⟩ (0 : Fin 1))

/-- The negative slope 0.2 as the f32 word both programs carry. -/
def alpha : EReal := Ideal.ofBits .f32 0x3E4CCCCD#32
/-- The fill value -9e15 as the f32 word both programs carry. -/
def negFill : EReal := Ideal.ofBits .f32 0xD9FFCB9E#32

/-- Leaky ReLU: the identity on the non-negative, the slope times the argument on the negative. -/
def lrelu (s : EReal) : EReal := if 0 ≤ s then s else alpha * s
/-- The masked score: the leaky score on an edge (adjacency word > 0, signed), the fill value off it. -/
def x (r c : Fin 8192) : EReal :=
  Scalar.select (Scalar.cmpi .sgt (adj (ix2 r c)) 0#32) (lrelu (s1 h W a r + s2 h W a c)) negFill
/-- The row maximum of the masked scores. -/
def M (r : Fin 8192) : EReal := (Finset.univ : Finset (Fin 8192)).fold max ⊥ (x adj h W a r)
/-- The unnormalised weight. -/
def p (r c : Fin 8192) : EReal := Ideal.exp (x adj h W a r c - M adj h W a r)
/-- The normaliser. -/
def L (r : Fin 8192) : EReal := ∑ c : Fin 8192, p adj h W a r c
/-- The aggregate: the softmax row against the projected features. -/
def hp (r : Fin 8192) (k : Fin 128) : EReal := ∑ c : Fin 8192, Ideal.div (p adj h W a r c) (L adj h W a r) * Wh h W c k
/-- ELU: the identity on the positive, exp − 1 elsewhere. -/
def elu (y : EReal) : EReal := if 0 < y then y else Ideal.exp y - 1

/-- The result array. -/
def G : SH.Idx → EReal := fun i => elu (hp adj h W a (i 0) (i 1))

/-- Every entry of the three float inputs is a real number. -/
def Finite : Prop := (∀ i, ∃ v : ℝ, h i = (v : EReal)) ∧ (∀ i, ∃ v : ℝ, W i = (v : EReal)) ∧ (∀ i, ∃ v : ℝ, a i = (v : EReal))

end Cert.Spec

end
-- ==== Proof.LibRowCasts.lean ====
/-
  Four layout operations read at an index.

  * A rank-3 array `[a, b, c]` cast to `[n, c]` with `n = a · b` merges its two leading axes: row
    `p · b + q` of the matrix is row `(p, q)` of the array; and the cast back splits them.
  * A vector `[a]` cast to the column `[a, 1]` (what a sum with kept dimensions produces).
  * A column `[a, 1]` broadcast to `[a, b]`: every lane of row `i` is the column's entry `i`.
-/
import Idealize.ShloMosaic.Lib.Pipeline.Value
import Idealize.ShloMosaic.Lib.ValueIdx

namespace Idealize.ShloMosaic.RowCasts

open Idealize.ShloMosaic Idealize.ShloMosaic.ValueIdx

variable {α : Type}

/-- `[a, b, c]` cast to `[n, c]`, read at row `r = p · b + q` and lane `d`: the array at `(p, q, d)`. -/
theorem shapeCast_merge_apply {a b c n : ℕ} (x : (⟨3, ![a, b, c]⟩ : Shape).Idx → α)
    (h : (⟨3, ![a, b, c]⟩ : Shape).ShapeCasts ⟨2, ![n, c]⟩) (p : Fin a) (q : Fin b) (d : Fin c) (r : Fin n)
    (hr : r.val = p.val * b + q.val) :
    shapeCast ⟨2, ![n, c]⟩ x h (ix2 r d) = x (ix3 p q d) :=
  shapeCast_apply x h _ _ (by
    rw [Shape.rowMajor_val_three, Shape.rowMajor_val_two]
    show (p.val * b + q.val) * c + d.val = r.val * c + d.val
    rw [hr])

/-- `[n, c]` cast to `[a, b, c]`, read at `(p, q, d)`: the matrix at row `r = p · b + q`, lane `d`. -/
theorem shapeCast_split_apply {a b c n : ℕ} (y : (⟨2, ![n, c]⟩ : Shape).Idx → α)
    (h : (⟨2, ![n, c]⟩ : Shape).ShapeCasts ⟨3, ![a, b, c]⟩) (p : Fin a) (q : Fin b) (d : Fin c) (r : Fin n)
    (hr : r.val = p.val * b + q.val) :
    shapeCast ⟨3, ![a, b, c]⟩ y h (ix3 p q d) = y (ix2 r d) :=
  shapeCast_apply y h _ _ (by
    rw [Shape.rowMajor_val_three, Shape.rowMajor_val_two]
    show r.val * c + d.val = (p.val * b + q.val) * c + d.val
    rw [hr])

/-- A vector cast to a column reads, at `(i, u)`, the vector at `i`. -/
theorem shapeCast_column_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_one, Shape.rowMajor_val_two]
    show i.val = i.val * 1 + u.val
    have := u.isLt
    omega)

/-- A column broadcast over the lanes reads, at `(i, j)`, the column at `(i, 0)`. -/
theorem broadcastTo_column_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.RowCasts
-- ==== Proof.KI.Value0.lean ====
/-
  What the projection call leaves in its three result arrays, at the exact values: the product h·W, and its rows
  against the two halves of a (read off the rows a1, a2 that the host operations before the call transposed).

  First the body's three stored blocks are read at an index: the block product is a sum over the contraction
  position (the format changes are the identity on the extended reals), a score column is the lane sum of the
  product against the broadcast row.  Then each input block is read off its array (the h-block at point t is rows
  2048·t … 2048·t + 2047 of h; W and the two rows are whole), so what point t writes back is block t of one function
  of the arrays; the four blocks of 2048 rows cover the 8192 rows, so each array ends holding that function.
-/
import proofs.«413953_j28767690949412_3_alg».proof.Proof.KI.Data
import proofs.«413953_j28767690949412_3_alg».proof.Proof.Spec
import proofs.«413953_j28767690949412_3_alg».proof.Proof.LibRowCasts
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! ## The block product read at an index -/

/-- The product's left operand index keeps the output row … -/
theorem lhs_proj_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
/-- … and runs over the contraction position on its lanes; -/
theorem lhs_proj_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
/-- the right operand index runs over the contraction position on its rows … -/
theorem rhs_proj_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
/-- … and keeps the output column. -/
theorem rhs_proj_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- The block product at (p, k): row p of the left block against column k of the right block. -/
theorem pay1_apply (x0 : Vec Ideal S2048x128 .f32) (x1 : Vec Ideal S128x128 .f32) (p : Fin 2048) (k : Fin 128) :
    k0_pay1 x0 x1 (ix2 p k) = ∑ q : Fin 128, x0 (ix2 p q) * x1 (ix2 q k) := by
  unfold k0_pay1
  simp only [matmul]
  rw [Ideal.matmul_constant_zero_apply, ← Equiv.sum_comp (contrEquiv1 dot_S2048x128_S128x128_S2048x128_1_0_0_1_n_n 128 rfl rfl).symm]
  refine Finset.sum_congr rfl fun q _ => ?_
  have hk := contrEquiv1_symm_val dot_S2048x128_S128x128_S2048x128_1_0_0_1_n_n 128 rfl rfl q
  have el : dot_S2048x128_S128x128_S2048x128_1_0_0_1_n_n.lhsIdx (ix2 p k) ((contrEquiv1 dot_S2048x128_S128x128_S2048x128_1_0_0_1_n_n 128 rfl rfl).symm q) = ix2 p q := funext fun a => Fin.ext (by
    match a with
    | ⟨0, _⟩ => exact lhs_proj_0 _ _
    | ⟨1, _⟩ => exact (lhs_proj_1 _ _).trans hk)
  have er : dot_S2048x128_S128x128_S2048x128_1_0_0_1_n_n.rhsIdx (ix2 p k) ((contrEquiv1 dot_S2048x128_S128x128_S2048x128_1_0_0_1_n_n 128 rfl rfl).symm q) = ix2 q k := funext fun a => Fin.ext (by
    match a with
    | ⟨0, _⟩ => exact (rhs_proj_0 _ _).trans hk
    | ⟨1, _⟩ => exact rhs_proj_1 _ _)
  rw [el, er]
  rfl

/-! ## The three stored blocks read at an index -/

/-- The stored product block: the format change is the identity on the extended reals. -/
theorem out0_4_apply (x0 : Vec Ideal S2048x128 .f32) (x1 : Vec Ideal S128x128 .f32) (j : S2048x128.Idx) :
    out0_4 x0 x1 j = ∑ q : Fin 128, x0 (ix2 (j 0) q) * x1 (ix2 q (j 1)) := by
  obtain ⟨p, k, rfl⟩ : ∃ (p : Fin 2048) (k : Fin 128), j = ix2 p k := ⟨j 0, j 1, eq_ix2 j⟩
  unfold out0_4 k0_pay2
  exact pay1_apply x0 x1 p k

/-- A sum over the lanes of a block, read at row p. -/
theorem laneSum_apply (v : FVec Ideal S2048x128 .f32) (h : S2048x128.Reduces [1] S2048) (hφ : FKind.Formats .f32)
    (hacc : (0x00000000#32 : BitVec 32) = FKind.add.neutral .f32 hφ) (p : Fin 2048) :
    multiReduction (F := Ideal) .add [1] S2048 v 0x00000000#32 h hφ hacc (ix1 p) = ∑ k : Fin 128, v (ix2 p k) := by
  refine (Ideal.multiReduction_add_single v 0x00000000#32 h hφ hacc (ix1 p)).trans ?_
  refine Finset.sum_congr rfl fun k _ => congrArg v ?_
  funext a
  match a with
  | ⟨0, _⟩ => rfl
  | ⟨1, _⟩ => rfl

/-- A score column's block: each row of the block product against the broadcast row. -/
theorem pay3_apply (x0 : Vec Ideal S2048x128 .f32) (x1 : Vec Ideal S128x128 .f32) (x2 : Vec Ideal S1x128 .f32) (p : Fin 2048) (u : Fin 1) :
    k0_pay3 x0 x1 x2 (ix2 p u) = ∑ k : Fin 128, (∑ q : Fin 128, x0 (ix2 p q) * x1 (ix2 q k)) * x2 (ix2 (0 : Fin 1) k) := by
  unfold k0_pay3
  refine (RowCasts.shapeCast_column_apply _ _ p u).trans ?_
  refine (laneSum_apply _ _ _ _ p).trans ?_
  refine Finset.sum_congr rfl fun k _ => ?_
  rw [mulf_apply, pay1_apply, broadcastTo_1b_ab_apply, shapeCast_self]

theorem pay4_apply (x0 : Vec Ideal S2048x128 .f32) (x1 : Vec Ideal S128x128 .f32) (x3 : Vec Ideal S1x128 .f32) (p : Fin 2048) (u : Fin 1) :
    k0_pay4 x0 x1 x3 (ix2 p u) = ∑ k : Fin 128, (∑ q : Fin 128, x0 (ix2 p q) * x1 (ix2 q k)) * x3 (ix2 (0 : Fin 1) k) := by
  unfold k0_pay4
  refine (RowCasts.shapeCast_column_apply _ _ p u).trans ?_
  refine (laneSum_apply _ _ _ _ p).trans ?_
  refine Finset.sum_congr rfl fun k _ => ?_
  rw [mulf_apply, pay1_apply, broadcastTo_1b_ab_apply, shapeCast_self]

theorem out0_5_apply (x0 : Vec Ideal S2048x128 .f32) (x1 : Vec Ideal S128x128 .f32) (x2 : Vec Ideal S1x128 .f32) (j : S2048x1.Idx) :
    out0_5 x0 x1 x2 j = ∑ k : Fin 128, (∑ q : Fin 128, x0 (ix2 (j 0) q) * x1 (ix2 q k)) * x2 (ix2 (0 : Fin 1) k) := by
  obtain ⟨p, u, rfl⟩ : ∃ (p : Fin 2048) (u : Fin 1), j = ix2 p u := ⟨j 0, j 1, eq_ix2 j⟩
  unfold out0_5
  exact pay3_apply x0 x1 x2 p u

theorem out0_6_apply (x0 : Vec Ideal S2048x128 .f32) (x1 : Vec Ideal S128x128 .f32) (x3 : Vec Ideal S1x128 .f32) (j : S2048x1.Idx) :
    out0_6 x0 x1 x3 j = ∑ k : Fin 128, (∑ q : Fin 128, x0 (ix2 (j 0) q) * x1 (ix2 q k)) * x3 (ix2 (0 : Fin 1) k) := by
  obtain ⟨p, u, rfl⟩ : ∃ (p : Fin 2048) (u : Fin 1), j = ix2 p u := ⟨j 0, j 1, eq_ix2 j⟩
  unfold out0_6
  exact pay4_apply x0 x1 x3 p u

/-! ## From blocks to the arrays -/

section
variable (V : (c : Dev nD) → (b : Ref sig .tc) → Buf (Elt Ideal) ((c : Thread nD τ).loc b))

/-- The index maps over the grid: the h-window and the three result windows sit at block t on the rows and block 0 on
    the lanes; W and the two rows are whole at every point. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The h-block at point t is rows 2048·t … 2048·t + 2047 of h. -/
theorem iblk0_0_apply (c : Dev nD) (t : Fin cfg0.N) (p : Fin 2048) (q : Fin 128) (r : Fin 8192) (hr : r.val = t.val * 2048 + p.val) :
    (iblk0 V c 0 t : S2048x128.Idx → EReal) (ix2 p q) = (V c main_arg1 : S8192x128.Idx → EReal) (ix2 r q) := by
  obtain ⟨e0, e1, -⟩ := idx_facts0 t
  show (V c main_arg1 : S8192x128.Idx → EReal) (((cfg0.win 0).blk t).view.emb (ix2 p q)) = (V c main_arg1 : S8192x128.Idx → EReal) (ix2 r q)
  refine congrArg (V c main_arg1 : S8192x128.Idx → EReal) (funext fun a => Fin.ext ?_)
  match a with
  | ⟨0, _⟩ => show win0_0.index t (0 : Fin 2) * 2048 + 1 * p.val = r.val; omega
  | ⟨1, _⟩ => show win0_0.index t (1 : Fin 2) * 128 + 1 * q.val = q.val; omega

/-- The W-block at every point is W. -/
theorem iblk0_1_apply (c : Dev nD) (t : Fin cfg0.N) (q : Fin 128) (k k' : Fin 128) (hk : k'.val = k.val) :
    (iblk0 V c 1 t : S128x128.Idx → EReal) (ix2 q k) = (V c main_arg2 : S128x128.Idx → EReal) (ix2 q k') := by
  obtain ⟨-, -, e0, e1, -⟩ := idx_facts0 t
  show (V c main_arg2 : S128x128.Idx → EReal) (((cfg0.win 1).blk t).view.emb (ix2 q k)) = (V c main_arg2 : S128x128.Idx → EReal) (ix2 q k')
  refine congrArg (V c main_arg2 : S128x128.Idx → EReal) (funext fun a => Fin.ext ?_)
  match a with
  | ⟨0, _⟩ => show win0_1.index t (0 : Fin 2) * 128 + 1 * q.val = q.val; omega
  | ⟨1, _⟩ => show win0_1.index t (1 : Fin 2) * 128 + 1 * k.val = k'.val; omega

/-- The a1-block at every point is the row a1. -/
theorem iblk0_2_apply (c : Dev nD) (t : Fin cfg0.N) (k : Fin 128) :
    (iblk0 V c 2 t : S1x128.Idx → EReal) (ix2 (0 : Fin 1) k) = (V c main_v1 : S1x128.Idx → EReal) (ix2 (0 : Fin 1) k) := by
  obtain ⟨-, -, -, -, e0, e1, -⟩ := idx_facts0 t
  show (V c main_v1 : S1x128.Idx → EReal) (((cfg0.win 2).blk t).view.emb (ix2 (0 : Fin 1) k)) = (V c main_v1 : S1x128.Idx → EReal) (ix2 (0 : Fin 1) k)
  refine congrArg (V c main_v1 : S1x128.Idx → EReal) (funext fun a => Fin.ext ?_)
  match a with
  | ⟨0, _⟩ => show win0_2.index t (0 : Fin 2) * 1 + 1 * 0 = 0; omega
  | ⟨1, _⟩ => show win0_2.index t (1 : Fin 2) * 128 + 1 * k.val = k.val; omega

/-- The a2-block at every point is the row a2. -/
theorem iblk0_3_apply (c : Dev nD) (t : Fin cfg0.N) (k : Fin 128) :
    (iblk0 V c 3 t : S1x128.Idx → EReal) (ix2 (0 : Fin 1) k) = (V c main_v3 : S1x128.Idx → EReal) (ix2 (0 : Fin 1) k) := by
  obtain ⟨-, -, -, -, -, -, e0, e1, -⟩ := idx_facts0 t
  show (V c main_v3 : S1x128.Idx → EReal) (((cfg0.win 3).blk t).view.emb (ix2 (0 : Fin 1) k)) = (V c main_v3 : S1x128.Idx → EReal) (ix2 (0 : Fin 1) k)
  refine congrArg (V c main_v3 : S1x128.Idx → EReal) (funext fun a => Fin.ext ?_)
  match a with
  | ⟨0, _⟩ => show win0_3.index t (0 : Fin 2) * 1 + 1 * 0 = 0; omega
  | ⟨1, _⟩ => show win0_3.index t (1 : Fin 2) * 128 + 1 * k.val = k.val; omega

/-- Where block t of a result window sits in its array: row 2048·t + the row inside the block, the same lane. -/
theorem emb0_4 (t : Fin cfg0.N) (j : S2048x128.Idx) :
    ((((cfg0.win 4).blk t).view.emb j : S8192x128.Idx) 0).val = t.val * 2048 + (j 0).val
    ∧ ((((cfg0.win 4).blk t).view.emb j : S8192x128.Idx) 1).val = (j 1).val := by
  obtain ⟨-, -, -, -, -, -, -, -, e0, e1, -⟩ := idx_facts0 t
  constructor
  · show win0_4.index t (0 : Fin 2) * 2048 + 1 * (j 0).val = _; omega
  · show win0_4.index t (1 : Fin 2) * 128 + 1 * (j 1).val = _; omega

theorem emb0_5 (t : Fin cfg0.N) (j : S2048x1.Idx) :
    ((((cfg0.win 5).blk t).view.emb j : S8192x1.Idx) 0).val = t.val * 2048 + (j 0).val := by
  obtain ⟨-, -, -, -, -, -, -, -, -, -, e0, e1, -⟩ := idx_facts0 t
  show win0_5.index t (0 : Fin 2) * 2048 + 1 * (j 0).val = _; omega

theorem emb0_6 (t : Fin cfg0.N) (j : S2048x1.Idx) :
    ((((cfg0.win 6).blk t).view.emb j : S8192x1.Idx) 0).val = t.val * 2048 + (j 0).val := by
  obtain ⟨-, -, -, -, -, -, -, -, -, -, -, -, e0, e1⟩ := idx_facts0 t
  show win0_6.index t (0 : Fin 2) * 2048 + 1 * (j 0).val = _; omega

/-- What point t writes back into the first result array is block t of the product h·W. -/
theorem flushed0_4_eq (c : Dev nD) (t : Fin cfg0.N) :
    (dat0 (F := Ideal) V c).flushed 4 t
      = ((cfg0.win 4).blk t).view.read (Elt Ideal) (fun i : S8192x128.Idx => Cert.Spec.Wh (V c main_arg1) (V c main_arg2) (i 0) (i 1)) := by
  show (cfg0.win 4).cut (grid0.coords t) ((dat0 (F := Ideal) V c).after 4 t) = _
  dsimp only [dat0]
  funext j
  show out0_4 (iblk0 V c 0 t) (iblk0 V c 1 t) j
    = Cert.Spec.Wh (V c main_arg1) (V c main_arg2) ((((cfg0.win 4).blk t).view.emb j : S8192x128.Idx) 0) ((((cfg0.win 4).blk t).view.emb j : S8192x128.Idx) 1)
  refine (out0_4_apply _ _ j).trans ?_
  unfold Cert.Spec.Wh
  refine Finset.sum_congr rfl fun q _ => ?_
  exact congrArg₂ (· * ·) (iblk0_0_apply V c t (j 0) q _ (emb0_4 t j).1) (iblk0_1_apply V c t q (j 1) _ (emb0_4 t j).2)

/-- What point t writes back into the second result array is block t of the column (h·W)·a1ᵀ. -/
theorem flushed0_5_eq (c : Dev nD) (t : Fin cfg0.N) :
    (dat0 (F := Ideal) V c).flushed 5 t
      = ((cfg0.win 5).blk t).view.read (Elt Ideal) (fun i : S8192x1.Idx => (∑ k : Fin 128, Cert.Spec.Wh (V c main_arg1) (V c main_arg2) (i 0) k * (V c main_v1 : S1x128.Idx → EReal) (ix2 (0 : Fin 1) k) : EReal)) := by
  show (cfg0.win 5).cut (grid0.coords t) ((dat0 (F := Ideal) V c).after 5 t) = _
  dsimp only [dat0]
  funext j
  show out0_5 (iblk0 V c 0 t) (iblk0 V c 1 t) (iblk0 V c 2 t) j
    = ∑ k : Fin 128, Cert.Spec.Wh (V c main_arg1) (V c main_arg2) ((((cfg0.win 5).blk t).view.emb j : S8192x1.Idx) 0) k * (V c main_v1 : S1x128.Idx → EReal) (ix2 (0 : Fin 1) k)
  refine (out0_5_apply _ _ _ j).trans ?_
  unfold Cert.Spec.Wh
  refine Finset.sum_congr rfl fun k _ => ?_
  refine congrArg₂ (· * ·) (Finset.sum_congr rfl fun q _ => ?_) (iblk0_2_apply V c t k)
  exact congrArg₂ (· * ·) (iblk0_0_apply V c t (j 0) q _ (emb0_5 t j)) (iblk0_1_apply V c t q k k rfl)

/-- What point t writes back into the third result array is block t of the column (h·W)·a2ᵀ. -/
theorem flushed0_6_eq (c : Dev nD) (t : Fin cfg0.N) :
    (dat0 (F := Ideal) V c).flushed 6 t
      = ((cfg0.win 6).blk t).view.read (Elt Ideal) (fun i : S8192x1.Idx => (∑ k : Fin 128, Cert.Spec.Wh (V c main_arg1) (V c main_arg2) (i 0) k * (V c main_v3 : S1x128.Idx → EReal) (ix2 (0 : Fin 1) k) : EReal)) := by
  show (cfg0.win 6).cut (grid0.coords t) ((dat0 (F := Ideal) V c).after 6 t) = _
  dsimp only [dat0]
  funext j
  show out0_6 (iblk0 V c 0 t) (iblk0 V c 1 t) (iblk0 V c 3 t) j
    = ∑ k : Fin 128, Cert.Spec.Wh (V c main_arg1) (V c main_arg2) ((((cfg0.win 6).blk t).view.emb j : S8192x1.Idx) 0) k * (V c main_v3 : S1x128.Idx → EReal) (ix2 (0 : Fin 1) k)
  refine (out0_6_apply _ _ _ j).trans ?_
  unfold Cert.Spec.Wh
  refine Finset.sum_congr rfl fun k _ => ?_
  refine congrArg₂ (· * ·) (Finset.sum_congr rfl fun q _ => ?_) (iblk0_3_apply V c t k)
  exact congrArg₂ (· * ·) (iblk0_0_apply V c t (j 0) q _ (emb0_6 t j)) (iblk0_1_apply V c t q k k rfl)

/-- An index of a result array is in point t's block iff each coordinate is in the block's range on its axis. -/
theorem mem_blk0_4 (t : Fin cfg0.N) (i : S8192x128.Idx) :
    i ∈ ((cfg0.win 4).blk t).view.set ↔ ∀ a : Fin 2, win0_4.index t a * S2048x128.size a ≤ (i a).val ∧ (i a).val < win0_4.index t a * S2048x128.size a + S2048x128.size a := by
  show i ∈ ((View.whole main_v4_0).slice (win0_4.rect t)).set ↔ _
  rw [View.set_slice_whole, Rect.mem_set_unit]
  exact Iff.rfl

theorem mem_blk0_5 (t : Fin cfg0.N) (i : S8192x1.Idx) :
    i ∈ ((cfg0.win 5).blk t).view.set ↔ ∀ a : Fin 2, win0_5.index t a * S2048x1.size a ≤ (i a).val ∧ (i a).val < win0_5.index t a * S2048x1.size a + S2048x1.size a := by
  show i ∈ ((View.whole main_v4_1).slice (win0_5.rect t)).set ↔ _
  rw [View.set_slice_whole, Rect.mem_set_unit]
  exact Iff.rfl

theorem mem_blk0_6 (t : Fin cfg0.N) (i : S8192x1.Idx) :
    i ∈ ((cfg0.win 6).blk t).view.set ↔ ∀ a : Fin 2, win0_6.index t a * S2048x1.size a ≤ (i a).val ∧ (i a).val < win0_6.index t a * S2048x1.size a + S2048x1.size a := by
  show i ∈ ((View.whole main_v4_2).slice (win0_6.rect t)).set ↔ _
  rw [View.set_slice_whole, Rect.mem_set_unit]
  exact Iff.rfl

/-- Row r of a result array is covered by the point r / 2048. -/
theorem cover0_4 (i : S8192x128.Idx) : ∃ t : Fin cfg0.N, (cfg0.win 4).flush t = true ∧ i ∈ ((cfg0.win 4).blk t).view.set := by
  have hi0 : (i 0).val < 8192 := (i 0).isLt
  have hi1 : (i 1).val < 128 := (i 1).isLt
  have hN : grid0.N = 4 := N_0
  have hlt : (i 0).val / 2048 < grid0.N := by rw [hN]; omega
  refine ⟨⟨(i 0).val / 2048, hlt⟩, flush0_4 _, ?_⟩
  rw [mem_blk0_4]
  obtain ⟨-, -, -, -, -, -, -, -, e0, e1, -⟩ := idx_facts0 ⟨(i 0).val / 2048, hlt⟩
  have e0' : win0_4.index ⟨(i 0).val / 2048, hlt⟩ (0 : Fin 2) = (i 0).val / 2048 := e0
  intro a
  match a with
  | ⟨0, _⟩ => show win0_4.index ⟨(i 0).val / 2048, hlt⟩ (0 : Fin 2) * 2048 ≤ (i 0).val ∧ (i 0).val < win0_4.index ⟨(i 0).val / 2048, hlt⟩ (0 : Fin 2) * 2048 + 2048; omega
  | ⟨1, _⟩ => show win0_4.index ⟨(i 0).val / 2048, hlt⟩ (1 : Fin 2) * 128 ≤ (i 1).val ∧ (i 1).val < win0_4.index ⟨(i 0).val / 2048, hlt⟩ (1 : Fin 2) * 128 + 128; omega

theorem cover0_5 (i : S8192x1.Idx) : ∃ t : Fin cfg0.N, (cfg0.win 5).flush t = true ∧ i ∈ ((cfg0.win 5).blk t).view.set := by
  have hi0 : (i 0).val < 8192 := (i 0).isLt
  have hi1 : (i 1).val < 1 := (i 1).isLt
  have hN : grid0.N = 4 := N_0
  have hlt : (i 0).val / 2048 < grid0.N := by rw [hN]; omega
  refine ⟨⟨(i 0).val / 2048, hlt⟩, flush0_5 _, ?_⟩
  rw [mem_blk0_5]
  obtain ⟨-, -, -, -, -, -, -, -, -, -, e0, e1, -⟩ := idx_facts0 ⟨(i 0).val / 2048, hlt⟩
  have e0' : win0_5.index ⟨(i 0).val / 2048, hlt⟩ (0 : Fin 2) = (i 0).val / 2048 := e0
  intro a
  match a with
  | ⟨0, _⟩ => show win0_5.index ⟨(i 0).val / 2048, hlt⟩ (0 : Fin 2) * 2048 ≤ (i 0).val ∧ (i 0).val < win0_5.index ⟨(i 0).val / 2048, hlt⟩ (0 : Fin 2) * 2048 + 2048; omega
  | ⟨1, _⟩ => show win0_5.index ⟨(i 0).val / 2048, hlt⟩ (1 : Fin 2) * 1 ≤ (i 1).val ∧ (i 1).val < win0_5.index ⟨(i 0).val / 2048, hlt⟩ (1 : Fin 2) * 1 + 1; omega

theorem cover0_6 (i : S8192x1.Idx) : ∃ t : Fin cfg0.N, (cfg0.win 6).flush t = true ∧ i ∈ ((cfg0.win 6).blk t).view.set := by
  have hi0 : (i 0).val < 8192 := (i 0).isLt
  have hi1 : (i 1).val < 1 := (i 1).isLt
  have hN : grid0.N = 4 := N_0
  have hlt : (i 0).val / 2048 < grid0.N := by rw [hN]; omega
  refine ⟨⟨(i 0).val / 2048, hlt⟩, flush0_6 _, ?_⟩
  rw [mem_blk0_6]
  obtain ⟨-, -, -, -, -, -, -, -, -, -, -, -, e0, e1⟩ := idx_facts0 ⟨(i 0).val / 2048, hlt⟩
  have e0' : win0_6.index ⟨(i 0).val / 2048, hlt⟩ (0 : Fin 2) = (i 0).val / 2048 := e0
  intro a
  match a with
  | ⟨0, _⟩ => show win0_6.index ⟨(i 0).val / 2048, hlt⟩ (0 : Fin 2) * 2048 ≤ (i 0).val ∧ (i 0).val < win0_6.index ⟨(i 0).val / 2048, hlt⟩ (0 : Fin 2) * 2048 + 2048; omega
  | ⟨1, _⟩ => show win0_6.index ⟨(i 0).val / 2048, hlt⟩ (1 : Fin 2) * 1 ≤ (i 1).val ∧ (i 1).val < win0_6.index ⟨(i 0).val / 2048, hlt⟩ (1 : Fin 2) * 1 + 1; omega

/-- The first result array holds the product: entry (r, k) is row r of h against column k of W. -/
theorem arr0_4 (c : Dev nD) :
    (dat0 (F := Ideal) V c).arrAt 4 cfg0.N = fun i => Cert.Spec.Wh (V c main_arg1) (V c main_arg2) (i 0) (i 1) :=
  (dat0 (F := Ideal) V c).arrAt_eq_of_cover 4 _ (fun t _ => flushed0_4_eq V c t) cover0_4

/-- The second result array (a column) holds each row of the product against the row a1. -/
theorem arr0_5 (c : Dev nD) :
    (dat0 (F := Ideal) V c).arrAt 5 cfg0.N
      = fun i => ∑ k : Fin 128, Cert.Spec.Wh (V c main_arg1) (V c main_arg2) (i 0) k * (V c main_v1 : S1x128.Idx → EReal) (ix2 (0 : Fin 1) k) :=
  (dat0 (F := Ideal) V c).arrAt_eq_of_cover 5 _ (fun t _ => flushed0_5_eq V c t) cover0_5

/-- The third result array (a column) holds each row of the product against the row a2. -/
theorem arr0_6 (c : Dev nD) :
    (dat0 (F := Ideal) V c).arrAt 6 cfg0.N
      = fun i => ∑ k : Fin 128, Cert.Spec.Wh (V c main_arg1) (V c main_arg2) (i 0) k * (V c main_v3 : S1x128.Idx → EReal) (ix2 (0 : Fin 1) k) :=
  (dat0 (F := Ideal) V c).arrAt_eq_of_cover 6 _ (fun t _ => flushed0_6_eq V c t) cover0_6

end

end Cert.KernelIdeal.Hand

end
-- ==== Proof.Math.lean ====
/-
  The algebra that joins the two programs, on the extended reals over real-valued data.

  * The running (block by block) softmax: carrying the running maximum m, the running denominator l and the running
    numerator a through the blocks of a row, each block rescaling what was accumulated by exp(m_old − m_new), ends at
    the whole row's maximum, ∑ exp(x − M) and ∑ exp(x − M)·w; so a / l is the softmax-weighted sum.
  * The two spellings of leaky ReLU and of ELU agree.
  * Sums of products of real entries are real.
-/
import proofs.«413953_j28767690949412_3_alg».proof.Proof.Spec
import Idealize.ShloMosaic.PureOps.Ideal
import Idealize.ShloMosaic.PureOps.Ideal.Laws
import Mathlib.Data.Finset.Fold
import Mathlib.Data.Fintype.BigOperators
import Mathlib.Analysis.SpecialFunctions.Exp

noncomputable section

namespace Cert.Math

open Idealize.ShloMosaic Idealize.ShloMosaic.ValueIdx

/-- Running maximum, running denominator, running numerator. -/
abbrev St : Type := EReal × EReal × EReal

/-- One block's update of the running state from the block's scores x and values w. -/
def upd (x w : Fin 1024 → EReal) (s : St) : St :=
  (max s.1 ((Finset.univ : Finset (Fin 1024)).fold max ⊥ x),
   Ideal.exp (s.1 - max s.1 ((Finset.univ : Finset (Fin 1024)).fold max ⊥ x)) * s.2.1
     + ∑ b : Fin 1024, Ideal.exp (x b - max s.1 ((Finset.univ : Finset (Fin 1024)).fold max ⊥ x)),
   Ideal.exp (s.1 - max s.1 ((Finset.univ : Finset (Fin 1024)).fold max ⊥ x)) * s.2.2
     + ∑ b : Fin 1024, Ideal.exp (x b - max s.1 ((Finset.univ : Finset (Fin 1024)).fold max ⊥ x)) * w b)

/-- The state after block j, starting from (−∞, 0, 0) before block 0. -/
def runTo (x w : ℕ → Fin 1024 → EReal) : ℕ → St
  | 0 => upd (x 0) (w 0) (⊥, 0, 0)
  | j + 1 => upd (x (j + 1)) (w (j + 1)) (runTo x w j)

/-! ## Coercions: sums and maxima of reals -/

/-- A finite sum of real entries is the real sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_max (a b : ℝ) : max (a : EReal) (b : EReal) = ((max a b : ℝ) : EReal) :=
  (EReal.coe_strictMono.monotone.map_max).symm

/-- The fold of max over a nonempty family of reals is its greatest entry. -/
theorem fold_max_coe {n : ℕ} (hn : 0 < n) (f : Fin n → ℝ) :
    ∃ b0 : Fin n, (∀ b, f b ≤ f b0) ∧
      (Finset.univ : Finset (Fin n)).fold max ⊥ (fun b => ((f b : ℝ) : EReal)) = ((f b0 : ℝ) : EReal) := by
  haveI : Nonempty (Fin n) := ⟨⟨0, hn⟩⟩
  obtain ⟨b0, -, hb0⟩ := Finset.exists_max_image (Finset.univ : Finset (Fin n)) f Finset.univ_nonempty
  refine ⟨b0, fun b => hb0 b (Finset.mem_univ b), le_antisymm ?_ ?_⟩
  · rw [Finset.fold_max_le]
    exact ⟨bot_le, fun b _ => by exact_mod_cast hb0 b (Finset.mem_univ b)⟩
  · rw [Finset.le_fold_max]
    exact Or.inr ⟨b0, Finset.mem_univ b0, le_rfl⟩

/-- A greatest entry that is attained is the fold of max. -/
theorem fold_max_eq {n : ℕ} (f : ℕ → ℝ) (m : ℝ) (hle : ∀ c, c < n → f c ≤ m) (hat : ∃ c, c < n ∧ f c = m) :
    (Finset.univ : Finset (Fin n)).fold max ⊥ (fun c => ((f c.val : ℝ) : EReal)) = (m : EReal) := by
  refine le_antisymm ?_ ?_
  · rw [Finset.fold_max_le]
    exact ⟨bot_le, fun b _ => by exact_mod_cast hle b.val b.isLt⟩
  · obtain ⟨c, hc, hcm⟩ := hat
    rw [Finset.le_fold_max]
    exact Or.inr ⟨⟨c, hc⟩, Finset.mem_univ _, by rw [← hcm]⟩

/-- One block's update of a real state. -/
theorem upd_coe (x w : Fin 1024 → ℝ) (mb m l a : ℝ)
    (hB : (Finset.univ : Finset (Fin 1024)).fold max ⊥ (fun b => ((x b : ℝ) : EReal)) = (mb : EReal)) :
    upd (fun b => ((x b : ℝ) : EReal)) (fun b => ((w b : ℝ) : EReal)) ((m : EReal), (l : EReal), (a : EReal))
      = (((max m mb : ℝ) : EReal),
         ((Real.exp (m - max m mb) * l + ∑ b : Fin 1024, Real.exp (x b - max m mb) : ℝ) : EReal),
         ((Real.exp (m - max m mb) * a + ∑ b : Fin 1024, Real.exp (x b - max m mb) * w b : ℝ) : EReal)) := by
  unfold upd
  simp only [hB, coe_max, ← EReal.coe_sub, Ideal.exp_coe, ← EReal.coe_mul, coe_sum, ← EReal.coe_add]

/-- The first block's update, from the empty state. -/
theorem upd_bot (x w : Fin 1024 → ℝ) (mb : ℝ)
    (hB : (Finset.univ : Finset (Fin 1024)).fold max ⊥ (fun b => ((x b : ℝ) : EReal)) = (mb : EReal)) :
    upd (fun b => ((x b : ℝ) : EReal)) (fun b => ((w b : ℝ) : EReal)) (⊥, 0, 0)
      = ((mb : EReal),
         ((∑ b : Fin 1024, Real.exp (x b - mb) : ℝ) : EReal),
         ((∑ b : Fin 1024, Real.exp (x b - mb) * w b : ℝ) : EReal)) := by
  unfold upd
  simp only [hB, bot_le, max_eq_right, EReal.bot_sub, Ideal.exp_bot, zero_mul, zero_add,
    ← EReal.coe_sub, Ideal.exp_coe, ← EReal.coe_mul, coe_sum]

theorem sum_block (f : ℕ → ℝ) (N : ℕ) :
    ∑ c ∈ Finset.range (N + 1024), f c = ∑ c ∈ Finset.range N, f c + ∑ b : Fin 1024, f (N + b.val) := by
  rw [Finset.sum_range_add, Fin.sum_univ_eq_sum_range (fun b => f (N + b)) 1024]

theorem runTo_zero (X W : ℕ → Fin 1024 → EReal) : runTo X W 0 = upd (X 0) (W 0) (⊥, 0, 0) := rfl
theorem runTo_succ (X W : ℕ → Fin 1024 → EReal) (j : ℕ) :
    runTo X W (j + 1) = upd (X (j + 1)) (W (j + 1)) (runTo X W j) := rfl

/-- The first block: from the empty state to the block's maximum and its two sums. -/
theorem upd_first (x w : ℕ → ℝ) (N : ℕ) :
    ∃ m : ℝ, (∀ b : Fin 1024, x (N + b.val) ≤ m) ∧ (∃ b : Fin 1024, x (N + b.val) = m) ∧
      upd (fun b => ((x (N + b.val) : ℝ) : EReal)) (fun b => ((w (N + b.val) : ℝ) : EReal)) (⊥, 0, 0)
        = ((m : EReal), ((∑ b : Fin 1024, Real.exp (x (N + b.val) - m) : ℝ) : EReal),
           ((∑ b : Fin 1024, Real.exp (x (N + b.val) - m) * w (N + b.val) : ℝ) : EReal)) := by
  obtain ⟨b0, hb0, hB⟩ := fold_max_coe (n := 1024) (by norm_num) (fun b => x (N + b.val))
  exact ⟨x (N + b0.val), hb0, ⟨b0, rfl⟩,
    upd_bot (fun b => x (N + b.val)) (fun b => w (N + b.val)) _ hB⟩

/-- A later block: the maximum and the two sums over N columns become those over N + 1024 columns. -/
theorem upd_next (x w : ℕ → ℝ) (N : ℕ) (m : ℝ) (hle : ∀ c, c < N → x c ≤ m) (hat : ∃ c, c < N ∧ x c = m) :
    ∃ m' : ℝ, (∀ c, c < N + 1024 → x c ≤ m') ∧ (∃ c, c < N + 1024 ∧ x c = m') ∧
      upd (fun b => ((x (N + b.val) : ℝ) : EReal)) (fun b => ((w (N + b.val) : ℝ) : EReal))
          ((m : EReal), ((∑ c ∈ Finset.range N, Real.exp (x c - m) : ℝ) : EReal),
            ((∑ c ∈ Finset.range N, Real.exp (x c - m) * w c : ℝ) : EReal))
        = ((m' : EReal), ((∑ c ∈ Finset.range (N + 1024), Real.exp (x c - m') : ℝ) : EReal),
           ((∑ c ∈ Finset.range (N + 1024), Real.exp (x c - m') * w c : ℝ) : EReal)) := by
  obtain ⟨b0, hb0, hB⟩ := fold_max_coe (n := 1024) (by norm_num) (fun b => x (N + b.val))
  refine ⟨max m (x (N + b0.val)), ?_, ?_, ?_⟩
  · intro c hc
    by_cases hcN : c < N
    · exact (hle c hcN).trans (le_max_left _ _)
    · have h1 := hb0 ⟨c - N, by omega⟩
      have e2 : N + (c - N) = c := by omega
      simp only [e2] at h1
      exact h1.trans (le_max_right _ _)
  · rcases le_total m (x (N + b0.val)) with hmb | hmb
    · exact ⟨N + b0.val, by have := b0.isLt; omega, (max_eq_right hmb).symm⟩
    · obtain ⟨c, hc, hcm⟩ := hat
      exact ⟨c, by omega, by rw [max_eq_left hmb, hcm]⟩
  · rw [upd_coe (fun b => x (N + b.val)) (fun b => w (N + b.val)) _ m _ _ hB,
      sum_block, sum_block, Finset.mul_sum, Finset.mul_sum]
    have h1 : ∀ c, Real.exp (m - max m (x (N + b0.val))) * Real.exp (x c - m)
        = Real.exp (x c - max m (x (N + b0.val))) := by
      intro c; rw [← Real.exp_add]; congr 1; ring
    have h2 : ∀ c, Real.exp (m - max m (x (N + b0.val))) * (Real.exp (x c - m) * w c)
        = Real.exp (x c - max m (x (N + b0.val))) * w c := by
      intro c; rw [← mul_assoc, h1]
    simp only [h1, h2]

/-- THE INVARIANT. After block j the state is the maximum of the first 1024·(j+1) scores, the sum of exp (score − maximum)
    over them, and the same sum weighted by the values. -/
theorem runTo_inv (x w : ℕ → ℝ) (j : ℕ) :
    ∃ m : ℝ, (∀ c, c < 1024 * (j + 1) → x c ≤ m) ∧ (∃ c, c < 1024 * (j + 1) ∧ x c = m) ∧
      runTo (fun j b => ((x (1024 * j + b.val) : ℝ) : EReal)) (fun j b => ((w (1024 * j + b.val) : ℝ) : EReal)) j
        = ((m : EReal), ((∑ c ∈ Finset.range (1024 * (j + 1)), Real.exp (x c - m) : ℝ) : EReal),
           ((∑ c ∈ Finset.range (1024 * (j + 1)), Real.exp (x c - m) * w c : ℝ) : EReal)) := by
  induction j with
  | zero =>
    obtain ⟨m, hle, hat, hst⟩ := upd_first x w (1024 * 0)
    refine ⟨m, ?_, ?_, ?_⟩
    · intro c hc
      have h1 := hle ⟨c, by omega⟩
      have e2 : 1024 * 0 + c = c := by omega
      simp only [e2] at h1
      exact h1
    · obtain ⟨b, hb⟩ := hat
      exact ⟨1024 * 0 + b.val, by have := b.isLt; omega, hb⟩
    · have e : 1024 * (0 + 1) = 1024 * 0 + 1024 := by norm_num
      have e0 : Finset.range (1024 * 0) = ∅ := by rw [Nat.mul_zero, Finset.range_zero]
      rw [runTo_zero, e, sum_block, sum_block, e0, Finset.sum_empty, Finset.sum_empty, zero_add, zero_add]
      exact hst
  | succ j ih =>
    obtain ⟨m, hle, hat, hst⟩ := ih
    obtain ⟨m', hle', hat', hst'⟩ := upd_next x w (1024 * (j + 1)) m hle hat
    have e : 1024 * (j + 1 + 1) = 1024 * (j + 1) + 1024 := by ring
    refine ⟨m', ?_, ?_, ?_⟩
    · rw [e]; exact hle'
    · rw [e]; exact hat'
    · rw [runTo_succ, hst, e]
      exact hst'

/-- THE QUOTIENT. With m the attained maximum of n real scores, (∑ exp (x − m)·w) / (∑ exp (x − m)) is the sum of the
    normalised weights against the values. -/
theorem softmax_final (n : ℕ) (x w : ℕ → ℝ) (m : ℝ) (hle : ∀ c, c < n → x c ≤ m) (hat : ∃ c, c < n ∧ x c = m) :
    Ideal.div ((∑ c ∈ Finset.range n, Real.exp (x c - m) * w c : ℝ) : EReal) ((∑ c ∈ Finset.range n, Real.exp (x c - m) : ℝ) : EReal)
    = ∑ c : Fin n, Ideal.div (Ideal.exp (((x c.val : ℝ) : EReal) - (Finset.univ : Finset (Fin n)).fold max ⊥ (fun c' => ((x c'.val : ℝ) : EReal))))
        (∑ c'' : Fin n, Ideal.exp (((x c''.val : ℝ) : EReal) - (Finset.univ : Finset (Fin n)).fold max ⊥ (fun c' => ((x c'.val : ℝ) : EReal))))
        * ((w c.val : ℝ) : EReal) := by
  have hpos : 0 < ∑ c ∈ Finset.range n, Real.exp (x c - m) := by
    obtain ⟨c, hc, -⟩ := hat
    exact Finset.sum_pos (fun i _ => Real.exp_pos _) ⟨c, Finset.mem_range.mpr hc⟩
  rw [fold_max_eq x m hle hat]
  simp only [← EReal.coe_sub, Ideal.exp_coe, coe_sum]
  rw [Fin.sum_univ_eq_sum_range (fun c => Real.exp (x c - m)) n]
  simp only [Ideal.div_coe hpos.ne', ← EReal.coe_mul, coe_sum]
  rw [Fin.sum_univ_eq_sum_range (fun c => Real.exp (x c - m) * (1 / ∑ c ∈ Finset.range n, Real.exp (x c - m)) * w c) n,
    Finset.sum_mul]
  congr 1
  refine Finset.sum_congr rfl fun c _ => ?_
  ring

/-- THE RUNNING SOFTMAX. Over real scores x and real values w of a row of 8192 columns cut into 8 blocks of 1024,
    the running numerator over the running denominator after the last block is the softmax-weighted sum of w. -/
theorem online_softmax (x w : ℕ → ℝ) :
    Ideal.div (runTo (fun j b => ((x (1024 * j + b.val) : ℝ) : EReal)) (fun j b => ((w (1024 * j + b.val) : ℝ) : EReal)) 7).2.2
        (runTo (fun j b => ((x (1024 * j + b.val) : ℝ) : EReal)) (fun j b => ((w (1024 * j + b.val) : ℝ) : EReal)) 7).2.1
      = ∑ c : Fin 8192,
          Ideal.div (Ideal.exp (((x c.val : ℝ) : EReal) - (Finset.univ : Finset (Fin 8192)).fold max ⊥ (fun c' => ((x c'.val : ℝ) : EReal))))
              (∑ c'' : Fin 8192, Ideal.exp (((x c''.val : ℝ) : EReal) - (Finset.univ : Finset (Fin 8192)).fold max ⊥ (fun c' => ((x c'.val : ℝ) : EReal))))
            * ((w c.val : ℝ) : EReal) := by
  obtain ⟨m, hle, hat, hst⟩ := runTo_inv x w 7
  have h8 : 1024 * (7 + 1) = 8192 := by norm_num
  rw [h8] at hle hat hst
  rw [hst]
  exact softmax_final 8192 x w m hle hat

/-! ## The literals -/

theorem ofBits_zero : Ideal.ofBits .f32 0x00000000#32 = 0 := by simp [Ideal.ofBits, Ideal.ieee]
theorem ofBits_one : Ideal.ofBits .f32 0x3F800000#32 = 1 := by
  simp [Ideal.ofBits, Ideal.ieee, -EReal.coe_mul]; norm_num
theorem ofBits_neg_inf : Ideal.ofBits .f32 0xFF800000#32 = ⊥ := by
  simp [Ideal.ofBits, Ideal.ieee]

/-- The slope word is 13421773·2⁻²⁶. -/
theorem alpha_eq : Cert.Spec.alpha = (((13421773 : ℝ) / 67108864 : ℝ) : EReal) := by
  simp [Cert.Spec.alpha, Ideal.ofBits, Ideal.ieee, -EReal.coe_mul]; norm_num

/-- The slope is a real number strictly between 0 and 1. -/
theorem alpha_real : ∃ v : ℝ, Cert.Spec.alpha = (v : EReal) ∧ 0 < v ∧ v < 1 :=
  ⟨_, alpha_eq, by norm_num, by norm_num⟩

/-- The fill value is a real number. -/
theorem negFill_real : ∃ v : ℝ, Cert.Spec.negFill = (v : EReal) := by
  simp [Cert.Spec.negFill, Ideal.ofBits, Ideal.ieee, -EReal.coe_mul]
  exact ⟨_, rfl⟩

/-! ## The two spellings of the activations -/

/-- max(s, α·s) is leaky ReLU for a real s (0 < α < 1). -/
theorem max_alpha_eq_lrelu (s : ℝ) : max (s : EReal) (Cert.Spec.alpha * (s : EReal)) = Cert.Spec.lrelu (s : EReal) := by
  obtain ⟨a, ha, h0, h1⟩ := alpha_real
  rw [Cert.Spec.lrelu, ha, ← EReal.coe_mul]
  by_cases hs : 0 ≤ s
  · rw [if_pos (by exact_mod_cast hs)]
    apply max_eq_left
    have : a * s ≤ s := by nlinarith
    exact_mod_cast this
  · rw [if_neg (by exact_mod_cast hs)]
    apply max_eq_right
    have : s ≤ a * s := by nlinarith
    exact_mod_cast this

/-- where(y > 0, y, exp(min(y, 0)) − 1) is ELU. -/
theorem select_eq_elu (y : EReal) :
    Scalar.select (Ideal.cmp .ogt y 0) y (Ideal.exp (min y 0) - 1) = Cert.Spec.elu y := by
  unfold Scalar.select Ideal.cmp Cert.Spec.elu
  by_cases hy : 0 < y
  · simp [hy]
  · have : min y 0 = y := min_eq_left (not_lt.mp hy)
    simp [hy, this]

/-! ## Real-valuedness -/

/-- Leaky ReLU of a real is real. -/
theorem lrelu_real (s : ℝ) : ∃ v : ℝ, Cert.Spec.lrelu (s : EReal) = (v : EReal) := by
  obtain ⟨a, ha, -, -⟩ := alpha_real
  unfold Cert.Spec.lrelu
  split
  · exact ⟨s, rfl⟩
  · exact ⟨a * s, by rw [ha, EReal.coe_mul]⟩

section
variable (adj : Cert.Spec.SAdj.Idx → BitVec 32) (h : Cert.Spec.SH.Idx → EReal) (W : Cert.Spec.SW.Idx → EReal) (a : Cert.Spec.SA.Idx → EReal)

theorem Wh_real (hf : Cert.Spec.Finite h W a) (r : Fin 8192) (k : Fin 128) : ∃ v : ℝ, Cert.Spec.Wh h W r k = (v : EReal) := by
  obtain ⟨hh, hW, -⟩ := hf
  choose fh hfh using hh
  choose fW hfW using hW
  refine ⟨∑ q : Fin 128, fh (ix2 r q) * fW (ix2 q k), ?_⟩
  unfold Cert.Spec.Wh
  rw [← coe_sum]
  refine Finset.sum_congr rfl fun q _ => ?_
  rw [hfh, hfW, EReal.coe_mul]

theorem s1_real (hf : Cert.Spec.Finite h W a) (r : Fin 8192) : ∃ v : ℝ, Cert.Spec.s1 h W a r = (v : EReal) := by
  have hWh := fun k => Wh_real h W a hf r k
  obtain ⟨-, -, ha⟩ := hf
  choose fa hfa using ha
  choose g hg using hWh
  refine ⟨∑ k : Fin 128, g k * fa (ix2 ⟨k.val, by omega⟩ (0 : Fin 1)), ?_⟩
  unfold Cert.Spec.s1
  rw [← coe_sum]
  refine Finset.sum_congr rfl fun k _ => ?_
  rw [hg, hfa, EReal.coe_mul]

theorem s2_real (hf : Cert.Spec.Finite h W a) (c : Fin 8192) : ∃ v : ℝ, Cert.Spec.s2 h W a c = (v : EReal) := by
  have hWh := fun k => Wh_real h W a hf c k
  obtain ⟨-, -, ha⟩ := hf
  choose fa hfa using ha
  choose g hg using hWh
  refine ⟨∑ k : Fin 128, g k * fa (ix2 ⟨128 + k.val, by omega⟩ (0 : Fin 1)), ?_⟩
  unfold Cert.Spec.s2
  rw [← coe_sum]
  refine Finset.sum_congr rfl fun k _ => ?_
  rw [hg, hfa, EReal.coe_mul]

theorem x_real (hf : Cert.Spec.Finite h W a) (r c : Fin 8192) : ∃ v : ℝ, Cert.Spec.x adj h W a r c = (v : EReal) := by
  obtain ⟨v1, h1⟩ := s1_real h W a hf r
  obtain ⟨v2, h2⟩ := s2_real h W a hf c
  unfold Cert.Spec.x Scalar.select
  split
  · rw [h1, h2, ← EReal.coe_add]
    exact lrelu_real _
  · exact negFill_real
end

end Cert.Math

end
-- ==== Proof.KI.StepL.lean ====
/-
  The running denominator's update read at a row: the old denominator rescaled by exp(m_old − m_new), plus the lane
  sum of the block's exponentials — given the row's masked scores `ms` and its new maximum `m'`.
-/
import proofs.«413953_j28767690949412_3_alg».proof.Proof.KI.Data
import proofs.«413953_j28767690949412_3_alg».proof.Proof.Spec
import proofs.«413953_j28767690949412_3_alg».proof.Proof.Math
import proofs.«413953_j28767690949412_3_alg».proof.Proof.LibRowCasts
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- A sum over the lanes of a square block, read at row p. -/
theorem laneSum1_apply (v : FVec Ideal S1024x1024 .f32) (h : S1024x1024.Reduces [1] S1024) (hφ : FKind.Formats .f32)
    (hacc : (0x00000000#32 : BitVec 32) = FKind.add.neutral .f32 hφ) (p : Fin 1024) :
    multiReduction (F := Ideal) .add [1] S1024 v 0x00000000#32 h hφ hacc (ix1 p) = ∑ b : Fin 1024, v (ix2 p b) := by
  refine (Ideal.multiReduction_add_single v 0x00000000#32 h hφ hacc (ix1 p)).trans ?_
  refine Finset.sum_congr rfl fun b _ => congrArg v ?_
  funext a
  match a with
  | ⟨0, _⟩ => rfl
  | ⟨1, _⟩ => rfl

/-- The denominator after the update, at row ρ. -/
theorem pay11_at (x0 : Vec Ideal S1024x1024 .i32) (x1 : Vec Ideal S1024x1 .f32) (x2 : Vec Ideal S1x1024 .f32)
    (s0 s1 : Vec Ideal S1024x1 .f32) (ρ : Fin 1024) (ms : Fin 1024 → EReal) (m' : EReal)
    (h7 : ∀ b : Fin 1024, (k1_pay7 x1 x2 x0 : S1024x1024.Idx → EReal) (ix2 ρ b) = ms b)
    (h8 : (k1_pay8 x1 x2 x0 s0 : S1024x1.Idx → EReal) (ix2 ρ (0 : Fin 1)) = m') :
    (k1_pay11 x1 x2 x0 s0 s0 s1 : S1024x1.Idx → EReal) (ix2 ρ (0 : Fin 1))
      = Ideal.exp ((s0 : S1024x1.Idx → EReal) (ix2 ρ (0 : Fin 1)) - m') * (s1 : S1024x1.Idx → EReal) (ix2 ρ (0 : Fin 1))
        + ∑ b : Fin 1024, Ideal.exp (ms b - m') := by
  unfold k1_pay11
  refine (congrFun (shapeCast_self _ _) _).trans ?_
  refine (addf_apply _ _ _).trans ?_
  refine congrArg₂ (· + ·) ?_ ?_
  · -- the old denominator, rescaled
    refine (mulf_apply _ _ _).trans ?_
    refine congrArg (· * (s1 : S1024x1.Idx → EReal) (ix2 ρ (0 : Fin 1))) ?_
    unfold k1_pay9
    show Ideal.exp ((s0 : S1024x1.Idx → EReal) (ix2 ρ (0 : Fin 1)) - (k1_pay8 x1 x2 x0 s0 : S1024x1.Idx → EReal) (ix2 ρ (0 : Fin 1))) = _
    rw [h8]
  · -- the lane sum of the block's exponentials
    refine (RowCasts.shapeCast_column_apply _ _ ρ (0 : Fin 1)).trans ?_
    refine (laneSum1_apply _ _ _ _ ρ).trans ?_
    refine Finset.sum_congr rfl fun b _ => ?_
    unfold k1_pay10
    show Ideal.exp ((k1_pay7 x1 x2 x0 : S1024x1024.Idx → EReal) (ix2 ρ b)
      - broadcastTo S1024x1024 (k1_pay8 x1 x2 x0 s0) broadcasts_S1024x1_S1024x1024 (ix2 ρ b)) = _
    rw [RowCasts.broadcastTo_column_apply, h7, h8]

end Cert.KernelIdeal.Hand

end
-- ==== Proof.KI.StepA.lean ====
/-
  The running numerator's update read at a row and a lane: the old numerator rescaled by exp(m_old − m_new), plus the
  block's exponentials against lane k of the block of projected features (the matrix product into a zero accumulator) —
  given the row's masked scores `ms` and its new maximum `m'`.
-/
import proofs.«413953_j28767690949412_3_alg».proof.Proof.KI.Data
import proofs.«413953_j28767690949412_3_alg».proof.Proof.Spec
import proofs.«413953_j28767690949412_3_alg».proof.Proof.Math
import proofs.«413953_j28767690949412_3_alg».proof.Proof.LibRowCasts
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! ## The block's matrix product read at an index -/

/-- The product's left operand index keeps the output row … -/
theorem lhs_attn_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
/-- … and runs over the contraction position on its lanes; -/
theorem lhs_attn_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
/-- the right operand index runs over the contraction position on its rows … -/
theorem rhs_attn_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
/-- … and keeps the output lane. -/
theorem rhs_attn_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The product into a zero accumulator at (ρ, k): row ρ of the left block against lane k of the right block. -/
theorem attn_matmul_apply (P : FVec Ideal S1024x1024 .bf16) (W : FVec Ideal S1024x128 .bf16) (ρ : Fin 1024) (k : Fin 128) :
    matmul dot_S1024x1024_S1024x128_S1024x128_1_0_0_1_n_n none P W (constant S1024x128 .f32 0x00000000#32) (ix2 ρ k)
      = ∑ b : Fin 1024, (P : S1024x1024.Idx → EReal) (ix2 ρ b) * (W : S1024x128.Idx → EReal) (ix2 b k) := by
  simp only [matmul]
  rw [Ideal.matmul_constant_zero_apply, ← Equiv.sum_comp (contrEquiv1 dot_S1024x1024_S1024x128_S1024x128_1_0_0_1_n_n 1024 rfl rfl).symm]
  refine Finset.sum_congr rfl fun q _ => ?_
  have hk := contrEquiv1_symm_val dot_S1024x1024_S1024x128_S1024x128_1_0_0_1_n_n 1024 rfl rfl q
  have el : dot_S1024x1024_S1024x128_S1024x128_1_0_0_1_n_n.lhsIdx (ix2 ρ k) ((contrEquiv1 dot_S1024x1024_S1024x128_S1024x128_1_0_0_1_n_n 1024 rfl rfl).symm q) = ix2 ρ q := funext fun a => Fin.ext (by
    match a with
    | ⟨0, _⟩ => exact lhs_attn_0 _ _
    | ⟨1, _⟩ => exact (lhs_attn_1 _ _).trans hk)
  have er : dot_S1024x1024_S1024x128_S1024x128_1_0_0_1_n_n.rhsIdx (ix2 ρ k) ((contrEquiv1 dot_S1024x1024_S1024x128_S1024x128_1_0_0_1_n_n 1024 rfl rfl).symm q) = ix2 q k := funext fun a => Fin.ext (by
    match a with
    | ⟨0, _⟩ => exact (rhs_attn_0 _ _).trans hk
    | ⟨1, _⟩ => exact rhs_attn_1 _ _)
  rw [el, er]

/-- An exponential at an index is the exponential of the element. -/
theorem stepA_exp_apply {s : Shape} {φ : FTy} (a : FVec Ideal s φ) (i : s.Idx) : exp a i = Ideal.exp (a i) := rfl

/-- The numerator after the update, at row ρ and lane k. -/
theorem pay1_at (x0 : Vec Ideal S1024x1024 .i32) (x1 : Vec Ideal S1024x1 .f32) (x2 : Vec Ideal S1x1024 .f32)
    (x3 : Vec Ideal S1024x128 .bf16) (s0 : Vec Ideal S1024x1 .f32) (s2 : Vec Ideal S1024x128 .f32) (ρ : Fin 1024) (k : Fin 128)
    (ms : Fin 1024 → EReal) (m' : EReal)
    (h7 : ∀ b : Fin 1024, (k1_pay7 x1 x2 x0 : S1024x1024.Idx → EReal) (ix2 ρ b) = ms b)
    (h8 : (k1_pay8 x1 x2 x0 s0 : S1024x1.Idx → EReal) (ix2 ρ (0 : Fin 1)) = m') :
    (k1_pay1 (k1_pay9 x1 x2 x0 s0 s0) (k1_pay10 x1 x2 x0 s0) x3 s2 : S1024x128.Idx → EReal) (ix2 ρ k)
      = Ideal.exp ((s0 : S1024x1.Idx → EReal) (ix2 ρ (0 : Fin 1)) - m') * (s2 : S1024x128.Idx → EReal) (ix2 ρ k)
        + ∑ b : Fin 1024, Ideal.exp (ms b - m') * (x3 : S1024x128.Idx → EReal) (ix2 b k) := by
  unfold k1_pay1 k1_pay9 k1_pay10
  dsimp only
  refine (congrFun (shapeCast_self _ _) _).trans ?_
  refine (addf_apply _ _ _).trans ?_
  refine congrArg₂ (· + ·) ?_ ?_
  · refine (mulf_apply _ _ _).trans ?_
    refine congrArg₂ (· * ·) ?_ rfl
    refine (RowCasts.broadcastTo_column_apply _ _ ρ k).trans ?_
    refine (stepA_exp_apply _ _).trans ?_
    refine congrArg Ideal.exp ?_
    refine (subf_apply _ _ _).trans ?_
    rw [h8]
  · refine (attn_matmul_apply _ _ ρ k).trans ?_
    refine Finset.sum_congr rfl fun b _ => ?_
    refine congrArg₂ (· * ·) ?_ ?_
    · refine (truncf_apply (ψ := .bf16) _ bitsLt_bf16_f32 _).trans ?_
      refine (stepA_exp_apply _ _).trans ?_
      refine congrArg Ideal.exp ?_
      refine (subf_apply _ _ _).trans ?_
      refine congrArg₂ (· - ·) (h7 b) ?_
      exact (RowCasts.broadcastTo_column_apply _ _ ρ b).trans h8
    · exact congrFun (shapeCast_self _ _) _

end Cert.KernelIdeal.Hand

end
-- ==== Proof.KI.StepAt.lean ====
/-
  One update of the attention call's carried state, read at a row ρ and a lane k: it is the running-softmax update
  (Math.lean's `upd`) of the row's masked scores in the block and of lane k of the block of projected features.
-/
import proofs.«413953_j28767690949412_3_alg».proof.Proof.KI.Data
import proofs.«413953_j28767690949412_3_alg».proof.Proof.Spec
import proofs.«413953_j28767690949412_3_alg».proof.Proof.Math
import proofs.«413953_j28767690949412_3_alg».proof.Proof.LibRowCasts
import proofs.«413953_j28767690949412_3_alg».proof.Proof.KI.StepL
import proofs.«413953_j28767690949412_3_alg».proof.Proof.KI.StepA
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- The masked score of row ρ against column b of the block, from the adjacency block x0, the column x1 of first
    scores and the row x2 of second scores: max(s, α·s) on an edge, the fill value off it. -/
def mscore (x0 : Vec Ideal S1024x1024 .i32) (x1 : Vec Ideal S1024x1 .f32) (x2 : Vec Ideal S1x1024 .f32) (ρ b : Fin 1024) : EReal :=
  Scalar.select (Scalar.cmpi .sgt ((x0 : S1024x1024.Idx → BitVec 32) (ix2 ρ b)) 0#32)
    (max ((x1 : S1024x1.Idx → EReal) (ix2 ρ (0 : Fin 1)) + (x2 : S1x1024.Idx → EReal) (ix2 (0 : Fin 1) b))
      (Cert.Spec.alpha * ((x1 : S1024x1.Idx → EReal) (ix2 ρ (0 : Fin 1)) + (x2 : S1x1024.Idx → EReal) (ix2 (0 : Fin 1) b))))
    Cert.Spec.negFill

/-! ## Layout and index lemmas -/

/-- A row broadcast over the rows reads, at `(i, j)`, the row at `(0, j)`. -/
private theorem broadcastTo_row_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- The row index ρ with the lane b inserted on the reduced axis is (ρ, b). -/
private theorem lift_row (ρ : Fin 1024) (b : Fin 1024) :
    (Facts₀.reduces_S1024x1024_S1024).lift (ix1 ρ) b = ix2 ρ b := by
  funext c
  match c with
  | ⟨0, _⟩ => exact Fin.ext rfl
  | ⟨1, _⟩ => exact Fin.ext rfl

/-! ## The payloads at an index -/

/-- The block's masked scores. -/
theorem pay7_at (x0 : Vec Ideal S1024x1024 .i32) (x1 : Vec Ideal S1024x1 .f32) (x2 : Vec Ideal S1x1024 .f32) (ρ b : Fin 1024) :
    (k1_pay7 x1 x2 x0 : S1024x1024.Idx → EReal) (ix2 ρ b) = mscore x0 x1 x2 ρ b := by
  unfold k1_pay7 mscore
  simp only [select_apply, maximumf_apply, mulf_apply, addf_apply, broadcast_apply, shapeCast_self]
  rw [RowCasts.broadcastTo_column_apply, broadcastTo_row_apply]
  rfl

/-! ## The row maximum, over a variable source -/

private theorem fold_max_congr {f g : Fin 1024 → EReal} (a : EReal) (h : ∀ b, f b = g b) :
    (Finset.univ : Finset (Fin 1024)).fold max a f = (Finset.univ : Finset (Fin 1024)).fold max a g := by
  rw [funext h]

/-- The row maximum kept as a column: at row ρ the fold of max from −∞ over the row's lanes. -/
private theorem rowmax_at (src : FVec Ideal S1024x1024 .f32) (ρ : Fin 1024) :
    shapeCast S1024x1 (multiReduction .maximumf [1] S1024 src 0xFF800000#32 Facts₀.reduces_S1024x1024_S1024 (.inl rfl) rfl)
        Facts₀.shapeCasts_S1024_S1024x1 (ix2 ρ (0 : Fin 1))
      = (Finset.univ : Finset (Fin 1024)).fold max ⊥ (fun b => src (ix2 ρ b)) := by
  refine (RowCasts.shapeCast_column_apply _ _ ρ 0).trans ?_
  refine (Ideal.multiReduction_maximumf_single src _ Facts₀.reduces_S1024x1024_S1024 _ _ (ix1 ρ)).trans ?_
  rw [Ideal.ofBits_def, Cert.Math.ofBits_neg_inf]
  exact fold_max_congr ⊥ (fun b => congrArg src (lift_row ρ b))

/-- The running maximum after the block: the old one against the row's maximum over the block. -/
theorem pay8_at (x0 : Vec Ideal S1024x1024 .i32) (x1 : Vec Ideal S1024x1 .f32) (x2 : Vec Ideal S1x1024 .f32)
    (m : Vec Ideal S1024x1 .f32) (ρ : Fin 1024) :
    (k1_pay8 x1 x2 x0 m : S1024x1.Idx → EReal) (ix2 ρ (0 : Fin 1))
      = max ((m : S1024x1.Idx → EReal) (ix2 ρ (0 : Fin 1)))
          ((Finset.univ : Finset (Fin 1024)).fold max ⊥ (fun b => mscore x0 x1 x2 ρ b)) := by
  unfold k1_pay8
  refine (maximumf_apply _ _ _).trans (congrArg (max _) ?_)
  exact (rowmax_at _ ρ).trans (fold_max_congr ⊥ (fun b => pay7_at x0 x1 x2 ρ b))

/-- The reset state at a row and a lane: −∞, 0, 0. -/
theorem reset1_at (ρ : Fin 1024) (k : Fin 128) :
    (((reset1 (F := Ideal)).1 : S1024x1.Idx → EReal) (ix2 ρ (0 : Fin 1)),
     ((reset1 (F := Ideal)).2.1 : S1024x1.Idx → EReal) (ix2 ρ (0 : Fin 1)),
     ((reset1 (F := Ideal)).2.2 : S1024x128.Idx → EReal) (ix2 ρ k)) = ((⊥ : EReal), (0 : EReal), (0 : EReal)) := by
  refine Prod.ext ?_ (Prod.ext ?_ ?_)
  · show (k1_pay4 (F := Ideal) : S1024x1.Idx → EReal) (ix2 ρ (0 : Fin 1)) = ⊥
    unfold k1_pay4
    refine (congrFun (shapeCast_self _ _) _).trans ?_
    exact Cert.Math.ofBits_neg_inf
  · show (k1_pay5 (F := Ideal) : S1024x1.Idx → EReal) (ix2 ρ (0 : Fin 1)) = 0
    unfold k1_pay5
    refine (congrFun (shapeCast_self _ _) _).trans ?_
    exact Cert.Math.ofBits_zero
  · show (k1_pay6 (F := Ideal) : S1024x128.Idx → EReal) (ix2 ρ k) = 0
    unfold k1_pay6
    refine (congrFun (shapeCast_self _ _) _).trans ?_
    exact Cert.Math.ofBits_zero

/-- One update at a row and a lane. -/
theorem step1_at (s : St1 Ideal) (x0 : Vec Ideal S1024x1024 .i32) (x1 : Vec Ideal S1024x1 .f32) (x2 : Vec Ideal S1x1024 .f32)
    (x3 : Vec Ideal S1024x128 .bf16) (ρ : Fin 1024) (k : Fin 128) :
    (((step1 s x0 x1 x2 x3).1 : S1024x1.Idx → EReal) (ix2 ρ (0 : Fin 1)),
     ((step1 s x0 x1 x2 x3).2.1 : S1024x1.Idx → EReal) (ix2 ρ (0 : Fin 1)),
     ((step1 s x0 x1 x2 x3).2.2 : S1024x128.Idx → EReal) (ix2 ρ k))
      = Cert.Math.upd (fun b => mscore x0 x1 x2 ρ b) (fun b => (x3 : S1024x128.Idx → EReal) (ix2 b k))
          ((s.1 : S1024x1.Idx → EReal) (ix2 ρ (0 : Fin 1)), (s.2.1 : S1024x1.Idx → EReal) (ix2 ρ (0 : Fin 1)), (s.2.2 : S1024x128.Idx → EReal) (ix2 ρ k)) := by
  have h7 : ∀ b : Fin 1024, (k1_pay7 x1 x2 x0 : S1024x1024.Idx → EReal) (ix2 ρ b) = mscore x0 x1 x2 ρ b :=
    fun b => pay7_at x0 x1 x2 ρ b
  have h8 := pay8_at x0 x1 x2 s.1 ρ
  unfold step1 Cert.Math.upd
  refine Prod.ext ?_ (Prod.ext ?_ ?_)
  · show (k1_pay2 (k1_pay8 x1 x2 x0 s.1) : S1024x1.Idx → EReal) (ix2 ρ (0 : Fin 1)) = _
    unfold k1_pay2
    exact (congrFun (shapeCast_self _ _) _).trans h8
  · exact pay11_at x0 x1 x2 s.1 s.2.1 ρ _ _ h7 h8
  · exact pay1_at x0 x1 x2 x3 s.1 s.2.2 ρ k _ _ h7 h8

end Cert.KernelIdeal.Hand

end
-- ==== Proof.KI.State1.lean ====
/-
  The running state of the attention call, read at a row: after the column step j of the block row i, the three scratch
  buffers hold, at row ρ (and lane k for the numerator), the running maximum, denominator and numerator of row
  1024·i + ρ over its first j + 1 column blocks (Math.lean's `runTo`), when the call's operands hold the adjacency words,
  the two score vectors and the projected features.
-/
import proofs.«413953_j28767690949412_3_alg».proof.Proof.KI.Data
import proofs.«413953_j28767690949412_3_alg».proof.Proof.Spec
import proofs.«413953_j28767690949412_3_alg».proof.Proof.Math
import proofs.«413953_j28767690949412_3_alg».proof.Proof.LibRowCasts
import proofs.«413953_j28767690949412_3_alg».proof.Proof.KI.StepAt
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- Row r's masked scores, cut into column blocks of 1024 (block j, lane b is column 1024·j + b). -/
def xb (adj : Cert.Spec.SAdj.Idx → BitVec 32) (h : Cert.Spec.SH.Idx → EReal) (W : Cert.Spec.SW.Idx → EReal) (a : Cert.Spec.SA.Idx → EReal)
    (r : Fin 8192) : ℕ → Fin 1024 → EReal :=
  fun j b => Cert.Spec.x adj h W a r ⟨(1024 * j + b.val) % 8192, Nat.mod_lt _ (by decide)⟩
/-- Column k of the projected features, cut into row blocks of 1024. -/
def wb (h : Cert.Spec.SH.Idx → EReal) (W : Cert.Spec.SW.Idx → EReal) (k : Fin 128) : ℕ → Fin 1024 → EReal :=
  fun j b => Cert.Spec.Wh h W ⟨(1024 * j + b.val) % 8192, Nat.mod_lt _ (by decide)⟩ k

section
variable (V : (c : Dev nD) → (b : Ref sig .tc) → Buf (Elt Ideal) ((c : Thread nD τ).loc b))

/-- The block indices of the four input windows at each grid point: point t is block row t / 8, block column t % 8. -/
theorem idx_facts1 : ∀ t : Fin cfg1.N,
    win1_0.index t (0 : Fin 2) = t.val / 8 ∧ win1_0.index t (1 : Fin 2) = t.val % 8
    ∧ win1_1.index t (0 : Fin 2) = t.val / 8 ∧ win1_1.index t (1 : Fin 2) = 0
    ∧ win1_2.index t (0 : Fin 2) = 0 ∧ win1_2.index t (1 : Fin 2) = t.val % 8
    ∧ win1_3.index t (0 : Fin 2) = t.val % 8 ∧ win1_3.index t (1 : Fin 2) = 0 :=
  (by decide +kernel : ∀ t : Fin grid1.N, _)

/-- The adjacency block at point 8·i + j is block (i, j) of the adjacency array. -/
theorem blk0_apply (c : Dev nD) (i j : ℕ) (hi : i < 8) (hj : j < 8) (t : Fin cfg1.N) (et : t.val = 8 * i + j) (ρ b : Fin 1024) :
    (iblk1 (F := Ideal) V c 0 t : S1024x1024.Idx → BitVec 32) (ix2 ρ b)
      = (V c main_arg0 : S8192x8192.Idx → BitVec 32) (ix2 (⟨1024 * i + ρ.val, by omega⟩ : Fin 8192) (⟨1024 * j + b.val, by omega⟩ : Fin 8192)) := by
  obtain ⟨f00, f01, f10, f11, f20, f21, f30, f31⟩ := idx_facts1 t
  show V c main_arg0 (((cfg1.win 0).blk t).view.emb (ix2 ρ b)) = V c main_arg0 _
  refine congrArg _ (funext fun a => Fin.ext ?_)
  match a with
  | ⟨0, _⟩ => show win1_0.index t (0 : Fin 2) * 1024 + 1 * ρ.val = 1024 * i + ρ.val; omega
  | ⟨1, _⟩ => show win1_0.index t (1 : Fin 2) * 1024 + 1 * b.val = 1024 * j + b.val; omega

/-- The column of first scores at point 8·i + j is rows 1024·i … of the first score array. -/
theorem blk1_apply (c : Dev nD) (i j : ℕ) (hi : i < 8) (hj : j < 8) (t : Fin cfg1.N) (et : t.val = 8 * i + j) (ρ : Fin 1024) :
    (iblk1 (F := Ideal) V c 1 t : S1024x1.Idx → EReal) (ix2 ρ (0 : Fin 1))
      = (V c main_v4_1 : S8192x1.Idx → EReal) (ix2 (⟨1024 * i + ρ.val, by omega⟩ : Fin 8192) (0 : Fin 1)) := by
  obtain ⟨f00, f01, f10, f11, f20, f21, f30, f31⟩ := idx_facts1 t
  show V c main_v4_1 (((cfg1.win 1).blk t).view.emb (ix2 ρ (0 : Fin 1))) = V c main_v4_1 _
  refine congrArg _ (funext fun a => Fin.ext ?_)
  match a with
  | ⟨0, _⟩ => show win1_1.index t (0 : Fin 2) * 1024 + 1 * ρ.val = 1024 * i + ρ.val; omega
  | ⟨1, _⟩ => show win1_1.index t (1 : Fin 2) * 1 + 1 * 0 = 0; omega

/-- The row of second scores at point 8·i + j is columns 1024·j … of the second score array. -/
theorem blk2_apply (c : Dev nD) (i j : ℕ) (hi : i < 8) (hj : j < 8) (t : Fin cfg1.N) (et : t.val = 8 * i + j) (b : Fin 1024) :
    (iblk1 (F := Ideal) V c 2 t : S1x1024.Idx → EReal) (ix2 (0 : Fin 1) b)
      = (V c main_v5 : S1x8192.Idx → EReal) (ix2 (0 : Fin 1) (⟨1024 * j + b.val, by omega⟩ : Fin 8192)) := by
  obtain ⟨f00, f01, f10, f11, f20, f21, f30, f31⟩ := idx_facts1 t
  show V c main_v5 (((cfg1.win 2).blk t).view.emb (ix2 (0 : Fin 1) b)) = V c main_v5 _
  refine congrArg _ (funext fun a => Fin.ext ?_)
  match a with
  | ⟨0, _⟩ => show win1_2.index t (0 : Fin 2) * 1 + 1 * 0 = 0; omega
  | ⟨1, _⟩ => show win1_2.index t (1 : Fin 2) * 1024 + 1 * b.val = 1024 * j + b.val; omega

/-- The block of projected features at point 8·i + j is rows 1024·j … of the projected feature array. -/
theorem blk3_apply (c : Dev nD) (i j : ℕ) (hi : i < 8) (hj : j < 8) (t : Fin cfg1.N) (et : t.val = 8 * i + j) (b : Fin 1024) (k : Fin 128) :
    (iblk1 (F := Ideal) V c 3 t : S1024x128.Idx → EReal) (ix2 b k)
      = (V c main_v4_0 : S8192x128.Idx → EReal) (ix2 (⟨1024 * j + b.val, by omega⟩ : Fin 8192) k) := by
  obtain ⟨f00, f01, f10, f11, f20, f21, f30, f31⟩ := idx_facts1 t
  show V c main_v4_0 (((cfg1.win 3).blk t).view.emb (ix2 b k)) = V c main_v4_0 _
  refine congrArg _ (funext fun a => Fin.ext ?_)
  match a with
  | ⟨0, _⟩ => show win1_3.index t (0 : Fin 2) * 1024 + 1 * b.val = 1024 * j + b.val; omega
  | ⟨1, _⟩ => show win1_3.index t (1 : Fin 2) * 128 + 1 * k.val = k.val; omega

/-- The masked score of row ρ against column b of the blocks at point 8·i + j is the specification's masked score of row
    1024·i + ρ against column 1024·j + b: the block reads, and max(s, α·s) is the leaky ReLU of the real s. -/
theorem mscore_blk (c : Dev nD) (adj : Cert.Spec.SAdj.Idx → BitVec 32) (h : Cert.Spec.SH.Idx → EReal) (W : Cert.Spec.SW.Idx → EReal)
    (a : Cert.Spec.SA.Idx → EReal) (hf : Cert.Spec.Finite h W a)
    (e0 : (V c main_arg0 : S8192x8192.Idx → BitVec 32) = adj)
    (e1 : (V c main_v4_1 : S8192x1.Idx → EReal) = fun i => Cert.Spec.s1 h W a (i 0))
    (e2 : (V c main_v5 : S1x8192.Idx → EReal) = fun i => Cert.Spec.s2 h W a (i 1))
    (i j : ℕ) (hi : i < 8) (hj : j < 8) (t : Fin cfg1.N) (et : t.val = 8 * i + j) (ρ b : Fin 1024) :
    mscore (iblk1 (F := Ideal) V c 0 t) (iblk1 (F := Ideal) V c 1 t) (iblk1 (F := Ideal) V c 2 t) ρ b
      = xb adj h W a (⟨1024 * i + ρ.val, by omega⟩ : Fin 8192) j b := by
  have hc : (⟨(1024 * j + b.val) % 8192, Nat.mod_lt _ (by decide)⟩ : Fin 8192) = ⟨1024 * j + b.val, by omega⟩ :=
    Fin.ext (Nat.mod_eq_of_lt (by omega))
  obtain ⟨v1, hv1⟩ := Cert.Math.s1_real h W a hf (⟨1024 * i + ρ.val, by omega⟩ : Fin 8192)
  obtain ⟨v2, hv2⟩ := Cert.Math.s2_real h W a hf (⟨1024 * j + b.val, by omega⟩ : Fin 8192)
  unfold mscore xb Cert.Spec.x
  rw [hc, blk0_apply V c i j hi hj t et ρ b, blk1_apply V c i j hi hj t et ρ, blk2_apply V c i j hi hj t et b, e0, e1, e2]
  show Scalar.select (Scalar.cmpi .sgt (adj (ix2 _ _)) 0#32)
      (max (Cert.Spec.s1 h W a ⟨1024 * i + ρ.val, _⟩ + Cert.Spec.s2 h W a ⟨1024 * j + b.val, _⟩)
        (Cert.Spec.alpha * (Cert.Spec.s1 h W a ⟨1024 * i + ρ.val, _⟩ + Cert.Spec.s2 h W a ⟨1024 * j + b.val, _⟩))) Cert.Spec.negFill = _
  rw [hv1, hv2, ← EReal.coe_add, Cert.Math.max_alpha_eq_lrelu]

/-- Lane k of the block of projected features at point 8·i + j is block j of column k of the projected features. -/
theorem wh_blk (c : Dev nD) (h : Cert.Spec.SH.Idx → EReal) (W : Cert.Spec.SW.Idx → EReal)
    (e3 : (V c main_v4_0 : S8192x128.Idx → EReal) = fun i => Cert.Spec.Wh h W (i 0) (i 1))
    (i j : ℕ) (hi : i < 8) (hj : j < 8) (t : Fin cfg1.N) (et : t.val = 8 * i + j) (b : Fin 1024) (k : Fin 128) :
    (iblk1 (F := Ideal) V c 3 t : S1024x128.Idx → EReal) (ix2 b k) = wb h W k j b := by
  have hc : (⟨(1024 * j + b.val) % 8192, Nat.mod_lt _ (by decide)⟩ : Fin 8192) = ⟨1024 * j + b.val, by omega⟩ :=
    Fin.ext (Nat.mod_eq_of_lt (by omega))
  unfold wb
  rw [hc, blk3_apply V c i j hi hj t et b k, e3]
  rfl

/-- A carried state read at row ρ (maximum, denominator) and at row ρ, lane k (numerator). -/
abbrev rd3 (s : St1 Ideal) (ρ : Fin 1024) (k : Fin 128) : EReal × EReal × EReal :=
  ((s.1 : S1024x1.Idx → EReal) (ix2 ρ (0 : Fin 1)), (s.2.1 : S1024x1.Idx → EReal) (ix2 ρ (0 : Fin 1)),
   (s.2.2 : S1024x128.Idx → EReal) (ix2 ρ k))

/-- The update respects equal scores, equal values and equal states. -/
theorem upd_congr {x x' w w' : Fin 1024 → EReal} {s s' : Cert.Math.St} (hx : x = x') (hw : w = w') (hs : s = s') :
    Cert.Math.upd x w s = Cert.Math.upd x' w' s' := by
  subst hx hw hs; rfl

/-- At the first point of a row of blocks the state is one update of the reset state. -/
theorem scAt1_start (c : Dev nD) (n : ℕ) (hn : n < cfg1.N) (h0 : n % 8 = 0) :
    scAt1 (F := Ideal) V c n hn
      = step1 reset1 (iblk1 V c 0 ⟨n, hn⟩) (iblk1 V c 1 ⟨n, hn⟩) (iblk1 V c 2 ⟨n, hn⟩) (iblk1 V c 3 ⟨n, hn⟩) := by
  cases n with
  | zero => rfl
  | succ m => rw [scAt1, if_pos h0]

/-- At every other point the state is one update of the state after the point before. -/
theorem scAt1_next (c : Dev nD) (m : ℕ) (hn : m + 1 < cfg1.N) (h0 : ¬(m + 1) % 8 = 0) :
    scAt1 (F := Ideal) V c (m + 1) hn
      = step1 (scAt1 V c m (Nat.lt_of_succ_lt hn)) (iblk1 V c 0 ⟨m + 1, hn⟩) (iblk1 V c 1 ⟨m + 1, hn⟩) (iblk1 V c 2 ⟨m + 1, hn⟩)
          (iblk1 V c 3 ⟨m + 1, hn⟩) := by
  rw [scAt1, if_neg h0]

/-- Along a row of blocks: the state after point n = 8·i + j, at row ρ and lane k, is the running softmax state of row
    1024·i + ρ after block j. By induction on j; each step is one update, whose scores and values are the block reads. -/
theorem scAt1_run (c : Dev nD) (adj : Cert.Spec.SAdj.Idx → BitVec 32) (h : Cert.Spec.SH.Idx → EReal) (W : Cert.Spec.SW.Idx → EReal)
    (a : Cert.Spec.SA.Idx → EReal) (hf : Cert.Spec.Finite h W a)
    (e0 : (V c main_arg0 : S8192x8192.Idx → BitVec 32) = adj)
    (e1 : (V c main_v4_1 : S8192x1.Idx → EReal) = fun i => Cert.Spec.s1 h W a (i 0))
    (e2 : (V c main_v5 : S1x8192.Idx → EReal) = fun i => Cert.Spec.s2 h W a (i 1))
    (e3 : (V c main_v4_0 : S8192x128.Idx → EReal) = fun i => Cert.Spec.Wh h W (i 0) (i 1))
    (i : ℕ) (hi : i < 8) (ρ : Fin 1024) (k : Fin 128) :
    ∀ (j : ℕ) (hj : j < 8) (n : ℕ) (hn : n < cfg1.N) (en : n = 8 * i + j),
      rd3 (scAt1 (F := Ideal) V c n hn) ρ k
        = Cert.Math.runTo (xb adj h W a (⟨1024 * i + ρ.val, by omega⟩ : Fin 8192)) (wb h W k) j := by
  intro j
  induction j with
  | zero =>
    intro hj n hn en
    have hx : (fun b => mscore (iblk1 (F := Ideal) V c 0 ⟨n, hn⟩) (iblk1 (F := Ideal) V c 1 ⟨n, hn⟩) (iblk1 (F := Ideal) V c 2 ⟨n, hn⟩) ρ b)
        = xb adj h W a (⟨1024 * i + ρ.val, by omega⟩ : Fin 8192) 0 :=
      funext fun b => mscore_blk V c adj h W a hf e0 e1 e2 i 0 hi hj ⟨n, hn⟩ en ρ b
    have hw : (fun b => (iblk1 (F := Ideal) V c 3 ⟨n, hn⟩ : S1024x128.Idx → EReal) (ix2 b k)) = wb h W k 0 :=
      funext fun b => wh_blk V c h W e3 i 0 hi hj ⟨n, hn⟩ en b k
    refine (congrArg (fun s : St1 Ideal => rd3 s ρ k) (scAt1_start V c n hn (by omega))).trans ?_
    refine (step1_at reset1 (iblk1 V c 0 ⟨n, hn⟩) (iblk1 V c 1 ⟨n, hn⟩) (iblk1 V c 2 ⟨n, hn⟩) (iblk1 V c 3 ⟨n, hn⟩) ρ k).trans ?_
    exact upd_congr hx hw (reset1_at ρ k)
  | succ j ih =>
    intro hj n hn en
    obtain ⟨m, rfl⟩ : ∃ m, n = m + 1 := ⟨8 * i + j, by omega⟩
    have ihm := ih (by omega) m (Nat.lt_of_succ_lt hn) (by omega)
    have hx : (fun b => mscore (iblk1 (F := Ideal) V c 0 ⟨m + 1, hn⟩) (iblk1 (F := Ideal) V c 1 ⟨m + 1, hn⟩) (iblk1 (F := Ideal) V c 2 ⟨m + 1, hn⟩) ρ b)
        = xb adj h W a (⟨1024 * i + ρ.val, by omega⟩ : Fin 8192) (j + 1) :=
      funext fun b => mscore_blk V c adj h W a hf e0 e1 e2 i (j + 1) hi hj ⟨m + 1, hn⟩ en ρ b
    have hw : (fun b => (iblk1 (F := Ideal) V c 3 ⟨m + 1, hn⟩ : S1024x128.Idx → EReal) (ix2 b k)) = wb h W k (j + 1) :=
      funext fun b => wh_blk V c h W e3 i (j + 1) hi hj ⟨m + 1, hn⟩ en b k
    refine (congrArg (fun s : St1 Ideal => rd3 s ρ k) (scAt1_next V c m hn (by omega))).trans ?_
    refine (step1_at (scAt1 V c m (Nat.lt_of_succ_lt hn)) (iblk1 V c 0 ⟨m + 1, hn⟩) (iblk1 V c 1 ⟨m + 1, hn⟩) (iblk1 V c 2 ⟨m + 1, hn⟩)
      (iblk1 V c 3 ⟨m + 1, hn⟩) ρ k).trans ?_
    exact upd_congr hx hw ihm

/-- The state after point 8·i + j, at row ρ and lane k, is the running softmax state of row 1024·i + ρ after block j. -/
theorem scAt1_eq (c : Dev nD) (adj : Cert.Spec.SAdj.Idx → BitVec 32) (h : Cert.Spec.SH.Idx → EReal) (W : Cert.Spec.SW.Idx → EReal)
    (a : Cert.Spec.SA.Idx → EReal) (hf : Cert.Spec.Finite h W a)
    (e0 : (V c main_arg0 : S8192x8192.Idx → BitVec 32) = adj)
    (e1 : (V c main_v4_1 : S8192x1.Idx → EReal) = fun i => Cert.Spec.s1 h W a (i 0))
    (e2 : (V c main_v5 : S1x8192.Idx → EReal) = fun i => Cert.Spec.s2 h W a (i 1))
    (e3 : (V c main_v4_0 : S8192x128.Idx → EReal) = fun i => Cert.Spec.Wh h W (i 0) (i 1))
    (i j : ℕ) (hi : i < 8) (hj : j < 8) (ρ : Fin 1024) (k : Fin 128) (ht : 8 * i + j < cfg1.N) :
    (((scAt1 (F := Ideal) V c (8 * i + j) ht).1 : S1024x1.Idx → EReal) (ix2 ρ (0 : Fin 1)),
     ((scAt1 (F := Ideal) V c (8 * i + j) ht).2.1 : S1024x1.Idx → EReal) (ix2 ρ (0 : Fin 1)),
     ((scAt1 (F := Ideal) V c (8 * i + j) ht).2.2 : S1024x128.Idx → EReal) (ix2 ρ k))
      = Cert.Math.runTo (xb adj h W a ⟨1024 * i + ρ.val, by omega⟩) (wb h W k) j :=
  scAt1_run V c adj h W a hf e0 e1 e2 e3 i hi ρ k j hj (8 * i + j) ht rfl

end

end Cert.KernelIdeal.Hand

end
-- ==== Proof.KI.Value1.lean ====
/-
  What the attention call leaves in its result array, at the exact values, when its operands hold the adjacency words,
  the two score vectors and the projected features: the ELU of the softmax-weighted aggregate.
-/
import proofs.«413953_j28767690949412_3_alg».proof.Proof.KI.State1
import proofs.«413953_j28767690949412_3_alg».proof.Proof.Spec
import proofs.«413953_j28767690949412_3_alg».proof.Proof.Math
import proofs.«413953_j28767690949412_3_alg».proof.Proof.LibRowCasts
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! ## The stored block at an index -/

/-- The stored block at row ρ, lane k: the ELU of the numerator over the row's denominator. -/
theorem elu_block_apply (acc : Vec Ideal S1024x128 .f32) (l : Vec Ideal S1024x1 .f32) (ρ : Fin 1024) (k : Fin 128) :
    (k1_pay3 acc l : S1024x128.Idx → EReal) (ix2 ρ k)
      = Cert.Spec.elu (Ideal.div ((acc : S1024x128.Idx → EReal) (ix2 ρ k)) ((l : S1024x1.Idx → EReal) (ix2 ρ (0 : Fin 1)))) := by
  have hb : broadcastTo S1024x128 l broadcasts_S1024x1_S1024x128 (ix2 ρ k) = l (ix2 ρ (0 : Fin 1)) :=
    Idealize.ShloMosaic.RowCasts.broadcastTo_column_apply l broadcasts_S1024x1_S1024x128 ρ k
  have hexp : ∀ (v : FVec Ideal S1024x128 .f32) (i : S1024x128.Idx), exp v i = Ideal.exp (v i) := fun _ _ => rfl
  refine Eq.trans ?_ (Cert.Math.select_eq_elu _)
  unfold k1_pay3
  simp only [select_apply, cmpf_apply, hexp, divf_apply, subf_apply, minimumf_apply, broadcast_apply, hb, Ideal.cmpf_def, Ideal.ofBits_def, Cert.Math.ofBits_zero, Cert.Math.ofBits_one]

/-! ## The row's aggregate over real witnesses -/

section Row
variable (adj : Cert.Spec.SAdj.Idx → BitVec 32) (h : Cert.Spec.SH.Idx → EReal) (W : Cert.Spec.SW.Idx → EReal) (a : Cert.Spec.SA.Idx → EReal)

/-- Real witnesses of row r's masked scores and of column k of the projected features, as sequences, with the two
    block cuttings read off them (a column below 8192 is its own remainder). -/
theorem row_witnesses (hf : Cert.Spec.Finite h W a) (r : Fin 8192) (k : Fin 128) :
    ∃ x w : ℕ → ℝ,
      (∀ c : Fin 8192, ((x c.val : ℝ) : EReal) = Cert.Spec.x adj h W a r c)
      ∧ (∀ c : Fin 8192, ((w c.val : ℝ) : EReal) = Cert.Spec.Wh h W c k)
      ∧ xb adj h W a r = (fun j b => ((x (1024 * j + b.val) : ℝ) : EReal))
      ∧ wb h W k = (fun j b => ((w (1024 * j + b.val) : ℝ) : EReal)) := by
  choose xr hxr using fun c' : Fin 8192 => Cert.Math.x_real adj h W a hf r c'
  choose wr hwr using fun c' : Fin 8192 => Cert.Math.Wh_real h W a hf c' k
  refine ⟨fun n => xr ⟨n % 8192, Nat.mod_lt _ (by decide)⟩, fun n => wr ⟨n % 8192, Nat.mod_lt _ (by decide)⟩, ?_, ?_, ?_, ?_⟩
  · intro c
    rw [hxr]
    exact congrArg (fun z : Fin 8192 => ((xr z : ℝ) : EReal)) (Fin.ext (Nat.mod_eq_of_lt c.isLt))
  · intro c
    rw [hwr]
    exact congrArg (fun z : Fin 8192 => ((wr z : ℝ) : EReal)) (Fin.ext (Nat.mod_eq_of_lt c.isLt))
  · funext j b
    unfold xb
    rw [hxr]
  · funext j b
    unfold wb
    rw [hwr]

/-- The whole row's softmax-weighted sum, written over the witnesses, is the specification's aggregate. -/
theorem hp_of_witnesses (r : Fin 8192) (k : Fin 128) (x w : ℕ → ℝ)
    (hx : ∀ c : Fin 8192, ((x c.val : ℝ) : EReal) = Cert.Spec.x adj h W a r c)
    (hw : ∀ c : Fin 8192, ((w c.val : ℝ) : EReal) = Cert.Spec.Wh h W c k) :
    (∑ c : Fin 8192,
          Ideal.div (Ideal.exp (((x c.val : ℝ) : EReal) - (Finset.univ : Finset (Fin 8192)).fold max ⊥ (fun c' => ((x c'.val : ℝ) : EReal))))
              (∑ c'' : Fin 8192, Ideal.exp (((x c''.val : ℝ) : EReal) - (Finset.univ : Finset (Fin 8192)).fold max ⊥ (fun c' => ((x c'.val : ℝ) : EReal))))
            * ((w c.val : ℝ) : EReal))
      = Cert.Spec.hp adj h W a r k := by
  unfold Cert.Spec.hp Cert.Spec.L Cert.Spec.p Cert.Spec.M
  simp only [hx, hw]

end Row

section
variable (V : (c : Dev nD) → (b : Ref sig .tc) → Buf (Elt Ideal) ((c : Thread nD τ).loc b))

/-! ## From blocks to the array -/

/-- The result window's block indices, decided over the grid: the block row is the point's row, the block column 0. -/
theorem idx_facts4 : ∀ t : Fin cfg1.N, win1_4.index t (0 : Fin 2) = t.val / 8 ∧ win1_4.index t (1 : Fin 2) = 0 :=
  (by decide +kernel : ∀ t : Fin grid1.N, win1_4.index t (0 : Fin 2) = t.val / 8 ∧ win1_4.index t (1 : Fin 2) = 0)

/-- An index of the array is in point t's block iff each coordinate is in the block's range on its axis. -/
theorem mem_blk4 (t : Fin cfg1.N) (i : S8192x128.Idx) :
    i ∈ ((cfg1.win 4).blk t).view.set ↔ ∀ a : Fin 2, win1_4.index t a * S1024x128.size a ≤ (i a).val ∧ (i a).val < win1_4.index t a * S1024x128.size a + S1024x128.size a := by
  show i ∈ ((View.whole main_v6).slice (win1_4.rect t)).set ↔ _
  rw [View.set_slice_whole, Rect.mem_set_unit]
  exact Iff.rfl

/-- The state after a point is the state after any equal point. -/
theorem scAt1_congr (c : Dev nD) {n m : ℕ} (e : n = m) (hn : n < cfg1.N) (hm : m < cfg1.N) :
    scAt1 (F := Ideal) V c n hn = scAt1 (F := Ideal) V c m hm := by
  subst e; rfl

/-- After the last column step of block row t / 8, the numerator over the denominator at row ρ, lane k is the
    specification's aggregate of row 1024·(t / 8) + ρ: the running softmax over the eight blocks is the whole row's. -/
theorem agg_at (c : Dev nD) (adj : Cert.Spec.SAdj.Idx → BitVec 32) (h : Cert.Spec.SH.Idx → EReal) (W : Cert.Spec.SW.Idx → EReal)
    (a : Cert.Spec.SA.Idx → EReal) (hf : Cert.Spec.Finite h W a)
    (e0 : (V c main_arg0 : S8192x8192.Idx → BitVec 32) = adj)
    (e1 : (V c main_v4_1 : S8192x1.Idx → EReal) = fun i => Cert.Spec.s1 h W a (i 0))
    (e2 : (V c main_v5 : S1x8192.Idx → EReal) = fun i => Cert.Spec.s2 h W a (i 1))
    (e3 : (V c main_v4_0 : S8192x128.Idx → EReal) = fun i => Cert.Spec.Wh h W (i 0) (i 1))
    (t : Fin cfg1.N) (ht7 : t.val % 8 = 7) (ρ : Fin 1024) (k : Fin 128) (hr : 1024 * (t.val / 8) + ρ.val < 8192) :
    Ideal.div (((scAt1 (F := Ideal) V c t.val t.isLt).2.2 : S1024x128.Idx → EReal) (ix2 ρ k))
        (((scAt1 (F := Ideal) V c t.val t.isLt).2.1 : S1024x1.Idx → EReal) (ix2 ρ (0 : Fin 1)))
      = Cert.Spec.hp adj h W a ⟨1024 * (t.val / 8) + ρ.val, hr⟩ k := by
  have hN : cfg1.N = 64 := rfl
  have htl : t.val < cfg1.N := t.isLt
  have hi : t.val / 8 < 8 := by omega
  have e : t.val = 8 * (t.val / 8) + 7 := by omega
  have ht' : 8 * (t.val / 8) + 7 < cfg1.N := by omega
  rw [scAt1_congr V c e t.isLt ht']
  have key := scAt1_eq V c adj h W a hf e0 e1 e2 e3 (t.val / 8) 7 hi (by omega) ρ k ht'
  obtain ⟨x, w, hx, hw, hxb, hwb⟩ := row_witnesses adj h W a hf ⟨1024 * (t.val / 8) + ρ.val, hr⟩ k
  rw [hxb, hwb] at key
  have h22 := congrArg (fun s : Cert.Math.St => s.2.2) key
  have h21 := congrArg (fun s : Cert.Math.St => s.2.1) key
  dsimp only at h22 h21
  rw [h22, h21]
  exact (Cert.Math.online_softmax x w).trans (hp_of_witnesses adj h W a _ k x w hx hw)

/-- What a point of the last column step writes back is its block of the specification. -/
theorem flushed4_eq (c : Dev nD) (adj : Cert.Spec.SAdj.Idx → BitVec 32) (h : Cert.Spec.SH.Idx → EReal) (W : Cert.Spec.SW.Idx → EReal)
    (a : Cert.Spec.SA.Idx → EReal) (hf : Cert.Spec.Finite h W a)
    (e0 : (V c main_arg0 : S8192x8192.Idx → BitVec 32) = adj)
    (e1 : (V c main_v4_1 : S8192x1.Idx → EReal) = fun i => Cert.Spec.s1 h W a (i 0))
    (e2 : (V c main_v5 : S1x8192.Idx → EReal) = fun i => Cert.Spec.s2 h W a (i 1))
    (e3 : (V c main_v4_0 : S8192x128.Idx → EReal) = fun i => Cert.Spec.Wh h W (i 0) (i 1))
    (t : Fin cfg1.N) (ht7 : t.val % 8 = 7) :
    (dat1 (F := Ideal) V c).flushed 4 t = ((cfg1.win 4).blk t).view.read (Elt Ideal) (Cert.Spec.G adj h W a) := by
  show (cfg1.win 4).cut (grid1.coords t) ((dat1 (F := Ideal) V c).after 4 t) = _
  dsimp only [dat1]
  funext j
  show k1_pay3 (scAt1 (F := Ideal) V c t.val t.isLt).2.2 (scAt1 (F := Ideal) V c t.val t.isLt).2.1 j
    = Cert.Spec.G adj h W a (((cfg1.win 4).blk t).view.emb j)
  obtain ⟨q0, q1⟩ := idx_facts4 t
  have hN : cfg1.N = 64 := rfl
  have htl : t.val < cfg1.N := t.isLt
  have hj0 : (j 0).val < 1024 := (j 0).isLt
  have hr : 1024 * (t.val / 8) + (j 0).val < 8192 := by omega
  have hemb : ((cfg1.win 4).blk t).view.emb j = ix2 (⟨1024 * (t.val / 8) + (j 0).val, hr⟩ : Fin 8192) (j 1) := by
    funext a; apply Fin.ext
    match a with
    | ⟨0, _⟩ => show win1_4.index t (0 : Fin 2) * 1024 + 1 * (j 0).val = 1024 * (t.val / 8) + (j 0).val; omega
    | ⟨1, _⟩ => show win1_4.index t (1 : Fin 2) * 128 + 1 * (j 1).val = (j 1).val; omega
  rw [hemb]
  have hj : (j : S1024x128.Idx) = ix2 (j 0) (j 1) := eq_ix2 (n0 := 1024) (n1 := 128) j
  refine (congrArg (k1_pay3 (scAt1 (F := Ideal) V c t.val t.isLt).2.2 (scAt1 (F := Ideal) V c t.val t.isLt).2.1) hj).trans ?_
  refine (elu_block_apply _ _ (j 0) (j 1)).trans ?_
  exact congrArg Cert.Spec.elu (agg_at V c adj h W a hf e0 e1 e2 e3 t ht7 (j 0) (j 1) hr)

/-- The result array is the specification's: row r's running softmax over its eight column blocks ends at the whole
    row's softmax-weighted sum of the projected features, and the last column step stores its ELU. -/
theorem arr1_4 (c : Dev nD) (adj : Cert.Spec.SAdj.Idx → BitVec 32) (h : Cert.Spec.SH.Idx → EReal) (W : Cert.Spec.SW.Idx → EReal)
    (a : Cert.Spec.SA.Idx → EReal) (hf : Cert.Spec.Finite h W a)
    (e0 : (V c main_arg0 : S8192x8192.Idx → BitVec 32) = adj)
    (e1 : (V c main_v4_1 : S8192x1.Idx → EReal) = fun i => Cert.Spec.s1 h W a (i 0))
    (e2 : (V c main_v5 : S1x8192.Idx → EReal) = fun i => Cert.Spec.s2 h W a (i 1))
    (e3 : (V c main_v4_0 : S8192x128.Idx → EReal) = fun i => Cert.Spec.Wh h W (i 0) (i 1)) :
    (dat1 (F := Ideal) V c).arrAt 4 cfg1.N = Cert.Spec.G adj h W a := by
  refine (dat1 (F := Ideal) V c).arrAt_eq_of_cover 4 (Cert.Spec.G adj h W a)
    (fun t hfl => flushed4_eq V c adj h W a hf e0 e1 e2 e3 t ((flush1_4 t).mp hfl)) ?_
  intro i
  have hN : cfg1.N = 64 := rfl
  have hi0 : (i 0).val < 8192 := (i 0).isLt
  have hi1 : (i 1).val < 128 := (i 1).isLt
  have htl : 8 * ((i 0).val / 1024) + 7 < cfg1.N := by omega
  obtain ⟨q0, q1⟩ := idx_facts4 ⟨8 * ((i 0).val / 1024) + 7, htl⟩
  have q0' : win1_4.index ⟨8 * ((i 0).val / 1024) + 7, htl⟩ (0 : Fin 2) = (8 * ((i 0).val / 1024) + 7) / 8 := q0
  refine ⟨⟨8 * ((i 0).val / 1024) + 7, htl⟩, (flush1_4 _).mpr (by show (8 * ((i 0).val / 1024) + 7) % 8 = 7; omega), ?_⟩
  rw [mem_blk4]
  intro ax
  match ax with
  | ⟨0, _⟩ =>
    show win1_4.index ⟨8 * ((i 0).val / 1024) + 7, htl⟩ (0 : Fin 2) * 1024 ≤ (i 0).val
      ∧ (i 0).val < win1_4.index ⟨8 * ((i 0).val / 1024) + 7, htl⟩ (0 : Fin 2) * 1024 + 1024
    omega
  | ⟨1, _⟩ =>
    show win1_4.index ⟨8 * ((i 0).val / 1024) + 7, htl⟩ (1 : Fin 2) * 128 ≤ (i 1).val
      ∧ (i 1).val < win1_4.index ⟨8 * ((i 0).val / 1024) + 7, htl⟩ (1 : Fin 2) * 128 + 128
    omega

end

end Cert.KernelIdeal.Hand

end
-- ==== Proof.KI.Glue.lean ====
/-
  The two calls joined: with the projection entered on h, W and the transposed halves of a, and the attention entered
  on the adjacency, the projection's three result arrays (the third transposed), the attention's result array is the
  specification.
-/
import proofs.«413953_j28767690949412_3_alg».proof.Proof.KI.Value0
import proofs.«413953_j28767690949412_3_alg».proof.Proof.KI.Value1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

section
variable (V1 V3 : (c : Dev nD) → (b : Ref sig .tc) → Buf (Elt Ideal) ((c : Thread nD τ).loc b))

/-- The attention call's result array from the program's arguments. -/
theorem value_glue (c : Dev nD) (adj : Cert.Spec.SAdj.Idx → BitVec 32) (h : Cert.Spec.SH.Idx → EReal) (W : Cert.Spec.SW.Idx → EReal)
    (a : Cert.Spec.SA.Idx → EReal) (hf : Cert.Spec.Finite h W a)
    (h1 : (V1 c main_arg1 : S8192x128.Idx → EReal) = h)
    (h2 : (V1 c main_arg2 : S128x128.Idx → EReal) = W)
    (h3 : (V1 c main_v1 : S1x128.Idx → EReal) = transpose S1x128 [1, 0] (extractStridedSlice S128x1 ![0, 0] (a : S256x1.Idx → EReal) Facts₀.slices_S256x1_S128x1_0_0) Facts₀.transposes_S128x1_S1x128_1_0)
    (h4 : (V1 c main_v3 : S1x128.Idx → EReal) = transpose S1x128 [1, 0] (extractStridedSlice S128x1 ![128, 0] (a : S256x1.Idx → EReal) Facts₀.slices_S256x1_S128x1_128_0) Facts₀.transposes_S128x1_S1x128_1_0)
    (g0 : (V3 c main_arg0 : S8192x8192.Idx → BitVec 32) = adj)
    (g1 : V3 c main_v4_0 = (dat0 (F := Ideal) V1 c).arrAt 4 cfg0.N)
    (g2 : V3 c main_v4_1 = (dat0 (F := Ideal) V1 c).arrAt 5 cfg0.N)
    (g3 : (V3 c main_v5 : S1x8192.Idx → EReal) = transpose S1x8192 [1, 0] ((dat0 (F := Ideal) V1 c).arrAt 6 cfg0.N : S8192x1.Idx → EReal) Facts₀.transposes_S8192x1_S1x8192_1_0) :
    (dat1 (F := Ideal) V3 c).arrAt 4 cfg1.N = Cert.Spec.G adj h W a := by
  -- The row a1: the upper half of a, transposed, read at (0, k), is a at (k, 0).
  have a1 : ∀ k : Fin 128, (V1 c main_v1 : S1x128.Idx → EReal) (ix2 (0 : Fin 1) k)
      = a (ix2 (⟨k.val, by omega⟩ : Fin 256) (0 : Fin 1)) := by
    intro k
    rw [h3]
    refine (transpose_ix2_apply _ _ (0 : Fin 1) k).trans ?_
    exact slice2_axis0_apply 0 a _ k (0 : Fin 1) ⟨k.val, by omega⟩ (Nat.zero_add _).symm
  -- The row a2: the lower half of a (from row 128), transposed, read at (0, k), is a at (128 + k, 0).
  have a2 : ∀ k : Fin 128, (V1 c main_v3 : S1x128.Idx → EReal) (ix2 (0 : Fin 1) k)
      = a (ix2 (⟨128 + k.val, by omega⟩ : Fin 256) (0 : Fin 1)) := by
    intro k
    rw [h4]
    refine (transpose_ix2_apply _ _ (0 : Fin 1) k).trans ?_
    exact slice2_axis0_apply 128 a _ k (0 : Fin 1) ⟨128 + k.val, by omega⟩ rfl
  -- The projected features: the projection's first result array on h and W.
  have e3 : (V3 c main_v4_0 : S8192x128.Idx → EReal) = fun i => Cert.Spec.Wh h W (i 0) (i 1) := by
    rw [g1, arr0_4 V1 c, h1, h2]
  -- The first score: the second result array, its row a1 read as the upper half of a.
  have e1 : (V3 c main_v4_1 : S8192x1.Idx → EReal) = fun i => Cert.Spec.s1 h W a (i 0) := by
    rw [g2, arr0_5 V1 c, h1, h2]
    funext i
    unfold Cert.Spec.s1
    exact Finset.sum_congr rfl fun k _ => by rw [a1 k]
  -- The second score: the third result array transposed, so entry (0, c) is the column's entry (c, 0),
  -- its row a2 read as the lower half of a.
  have e2 : (V3 c main_v5 : S1x8192.Idx → EReal) = fun i => Cert.Spec.s2 h W a (i 1) := by
    rw [g3, arr0_6 V1 c, h1, h2]
    funext i
    refine (congrArg _ (eq_ix2 i)).trans ?_
    refine (transpose_ix2_apply _ _ (i 0) (i 1)).trans ?_
    show (∑ k : Fin 128, Cert.Spec.Wh h W (i 1) k * (V1 c main_v3 : S1x128.Idx → EReal) (ix2 (0 : Fin 1) k))
      = Cert.Spec.s2 h W a (i 1)
    unfold Cert.Spec.s2
    exact Finset.sum_congr rfl fun k _ => by rw [a2 k]
  exact arr1_4 V3 c adj h W a hf g0 e1 e2 e3

end

end Cert.KernelIdeal.Hand

end
-- ==== Proof.KI.Final.lean ====
/-
  The idealized kernel's run with its result named: under real-valued float inputs, every execution ends with the result
  array at the specification and the arguments unchanged.
-/
import proofs.«413953_j28767690949412_3_alg».proof.Proof.KI.Run
import proofs.«413953_j28767690949412_3_alg».proof.Proof.KI.Glue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- The run, its result the specification of the arguments. -/
theorem run_val (m : (ℓ : Loc nD τ sig) → Buf (Elt Ideal) ℓ) (ρ : Dev nD → PrngReg)
    (hf : ∀ c : Dev nD, Cert.Spec.Finite (m ((c.tc : Thread nD τ).loc main_arg1)) (m ((c.tc : Thread nD τ).loc main_arg2)) (m ((c.tc : Thread nD τ).loc main_arg3))) :
    θ_run (defs (F := Ideal)) (onTc (τ := τ) (main (F := Ideal))) ⟨m, fun _ => 0, ρ⟩ (fun r => ∀ c : Dev nD,
      r.2.mem ((c.tc : Thread nD τ).loc main_v6) = Cert.Spec.G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun r h c =>
    ⟨(h c _ (mem_uc main_v6 (by decide))).trans ((W4_main_v6 m ρ c).trans
        (value_glue (V1 m ρ) (V3 m ρ) c _ _ _ _ (hf c) (V1_main_arg1 m ρ c) (V1_main_arg2 m ρ c) (V1_main_v1 m ρ c) (V1_main_v3 m ρ c)
          (V3_main_arg0 m ρ c) (V3_main_v4_0 m ρ c) (V3_main_v4_1 m ρ c) (V3_main_v5 m ρ c))),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c)⟩) (run_main m ρ)

end Cert.KernelIdeal.Hand

end
-- ==== Proof.Ref.Run.lean ====
/-
  The reference program's run, read back by hand.

  @main calls three outlined functions (leaky ReLU, which calls a select helper; a select helper with a scalar
  fill; ELU, which calls two select helpers). A call means its callee's body substituted at the call site, so
  @main is one straight line of fifty-three host operations: the list below gives them in execution order, each
  callee's operations inline over the buffer record of its call. Every weakly fair execution then ends with each
  buffer at the fold of those operations over the launch contents, and the fold at the result buffer is the
  composed term refOut of the four arguments' contents; the arguments themselves are left unchanged.
-/
import proofs.«413953_j28767690949412_3_alg».proof.ReferenceIdeal
import proofs.«413953_j28767690949412_3_alg».proof.Proof.Gen.ReferenceIdeal
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem
  Idealize.ShloMosaic.StableHlo

variable {F : FTy → Type} [FloatOps F]
variable [Cert.ReferenceIdeal.Facts]

/-! ## The composed term, stage by stage -/

/-- The projected features: h against W, contracting h's columns with W's rows. -/
def wh (h : FVec F S8192x128 .f32) (W : FVec F S128x128 .f32) : FVec F S8192x128 .f32 :=
  Host.dotGeneral dot_S8192x128_S128x128_S8192x128_1_0_0_1_n_n none h W

/-- The first score column: the projected features against rows 0 to 127 of a. -/
def sc1 (h : FVec F S8192x128 .f32) (W : FVec F S128x128 .f32) (a : FVec F S256x1 .f32) : FVec F S8192x1 .f32 :=
  Host.dotGeneral dot_S8192x128_S128x1_S8192x1_1_0_0_1_n_n none (wh h W)
    (extractStridedSlice S128x1 ![0, 0] a slices_S256x1_S128x1_0_0)

/-- The second score column: the projected features against rows 128 to 255 of a. -/
def sc2 (h : FVec F S8192x128 .f32) (W : FVec F S128x128 .f32) (a : FVec F S256x1 .f32) : FVec F S8192x1 .f32 :=
  Host.dotGeneral dot_S8192x128_S128x1_S8192x1_1_0_0_1_n_n none (wh h W)
    (extractStridedSlice S128x1 ![128, 0] a slices_S256x1_S128x1_128_0)

/-- The raw score matrix: the first column broadcast along the rows plus the second, transposed, broadcast down
    the columns. -/
def score (h : FVec F S8192x128 .f32) (W : FVec F S128x128 .f32) (a : FVec F S256x1 .f32) : FVec F S8192x8192 .f32 :=
  addf (broadcastInDim S8192x8192 ![0, 1] bcast_S8192x1_S8192x8192_0_1 (sc1 h W a))
    (broadcastInDim S8192x8192 ![0, 1] bcast_S1x8192_S8192x8192_0_1
      (transpose S1x8192 [1, 0] (sc2 h W a) transposes_S8192x1_S1x8192_1_0))

/-- Leaky ReLU of a matrix: the entry where it is at least the broadcast zero, the broadcast slope times it
    elsewhere. -/
def leaky (x : FVec F S8192x8192 .f32) : FVec F S8192x8192 .f32 :=
  select (cmpf .oge x (broadcastInDim S8192x8192 ![] bcast_S_S8192x8192 (constant S_ .f32 0x00000000#32))) x
    (mulf (broadcastInDim S8192x8192 ![] bcast_S_S8192x8192 (constant S_ .f32 0x3E4CCCCD#32)) x)

/-- The mask: the entry where the adjacency word exceeds the broadcast integer zero (signed), the broadcast fill
    value elsewhere. -/
def masked (adj : IVec S8192x8192 32) (x : FVec F S8192x8192 .f32) : FVec F S8192x8192 .f32 :=
  select (cmpi .sgt adj (broadcastInDim S8192x8192 ![] bcast_S_S8192x8192 (constantI S_ 32 0#32))) x
    (broadcastInDim S8192x8192 ![] bcast_S_S8192x8192 (constant S_ .f32 0xD9FFCB9E#32))

/-- A vector of row values broadcast back over the matrix: first to a column, then along the rows. -/
def overRows (v : FVec F S8192 .f32) : FVec F S8192x8192 .f32 :=
  broadcastInDim S8192x8192 ![0, 1] bcast_S8192x1_S8192x8192_0_1
    (broadcastInDim S8192x1 ![0] bcast_S8192_S8192x1_0 v)

/-- The row maxima: the fold of the float maximum along each row from the lower bound, then the maximum with the
    broadcast lower bound once more. -/
def rowMax (x : FVec F S8192x8192 .f32) : FVec F S8192 .f32 :=
  maximumf (broadcastInDim S8192 ![] bcast_S_S8192 (constant S_ .f32 0xFF800000#32))
    (Host.reduce FloatOps.maximumf x (constant S_ .f32 0xFF800000#32) reducesTo_S8192x8192_S8192_d1 h_S_)

/-- The unnormalised weights: the exponential of each entry less its row's maximum. -/
def expw (x : FVec F S8192x8192 .f32) : FVec F S8192x8192 .f32 :=
  Host.exp (subf x (overRows (rowMax x)))

/-- The row sums of a matrix, from zero. -/
def rowSum (p : FVec F S8192x8192 .f32) : FVec F S8192 .f32 :=
  Host.reduceAdd p (constant S_ .f32 0x00000000#32) reducesTo_S8192x8192_S8192_d1 h_S_

/-- The softmax of each row: the unnormalised weights over their row sum. -/
def attn (x : FVec F S8192x8192 .f32) : FVec F S8192x8192 .f32 :=
  Host.divf (expw x) (overRows (rowSum (expw x)))

/-- The aggregate: the softmax rows against the projected features. -/
def agg (x : FVec F S8192x8192 .f32) (v : FVec F S8192x128 .f32) : FVec F S8192x128 .f32 :=
  Host.dotGeneral dot_S8192x8192_S8192x128_S8192x128_1_0_0_1_n_n none (attn x) v

/-- ELU of a matrix: the entry where it exceeds the broadcast zero; elsewhere the broadcast one times exp − 1 of
    the entry with its positive part replaced by the broadcast zero. -/
def eluv (y : FVec F S8192x128 .f32) : FVec F S8192x128 .f32 :=
  select (cmpf .ogt y (broadcastInDim S8192x128 ![] bcast_S_S8192x128 (constant S_ .f32 0x00000000#32))) y
    (mulf (broadcastInDim S8192x128 ![] bcast_S_S8192x128 (constant S_ .f32 0x3F800000#32))
      (Host.expm1
        (select (cmpf .ogt y (broadcastInDim S8192x128 ![] bcast_S_S8192x128 (constant S_ .f32 0x00000000#32)))
          (broadcastInDim S8192x128 ![] bcast_S_S8192x128 (constant S_ .f32 0x00000000#32)) y)))

/-- What the reference computes from the four arguments' contents. -/
def refOut (adj : IVec S8192x8192 32) (h : FVec F S8192x128 .f32) (W : FVec F S128x128 .f32) (a : FVec F S256x1 .f32) :
    FVec F S8192x128 .f32 :=
  eluv (agg (masked adj (leaky (score h W a))) (wh h W))

/-! ## The operations in execution order -/

/-- @main's fifty-three operations, the calls unfolded: ten of its own, then leaky ReLU's six and its select helper's
    one over the first call's record; four of its own, then the scalar-fill select helper's two over the second
    call's record; fifteen of its own (the row maximum, the exponentials, the row sum, the quotient, the last
    contraction); then ELU's seven, its first select helper's three, ELU's four more and its second select
    helper's one, over the third call's record. -/
abbrev ops : List (HloOp τ sig (Elt F)) :=
  [ binary main_arg1 main_arg2 main_v0 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    unary main_arg3 main_v1 ((extractStridedSlice S128x1 ![0, 0] · slices_S256x1_S128x1_0_0) : (⟨S256x1, .f32⟩ : BufTy).Contents (Elt F) → (⟨S128x1, .f32⟩ : BufTy).Contents (Elt F)),
    binary main_v0 main_v1 main_v2 ((fun l r => Host.dotGeneral dot_S8192x128_S128x1_S8192x1_1_0_0_1_n_n none l r) : (⟨S8192x128, .f32⟩ : BufTy).Contents (Elt F) → (⟨S128x1, .f32⟩ : BufTy).Contents (Elt F) → (⟨S8192x1, .f32⟩ : BufTy).Contents (Elt F)),
    unary main_arg3 main_v3 ((extractStridedSlice S128x1 ![128, 0] · slices_S256x1_S128x1_128_0) : (⟨S256x1, .f32⟩ : BufTy).Contents (Elt F) → (⟨S128x1, .f32⟩ : BufTy).Contents (Elt F)),
    binary main_v0 main_v3 main_v4 ((fun l r => Host.dotGeneral dot_S8192x128_S128x1_S8192x1_1_0_0_1_n_n none l r) : (⟨S8192x128, .f32⟩ : BufTy).Contents (Elt F) → (⟨S128x1, .f32⟩ : BufTy).Contents (Elt F) → (⟨S8192x1, .f32⟩ : BufTy).Contents (Elt F)),
    unary main_v4 main_v5 ((transpose S1x8192 [1, 0] · transposes_S8192x1_S1x8192_1_0) : (⟨S8192x1, .f32⟩ : BufTy).Contents (Elt F) → (⟨S1x8192, .f32⟩ : BufTy).Contents (Elt F)),
    unary main_v2 main_v6 (broadcastInDim S8192x8192 ![0, 1] bcast_S8192x1_S8192x8192_0_1 : (⟨S8192x1, .f32⟩ : BufTy).Contents (Elt F) → (⟨S8192x8192, .f32⟩ : BufTy).Contents (Elt F)),
    unary main_v5 main_v7 (broadcastInDim S8192x8192 ![0, 1] bcast_S1x8192_S8192x8192_0_1 : (⟨S1x8192, .f32⟩ : BufTy).Contents (Elt F) → (⟨S8192x8192, .f32⟩ : BufTy).Contents (Elt F)),
    binary main_v6 main_v7 main_v8 (addf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x3E4CCCCD#32),
    TRef.nullary main_call0.cst (constant S_ .f32 0x00000000#32),
    TRef.unary main_call0.cst main_call0.v0 (broadcastInDim S8192x8192 ![] bcast_S_S8192x8192),
    TRef.binary (.of main_v8 : TRef sig ⟨S8192x8192, .f32⟩) main_call0.v0 main_call0.v1 (cmpf .oge),
    TRef.unary (.of main_cst : TRef sig ⟨S_, .f32⟩) main_call0.v2 id,
    TRef.unary main_call0.v2 main_call0.v3 (broadcastInDim S8192x8192 ![] bcast_S_S8192x8192),
    TRef.binary main_call0.v3 (.of main_v8 : TRef sig ⟨S8192x8192, .f32⟩) main_call0.v4 mulf,
    TRef.ternary main_call0.v1 (.of main_v8 : TRef sig ⟨S8192x8192, .f32⟩) main_call0.v4 main_call0.call0.v0 select,
    nullary main_c (constantI S_ 32 0#32),
    unary main_c main_v10 (broadcastInDim S8192x8192 ![] bcast_S_S8192x8192 : (⟨S_, .i32⟩ : BufTy).Contents (Elt F) → (⟨S8192x8192, .i32⟩ : BufTy).Contents (Elt F)),
    binary main_arg0 main_v10 main_v11 (cmpi .sgt : (⟨S8192x8192, .i32⟩ : BufTy).Contents (Elt F) → (⟨S8192x8192, .i32⟩ : BufTy).Contents (Elt F) → (⟨S8192x8192, .i1⟩ : BufTy).Contents (Elt F)),
    nullary main_cst_0 (constant S_ .f32 0xD9FFCB9E#32),
    TRef.unary (.of main_cst_0 : TRef sig ⟨S_, .f32⟩) main_call1.v0 (broadcastInDim S8192x8192 ![] bcast_S_S8192x8192),
    TRef.ternary (.of main_v11 : TRef sig ⟨S8192x8192, .i1⟩) (.of main_v9 : TRef sig ⟨S8192x8192, .f32⟩) main_call1.v0 main_call1.v1 select,
    nullary main_cst_1 (constant S_ .f32 0xFF800000#32),
    binary main_v12 main_cst_1 main_v13 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_2 (constant S_ .f32 0xFF800000#32),
    unary main_cst_2 main_v14 (broadcastInDim S8192 ![] bcast_S_S8192 : (⟨S_, .f32⟩ : BufTy).Contents (Elt F) → (⟨S8192, .f32⟩ : BufTy).Contents (Elt F)),
    binary main_v14 main_v13 main_v15 (maximumf : (⟨S8192, .f32⟩ : BufTy).Contents (Elt F) → (⟨S8192, .f32⟩ : BufTy).Contents (Elt F) → (⟨S8192, .f32⟩ : BufTy).Contents (Elt F)),
    unary main_v15 main_v16 (broadcastInDim S8192x1 ![0] bcast_S8192_S8192x1_0 : (⟨S8192, .f32⟩ : BufTy).Contents (Elt F) → (⟨S8192x1, .f32⟩ : BufTy).Contents (Elt F)),
    unary main_v16 main_v17 (broadcastInDim S8192x8192 ![0, 1] bcast_S8192x1_S8192x8192_0_1 : (⟨S8192x1, .f32⟩ : BufTy).Contents (Elt F) → (⟨S8192x8192, .f32⟩ : BufTy).Contents (Elt F)),
    binary main_v12 main_v17 main_v18 (subf : (⟨S8192x8192, .f32⟩ : BufTy).Contents (Elt F) → (⟨S8192x8192, .f32⟩ : BufTy).Contents (Elt F) → (⟨S8192x8192, .f32⟩ : BufTy).Contents (Elt F)),
    unary main_v18 main_v19 (Host.exp : (⟨S8192x8192, .f32⟩ : BufTy).Contents (Elt F) → (⟨S8192x8192, .f32⟩ : BufTy).Contents (Elt F)),
    nullary main_cst_3 (constant S_ .f32 0x00000000#32),
    binary main_v19 main_cst_3 main_v20 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v20 main_v21 (broadcastInDim S8192x1 ![0] bcast_S8192_S8192x1_0 : (⟨S8192, .f32⟩ : BufTy).Contents (Elt F) → (⟨S8192x1, .f32⟩ : BufTy).Contents (Elt F)),
    unary main_v21 main_v22 (broadcastInDim S8192x8192 ![0, 1] bcast_S8192x1_S8192x8192_0_1 : (⟨S8192x1, .f32⟩ : BufTy).Contents (Elt F) → (⟨S8192x8192, .f32⟩ : BufTy).Contents (Elt F)),
    binary main_v19 main_v22 main_v23 (Host.divf : (⟨S8192x8192, .f32⟩ : BufTy).Contents (Elt F) → (⟨S8192x8192, .f32⟩ : BufTy).Contents (Elt F) → (⟨S8192x8192, .f32⟩ : BufTy).Contents (Elt F)),
    binary main_v23 main_v0 main_v24 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    TRef.nullary main_call2.cst (constant S_ .f32 0x00000000#32),
    TRef.unary main_call2.cst main_call2.v0 (broadcastInDim S8192x128 ![] bcast_S_S8192x128),
    TRef.binary (.of main_v24 : TRef sig ⟨S8192x128, .f32⟩) main_call2.v0 main_call2.v1 (cmpf .ogt),
    TRef.nullary main_call2.cst_0 (constant S_ .f32 0x00000000#32),
    TRef.unary main_call2.cst_0 main_call2.v2 (broadcastInDim S8192x128 ![] bcast_S_S8192x128),
    TRef.binary (.of main_v24 : TRef sig ⟨S8192x128, .f32⟩) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S8192x128 ![] bcast_S_S8192x128),
    TRef.ternary main_call2.v3 main_call2.call0.v1 (.of main_v24 : TRef sig ⟨S8192x128, .f32⟩) main_call2.call0.v2 select,
    TRef.unary main_call2.call0.v2 main_call2.v5 Host.expm1,
    TRef.nullary main_call2.cst_2 (constant S_ .f32 0x3F800000#32),
    TRef.unary main_call2.cst_2 main_call2.v6 (broadcastInDim S8192x128 ![] bcast_S_S8192x128),
    TRef.binary main_call2.v6 main_call2.v5 main_call2.v7 mulf,
    TRef.ternary main_call2.v1 (.of main_v24 : TRef sig ⟨S8192x128, .f32⟩) main_call2.v7 main_call2.call1.v0 select ]

-- fifty-three binds re-associated: the rewrite under the chain recurses once per statement
set_option maxRecDepth 2048 in
/-- @main is that straight line: with the functions' definitions unfolded at their calls and the records at their
    fields, both sides are one chain of host steps once sequencing is re-associated. -/
theorem main_eq (c : Dev nD) : main (F := F) c = seq ops := by
  simp only [main, fn_leaky_relu.body, fn_where.body, fn_where_0.body, fn_elu.body, fn_where_1.body, fn_where_2.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., binary_bufs_sub .., unary_bufs_sub .., binary_bufs_sub .., unary_bufs_sub ..,
    unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..,
    nullary_bufs_sub .., unary_bufs_sub .., binary_bufs_sub .., nullary_bufs_sub ..,
    unary_bufs_sub .., ternary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., binary_bufs_sub ..,
    nullary_bufs_sub .., unary_bufs_sub .., binary_bufs_sub .., nullary_bufs_sub .., unary_bufs_sub .., binary_bufs_sub ..,
    nullary_bufs_sub ..,
    unary_bufs_sub .., unary_bufs_sub .., ternary_bufs_sub ..,
    unary_bufs_sub .., nullary_bufs_sub .., unary_bufs_sub .., binary_bufs_sub ..,
    ternary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold at the result and at the arguments -/

attribute [local irreducible] Host.reduce Host.reduceAdd in
set_option maxRecDepth 8192 in
set_option maxHeartbeats 1000000 in
/-- The fold at the result buffer is refOut: the fold unrolled in one pass, each operation's result read where the
    buffer is the one it writes and passed over where it is another (the references' inequalities decided); the
    typed references' transports are the identity at these literal references; what is left is refOut with its
    stages unfolded. The two row folds stay closed meanwhile: the equation never looks inside them. -/
theorem out_eq (V : Valuation τ sig (Elt F)) :
    after ops V (main_v25 : DevRef τ sig)
      = refOut (V (main_arg0 : DevRef τ sig)) (V (main_arg1 : DevRef τ sig)) (V (main_arg2 : DevRef τ sig))
          (V (main_arg3 : DevRef τ sig)) := by
  after_results_simp
  simp only [TRef.ofBuf, TRef.toBuf, cast_eq]
  rfl

set_option maxRecDepth 8192 in
theorem arg0_eq (V : Valuation τ sig (Elt F)) :
    after ops V (main_arg0 : DevRef τ sig) = V (main_arg0 : DevRef τ sig) := by
  simp only [after_cons, after_nil]
  rfl

set_option maxRecDepth 8192 in
theorem arg1_eq (V : Valuation τ sig (Elt F)) :
    after ops V (main_arg1 : DevRef τ sig) = V (main_arg1 : DevRef τ sig) := by
  simp only [after_cons, after_nil]
  rfl

set_option maxRecDepth 8192 in
theorem arg2_eq (V : Valuation τ sig (Elt F)) :
    after ops V (main_arg2 : DevRef τ sig) = V (main_arg2 : DevRef τ sig) := by
  simp only [after_cons, after_nil]
  rfl

set_option maxRecDepth 8192 in
theorem arg3_eq (V : Valuation τ sig (Elt F)) :
    after ops V (main_arg3 : DevRef τ sig) = V (main_arg3 : DevRef τ sig) := by
  simp only [after_cons, after_nil]
  rfl

/-! ## The packaged statement -/

/-- At the compiled mesh, for any float values, from any memory with zero counters: every weakly fair execution of
    @main terminates with the result buffer at refOut of the four arguments' launch contents and the four
    arguments unchanged. -/
theorem run_out (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v25)
          = refOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨(h c main_v25).trans (out_eq (launchContents m c)),
        (h c main_arg0).trans (arg0_eq (launchContents m c)),
        (h c main_arg1).trans (arg1_eq (launchContents m c)),
        (h c main_arg2).trans (arg2_eq (launchContents m c)),
        (h c main_arg3).trans (arg3_eq (launchContents m c))⟩)
    (run_main m ρ)

end Cert.ReferenceIdeal.Hand

end
-- ==== Proof.Ref.ValueD.lean ====
/-
  The reference's four contractions on the extended reals, read at an index: the projected features, the two score
  columns and the aggregate are the sums the specification writes. Each is a dot_general contracting the left
  operand's columns with the right operand's rows; the score columns take their right operand from a slice of a by
  rows.
-/
import proofs.«413953_j28767690949412_3_alg».proof.Proof.Ref.Run
import proofs.«413953_j28767690949412_3_alg».proof.Proof.Spec
import proofs.«413953_j28767690949412_3_alg».proof.Proof.Math
import Idealize.ShloMosaic.PureOps.Ideal.Laws
import Idealize.ShloMosaic.Lib.ValueIdx
import Idealize.ShloMosaic.Lib.ValueLayout

noncomputable section

namespace Cert.ReferenceIdeal.Hand

open Cert.ReferenceIdeal Cert.ReferenceIdeal.Facts₀ Idealize.ShloMosaic Idealize.SL.Sem Idealize.ShloMosaic.ValueIdx

variable [Cert.ReferenceIdeal.Facts]

/-! ## The three contractions read at an index

Each of the program's three dot_generals contracts the left operand's columns with the right operand's rows and has no
batch axis. Read at the result index (r, k) on the extended reals it is the sum, over the contraction index, of the
operands' products; the contraction index has one coordinate q, the left operand is read at (r, q) and the right at
(q, k). Per contraction: the four coordinate facts, then the sum re-indexed through the one coordinate. -/

/-- The left operand's row is the result's row. -/
theorem lhs_wh_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide),
    dif_pos (show (0 : Fin S8192x128.rank) ∈ dot_S8192x128_S128x128_S8192x128_1_0_0_1_n_n.lhsNonContracting by decide)]
  rfl
/-- The left operand's column is the contraction coordinate. -/
theorem lhs_wh_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
/-- The right operand's row is the contraction coordinate. -/
theorem rhs_wh_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
/-- The right operand's column is the result's column. -/
theorem rhs_wh_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide),
    dif_pos (show (1 : Fin S128x128.rank) ∈ dot_S8192x128_S128x128_S8192x128_1_0_0_1_n_n.rhsNonContracting by decide)]
  rfl

/-- The 8192×128 by 128×128 contraction at (r, k). -/
theorem dot_wh_apply (x : FVec Ideal S8192x128 .f32) (y : FVec Ideal S128x128 .f32) (r : Fin 8192) (k : Fin 128) :
    (Host.dotGeneral dot_S8192x128_S128x128_S8192x128_1_0_0_1_n_n none x y : S8192x128.Idx → EReal) (ix2 r k)
      = ∑ q : Fin 128, x (ix2 r q) * y (ix2 q k) := by
  simp only [Host.dotGeneral]
  rw [Ideal.dotGeneral_apply, ← Equiv.sum_comp (contrEquiv1 dot_S8192x128_S128x128_S8192x128_1_0_0_1_n_n 128 rfl rfl).symm]
  refine Finset.sum_congr rfl fun q _ => ?_
  have hq := contrEquiv1_symm_val dot_S8192x128_S128x128_S8192x128_1_0_0_1_n_n 128 rfl rfl q
  have el : dot_S8192x128_S128x128_S8192x128_1_0_0_1_n_n.lhsIdx (ix2 r k) ((contrEquiv1 dot_S8192x128_S128x128_S8192x128_1_0_0_1_n_n 128 rfl rfl).symm q) = ix2 r q :=
    funext fun a => Fin.ext (by
      match a with
      | ⟨0, _⟩ => exact lhs_wh_0 _ _
      | ⟨1, _⟩ => exact (lhs_wh_1 _ _).trans hq)
  have er : dot_S8192x128_S128x128_S8192x128_1_0_0_1_n_n.rhsIdx (ix2 r k) ((contrEquiv1 dot_S8192x128_S128x128_S8192x128_1_0_0_1_n_n 128 rfl rfl).symm q) = ix2 q k :=
    funext fun a => Fin.ext (by
      match a with
      | ⟨0, _⟩ => exact (rhs_wh_0 _ _).trans hq
      | ⟨1, _⟩ => exact rhs_wh_1 _ _)
  rw [el, er]

/-- The left operand's row is the result's row. -/
theorem lhs_sc_0 (i : S8192x1.Idx) (q : dot_S8192x128_S128x1_S8192x1_1_0_0_1_n_n.contr.Idx) :
    (dot_S8192x128_S128x1_S8192x1_1_0_0_1_n_n.lhsIdx i q 0).val = (i 0).val := by
  unfold DotDims.lhsIdx
  rw [dif_neg (show ¬(0 : Fin S8192x128.rank) ∈ dot_S8192x128_S128x1_S8192x1_1_0_0_1_n_n.lhsBatch by decide),
    dif_pos (show (0 : Fin S8192x128.rank) ∈ dot_S8192x128_S128x1_S8192x1_1_0_0_1_n_n.lhsNonContracting by decide)]
  rfl
/-- The left operand's column is the contraction coordinate. -/
theorem lhs_sc_1 (i : S8192x1.Idx) (q : dot_S8192x128_S128x1_S8192x1_1_0_0_1_n_n.contr.Idx) :
    (dot_S8192x128_S128x1_S8192x1_1_0_0_1_n_n.lhsIdx i q 1).val = (q ⟨0, by decide⟩).val :=
  dot_S8192x128_S128x1_S8192x1_1_0_0_1_n_n.lhsIdx_val_of_single rfl i q
/-- The right operand's row is the contraction coordinate. -/
theorem rhs_sc_0 (i : S8192x1.Idx) (q : dot_S8192x128_S128x1_S8192x1_1_0_0_1_n_n.contr.Idx) :
    (dot_S8192x128_S128x1_S8192x1_1_0_0_1_n_n.rhsIdx i q 0).val = (q ⟨0, by decide⟩).val :=
  dot_S8192x128_S128x1_S8192x1_1_0_0_1_n_n.rhsIdx_val_of_single rfl i q
/-- The right operand's column is the result's column. -/
theorem rhs_sc_1 (i : S8192x1.Idx) (q : dot_S8192x128_S128x1_S8192x1_1_0_0_1_n_n.contr.Idx) :
    (dot_S8192x128_S128x1_S8192x1_1_0_0_1_n_n.rhsIdx i q 1).val = (i 1).val := by
  unfold DotDims.rhsIdx
  rw [dif_neg (show ¬(1 : Fin S128x1.rank) ∈ dot_S8192x128_S128x1_S8192x1_1_0_0_1_n_n.rhsBatch by decide),
    dif_pos (show (1 : Fin S128x1.rank) ∈ dot_S8192x128_S128x1_S8192x1_1_0_0_1_n_n.rhsNonContracting by decide)]
  rfl

/-- The 8192×128 by 128×1 contraction at (r, k). -/
theorem dot_sc_apply (x : FVec Ideal S8192x128 .f32) (y : FVec Ideal S128x1 .f32) (r : Fin 8192) (k : Fin 1) :
    (Host.dotGeneral dot_S8192x128_S128x1_S8192x1_1_0_0_1_n_n none x y : S8192x1.Idx → EReal) (ix2 r k)
      = ∑ q : Fin 128, x (ix2 r q) * y (ix2 q k) := by
  simp only [Host.dotGeneral]
  rw [Ideal.dotGeneral_apply, ← Equiv.sum_comp (contrEquiv1 dot_S8192x128_S128x1_S8192x1_1_0_0_1_n_n 128 rfl rfl).symm]
  refine Finset.sum_congr rfl fun q _ => ?_
  have hq := contrEquiv1_symm_val dot_S8192x128_S128x1_S8192x1_1_0_0_1_n_n 128 rfl rfl q
  have el : dot_S8192x128_S128x1_S8192x1_1_0_0_1_n_n.lhsIdx (ix2 r k) ((contrEquiv1 dot_S8192x128_S128x1_S8192x1_1_0_0_1_n_n 128 rfl rfl).symm q) = ix2 r q :=
    funext fun a => Fin.ext (by
      match a with
      | ⟨0, _⟩ => exact lhs_sc_0 _ _
      | ⟨1, _⟩ => exact (lhs_sc_1 _ _).trans hq)
  have er : dot_S8192x128_S128x1_S8192x1_1_0_0_1_n_n.rhsIdx (ix2 r k) ((contrEquiv1 dot_S8192x128_S128x1_S8192x1_1_0_0_1_n_n 128 rfl rfl).symm q) = ix2 q k :=
    funext fun a => Fin.ext (by
      match a with
      | ⟨0, _⟩ => exact (rhs_sc_0 _ _).trans hq
      | ⟨1, _⟩ => exact rhs_sc_1 _ _)
  rw [el, er]

/-- The left operand's row is the result's row. -/
theorem lhs_agg_0 (i : S8192x128.Idx) (q : dot_S8192x8192_S8192x128_S8192x128_1_0_0_1_n_n.contr.Idx) :
    (dot_S8192x8192_S8192x128_S8192x128_1_0_0_1_n_n.lhsIdx i q 0).val = (i 0).val := by
  unfold DotDims.lhsIdx
  rw [dif_neg (show ¬(0 : Fin S8192x8192.rank) ∈ dot_S8192x8192_S8192x128_S8192x128_1_0_0_1_n_n.lhsBatch by decide),
    dif_pos (show (0 : Fin S8192x8192.rank) ∈ dot_S8192x8192_S8192x128_S8192x128_1_0_0_1_n_n.lhsNonContracting by decide)]
  rfl
/-- The left operand's column is the contraction coordinate. -/
theorem lhs_agg_1 (i : S8192x128.Idx) (q : dot_S8192x8192_S8192x128_S8192x128_1_0_0_1_n_n.contr.Idx) :
    (dot_S8192x8192_S8192x128_S8192x128_1_0_0_1_n_n.lhsIdx i q 1).val = (q ⟨0, by decide⟩).val :=
  dot_S8192x8192_S8192x128_S8192x128_1_0_0_1_n_n.lhsIdx_val_of_single rfl i q
/-- The right operand's row is the contraction coordinate. -/
theorem rhs_agg_0 (i : S8192x128.Idx) (q : dot_S8192x8192_S8192x128_S8192x128_1_0_0_1_n_n.contr.Idx) :
    (dot_S8192x8192_S8192x128_S8192x128_1_0_0_1_n_n.rhsIdx i q 0).val = (q ⟨0, by decide⟩).val :=
  dot_S8192x8192_S8192x128_S8192x128_1_0_0_1_n_n.rhsIdx_val_of_single rfl i q
/-- The right operand's column is the result's column. -/
theorem rhs_agg_1 (i : S8192x128.Idx) (q : dot_S8192x8192_S8192x128_S8192x128_1_0_0_1_n_n.contr.Idx) :
    (dot_S8192x8192_S8192x128_S8192x128_1_0_0_1_n_n.rhsIdx i q 1).val = (i 1).val := by
  unfold DotDims.rhsIdx
  rw [dif_neg (show ¬(1 : Fin S8192x128.rank) ∈ dot_S8192x8192_S8192x128_S8192x128_1_0_0_1_n_n.rhsBatch by decide),
    dif_pos (show (1 : Fin S8192x128.rank) ∈ dot_S8192x8192_S8192x128_S8192x128_1_0_0_1_n_n.rhsNonContracting by decide)]
  rfl

/-- The 8192×8192 by 8192×128 contraction at (r, k). -/
theorem dot_agg_apply (x : FVec Ideal S8192x8192 .f32) (y : FVec Ideal S8192x128 .f32) (r : Fin 8192) (k : Fin 128) :
    (Host.dotGeneral dot_S8192x8192_S8192x128_S8192x128_1_0_0_1_n_n none x y : S8192x128.Idx → EReal) (ix2 r k)
      = ∑ q : Fin 8192, x (ix2 r q) * y (ix2 q k) := by
  simp only [Host.dotGeneral]
  rw [Ideal.dotGeneral_apply, ← Equiv.sum_comp (contrEquiv1 dot_S8192x8192_S8192x128_S8192x128_1_0_0_1_n_n 8192 rfl rfl).symm]
  refine Finset.sum_congr rfl fun q _ => ?_
  have hq := contrEquiv1_symm_val dot_S8192x8192_S8192x128_S8192x128_1_0_0_1_n_n 8192 rfl rfl q
  have el : dot_S8192x8192_S8192x128_S8192x128_1_0_0_1_n_n.lhsIdx (ix2 r k) ((contrEquiv1 dot_S8192x8192_S8192x128_S8192x128_1_0_0_1_n_n 8192 rfl rfl).symm q) = ix2 r q :=
    funext fun a => Fin.ext (by
      match a with
      | ⟨0, _⟩ => exact lhs_agg_0 _ _
      | ⟨1, _⟩ => exact (lhs_agg_1 _ _).trans hq)
  have er : dot_S8192x8192_S8192x128_S8192x128_1_0_0_1_n_n.rhsIdx (ix2 r k) ((contrEquiv1 dot_S8192x8192_S8192x128_S8192x128_1_0_0_1_n_n 8192 rfl rfl).symm q) = ix2 q k :=
    funext fun a => Fin.ext (by
      match a with
      | ⟨0, _⟩ => exact (rhs_agg_0 _ _).trans hq
      | ⟨1, _⟩ => exact rhs_agg_1 _ _)
  rw [el, er]

/-! ## The four stages that are contractions -/

/-- The projected features at (r, k): row r of h against column k of W. -/
theorem wh_apply (h : FVec Ideal S8192x128 .f32) (W : FVec Ideal S128x128 .f32) (r : Fin 8192) (k : Fin 128) :
    (wh h W : S8192x128.Idx → EReal) (ix2 r k) = Cert.Spec.Wh h W r k := by
  unfold wh Cert.Spec.Wh
  exact dot_wh_apply h W r k

/-- The first score of node r: its projected row against rows 0 to 127 of a (the slice from row 0 reads row q of a
    at its row q). -/
theorem sc1_apply (h : FVec Ideal S8192x128 .f32) (W : FVec Ideal S128x128 .f32) (a : FVec Ideal S256x1 .f32) (r : Fin 8192) :
    (sc1 h W a : S8192x1.Idx → EReal) (ix2 r (0 : Fin 1)) = Cert.Spec.s1 h W a r := by
  unfold sc1 Cert.Spec.s1
  rw [dot_sc_apply]
  refine Finset.sum_congr rfl fun q _ => ?_
  rw [wh_apply, slice2_axis0_apply 0 a slices_S256x1_S128x1_0_0 q (0 : Fin 1) ⟨q.val, by omega⟩ (Nat.zero_add _).symm]

/-- The second score of node r: its projected row against rows 128 to 255 of a (the slice from row 128 reads row
    128 + q of a at its row q). -/
theorem sc2_apply (h : FVec Ideal S8192x128 .f32) (W : FVec Ideal S128x128 .f32) (a : FVec Ideal S256x1 .f32) (r : Fin 8192) :
    (sc2 h W a : S8192x1.Idx → EReal) (ix2 r (0 : Fin 1)) = Cert.Spec.s2 h W a r := by
  unfold sc2 Cert.Spec.s2
  rw [dot_sc_apply]
  refine Finset.sum_congr rfl fun q _ => ?_
  rw [wh_apply, slice2_axis0_apply 128 a slices_S256x1_S128x1_128_0 q (0 : Fin 1) ⟨128 + q.val, by omega⟩ rfl]

/-- The aggregate at (r, k): the softmax row r against column k of the values. -/
theorem agg_apply (x : FVec Ideal S8192x8192 .f32) (v : FVec Ideal S8192x128 .f32) (r : Fin 8192) (k : Fin 128) :
    (agg x v : S8192x128.Idx → EReal) (ix2 r k)
      = ∑ c : Fin 8192, (attn x : S8192x8192.Idx → EReal) (ix2 r c) * (v : S8192x128.Idx → EReal) (ix2 c k) := by
  unfold agg
  exact dot_agg_apply (attn x) v r k

end Cert.ReferenceIdeal.Hand

end
-- ==== Proof.Ref.ValueA.lean ====
/-
  The reference's masked score at an index.

  The raw score matrix is the first score column broadcast along the rows plus the second score column, transposed to
  a row, broadcast down the columns: at (r, c) it is s1 r + s2 c. The leaky ReLU stage selects, on the comparison of the
  entry with zero, the entry or the slope times it: the specification's lrelu of the entry. The mask selects, on the
  adjacency word exceeding zero (signed), that value or the fill value: the specification's masked score x r c.
-/
import proofs.«413953_j28767690949412_3_alg».proof.Proof.Ref.ValueD
import proofs.«413953_j28767690949412_3_alg».proof.Proof.Spec
import proofs.«413953_j28767690949412_3_alg».proof.Proof.Math
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.ReferenceIdeal.Hand

open Cert.ReferenceIdeal Cert.ReferenceIdeal.Facts₀ Idealize.ShloMosaic Idealize.ShloMosaic.TcCoe
open Idealize.ShloMosaic.ValueIdx

variable [Cert.ReferenceIdeal.Facts]

/-! ## The score matrix, the leaky ReLU and the mask at an index -/

/-- A column broadcast along the rows reads, at (r, c), the column at (r, 0). -/
theorem bcast_col_apply (x : FVec Ideal S8192x1 .f32) (r c : Fin 8192) :
    (broadcastInDim S8192x8192 ![0, 1] bcast_S8192x1_S8192x8192_0_1 x : S8192x8192.Idx → EReal) (ix2 r c)
      = x (ix2 r (0 : Fin 1)) :=
  broadcastInDim_apply _ _ x (ix2 r c) (ix2 r (0 : Fin 1)) fun a => by
    match a with
    | ⟨0, _⟩ => rfl
    | ⟨1, _⟩ => rfl

/-- A column transposed to a row and broadcast down the columns reads, at (r, c), the column at (c, 0). -/
theorem bcast_rowT_apply (y : FVec Ideal S8192x1 .f32) (r c : Fin 8192) :
    (broadcastInDim S8192x8192 ![0, 1] bcast_S1x8192_S8192x8192_0_1
        (transpose S1x8192 [1, 0] y transposes_S8192x1_S1x8192_1_0) : S8192x8192.Idx → EReal) (ix2 r c)
      = y (ix2 c (0 : Fin 1)) := by
  refine (broadcastInDim_apply _ _ _ (ix2 r c) (ix2 (0 : Fin 1) c) fun a => by
    match a with
    | ⟨0, _⟩ => rfl
    | ⟨1, _⟩ => rfl).trans ?_
  exact transpose_ix2_apply y transposes_S8192x1_S1x8192_1_0 (0 : Fin 1) c

/-- The raw score at (r, c) is the first score of r plus the second score of c. -/
theorem score_apply (h : FVec Ideal S8192x128 .f32) (W : FVec Ideal S128x128 .f32) (a : FVec Ideal S256x1 .f32)
    (r c : Fin 8192) :
    (score h W a : S8192x8192.Idx → EReal) (ix2 r c) = Cert.Spec.s1 h W a r + Cert.Spec.s2 h W a c := by
  unfold score
  rw [addf_apply, bcast_col_apply, bcast_rowT_apply, sc1_apply, sc2_apply]

/-- The select on the comparison s ≥ 0 between s and the slope times s is the leaky ReLU of s: the comparison's word
    is the truth value of 0 ≤ s, the zero word is 0 and the slope word is alpha. -/
theorem lrelu_word (s : EReal) :
    Scalar.select (Ideal.cmp .oge s (Ideal.ofBits .f32 0x00000000#32)) s (Ideal.ofBits .f32 0x3E4CCCCD#32 * s)
      = Cert.Spec.lrelu s := by
  rw [Cert.Math.ofBits_zero]
  have hc : Ideal.cmp .oge s 0 = BitVec.ofBool (decide (0 ≤ s)) := rfl
  rw [hc]
  unfold Cert.Spec.lrelu Cert.Spec.alpha Scalar.select
  by_cases hs : 0 ≤ s
  · rw [decide_eq_true hs, if_pos hs]; rfl
  · rw [decide_eq_false hs, if_neg hs]; rfl

/-- The leaky ReLU of a matrix at an index is the leaky ReLU of the entry. -/
theorem leaky_apply (x : FVec Ideal S8192x8192 .f32) (i : S8192x8192.Idx) :
    (leaky x : S8192x8192.Idx → EReal) i = Cert.Spec.lrelu (x i) :=
  lrelu_word (x i)

/-- The masked leaky score at (r, c) is the specification's masked score. -/
theorem masked_score_apply (adj : IVec S8192x8192 32) (h : FVec Ideal S8192x128 .f32) (W : FVec Ideal S128x128 .f32)
    (a : FVec Ideal S256x1 .f32) (r c : Fin 8192) :
    (masked adj (leaky (score h W a)) : S8192x8192.Idx → EReal) (ix2 r c) = Cert.Spec.x adj h W a r c := by
  have hm : (masked adj (leaky (score h W a)) : S8192x8192.Idx → EReal) (ix2 r c)
      = Scalar.select (Scalar.cmpi .sgt (adj (ix2 r c)) 0#32) ((leaky (score h W a) : S8192x8192.Idx → EReal) (ix2 r c))
          Cert.Spec.negFill := rfl
  rw [hm, leaky_apply, score_apply]
  rfl

end Cert.ReferenceIdeal.Hand

end
-- ==== Proof.Ref.Value.lean ====
/-
  The reference's result is the specification, index by index.

  Over the matrix of masked scores the reference takes, row by row, the maximum, the exponentials of the entries less
  that maximum, their sum and the quotient (the softmax of the row), multiplies the softmax rows into the projected
  features and applies ELU. Each stage is read here at an index over a variable matrix — the row maximum as the
  maximum of the row's entries, the row sum as their sum, a row vector laid back over the matrix as the row's value —
  and then, at the masked scores, matched with the specification's M, p, L, the aggregate and G.
-/
import proofs.«413953_j28767690949412_3_alg».proof.Proof.Ref.ValueA
import proofs.«413953_j28767690949412_3_alg».proof.Proof.Spec
import proofs.«413953_j28767690949412_3_alg».proof.Proof.Math
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.ReferenceIdeal.Hand

open Cert.ReferenceIdeal Cert.ReferenceIdeal.Facts₀ Idealize.ShloMosaic Idealize.SL.Sem
open Idealize.ShloMosaic.ValueIdx

variable [Cert.ReferenceIdeal.Facts]

/-! ## Layout: a broadcast scalar, a row vector laid back over the matrix, the reduced index with a column put back -/

/-- A scalar constant broadcast to any shape reads the extended real its word encodes. -/
theorem bcastConst_apply {t : Shape} (hb : S_.BroadcastsInDim t (![] : Fin 0 → Fin t.rank)) (w : BitVec 32) (i : t.Idx) :
    (broadcastInDim t ![] hb (constant (F := Ideal) S_ .f32 w) : t.Idx → EReal) i = Ideal.ofBits .f32 w :=
  (broadcastInDim_apply (![] : Fin 0 → Fin t.rank) hb (constant (F := Ideal) S_ .f32 w) i ix0 (fun a => a.elim0)).trans
    (constant_apply (s := S_) (φ := .f32) w ix0)

/-- A vector of row values laid back over the matrix reads, at (r, c), the row's value. -/
theorem overRows_apply (v : FVec Ideal S8192 .f32) (r c : Fin 8192) :
    (overRows v : S8192x8192.Idx → EReal) (ix2 r c) = (v : S8192.Idx → EReal) (ix1 r) := by
  unfold overRows
  refine (broadcastInDim_apply (![0, 1] : Fin 2 → Fin S8192x8192.rank) bcast_S8192x1_S8192x8192_0_1 _ (ix2 r c) (ix2 r (0 : Fin 1)) ?_).trans ?_
  · intro ax
    match ax with
    | ⟨0, _⟩ => rfl
    | ⟨1, _⟩ => rfl
  · refine broadcastInDim_apply (![0] : Fin 1 → Fin S8192x1.rank) bcast_S8192_S8192x1_0 v (ix2 r (0 : Fin 1)) (ix1 r) ?_
    intro ax
    match ax with
    | ⟨0, _⟩ => rfl

/-- The reduced index r with column c put back is (r, c). -/
theorem lift_row (hr : S8192x8192.Reduces [1] S8192) (r : Fin 8192) (c : Fin (S8192x8192.size 1)) :
    hr.lift (ix1 r) c = ix2 r (⟨c.val, c.isLt⟩ : Fin 8192) := by
  funext ax; apply Fin.ext
  fin_cases ax <;> rfl

theorem reduces_rows : S8192x8192.Reduces [1] S8192 := by decide

/-! ## The stages at an index -/

/-- The row maximum at r: the maximum of the row's entries (the lower bound is −∞, absorbed by the maximum). -/
theorem rowMax_apply (x : FVec Ideal S8192x8192 .f32) (r : Fin 8192) :
    (rowMax x : S8192.Idx → EReal) (ix1 r)
      = (Finset.univ : Finset (Fin 8192)).fold max ⊥ (fun c => (x : S8192x8192.Idx → EReal) (ix2 r c)) := by
  unfold rowMax
  rw [maximumf_apply, bcastConst_apply, Cert.Math.ofBits_neg_inf, max_eq_right bot_le,
    Host.reduce_eq_fold_single FloatOps.maximumf x _ reducesTo_S8192x8192_S8192_d1 reduces_rows h_S_]
  have hi : (constant (F := Ideal) S_ .f32 0xFF800000#32 : S_.Idx → EReal) (Shape.Idx.first h_S_) = ⊥ :=
    (constant_apply (s := S_) (φ := .f32) _ _).trans Cert.Math.ofBits_neg_inf
  have hf : ((x : S8192x8192.Idx → EReal) ∘ reduces_rows.lift (ix1 r)) = fun c : Fin 8192 => x (ix2 r c) :=
    funext fun c => congrArg x (lift_row reduces_rows r c)
  rw [hi]
  exact congrArg (fun f => Finset.fold max (⊥ : EReal) f (Finset.univ : Finset (Fin 8192))) hf

/-- The row sum at r: the sum of the row's entries (from zero). -/
theorem rowSum_apply (p : FVec Ideal S8192x8192 .f32) (r : Fin 8192) :
    (rowSum p : S8192.Idx → EReal) (ix1 r) = ∑ c : Fin 8192, (p : S8192x8192.Idx → EReal) (ix2 r c) := by
  unfold rowSum
  show Ideal.hostReduceAdd _ _ _ (ix1 r) = _
  rw [Ideal.hostReduceAdd_single reducesTo_S8192x8192_S8192_d1 reduces_rows]
  have hi : (constant (F := Ideal) S_ .f32 0x00000000#32 : S_.Idx → EReal) (Shape.Idx.first h_S_) = 0 :=
    (constant_apply (s := S_) (φ := .f32) _ _).trans Cert.Math.ofBits_zero
  rw [hi, zero_add]
  exact Finset.sum_congr rfl fun c _ => congrArg p (lift_row reduces_rows r c)

/-- The unnormalised weight at (r, c): the exponential of the entry less its row's maximum. -/
theorem expw_apply (x : FVec Ideal S8192x8192 .f32) (r c : Fin 8192) :
    (expw x : S8192x8192.Idx → EReal) (ix2 r c)
      = Ideal.exp ((x : S8192x8192.Idx → EReal) (ix2 r c) - (rowMax x : S8192.Idx → EReal) (ix1 r)) := by
  unfold expw
  show FloatOps.hostUnary .exp (subf x (overRows (rowMax x)) (ix2 r c)) = _
  rw [Ideal.hostUnary_exp_def, subf_apply, overRows_apply]

/-- The softmax weight at (r, c): the unnormalised weight over its row's sum. -/
theorem attn_apply (x : FVec Ideal S8192x8192 .f32) (r c : Fin 8192) :
    (attn x : S8192x8192.Idx → EReal) (ix2 r c)
      = Ideal.div ((expw x : S8192x8192.Idx → EReal) (ix2 r c)) ((rowSum (expw x) : S8192.Idx → EReal) (ix1 r)) := by
  unfold attn
  show FloatOps.hostDivf (expw x (ix2 r c)) (overRows (rowSum (expw x)) (ix2 r c)) = _
  rw [Ideal.hostDivf_def, overRows_apply]

/-- ELU of a matrix at an index is ELU of the entry: on the positive both are the entry; elsewhere the one is
    1 · (exp − 1) of the entry, the other exp − 1. -/
theorem eluv_apply (y : FVec Ideal S8192x128 .f32) (i : S8192x128.Idx) :
    (eluv y : S8192x128.Idx → EReal) i = Cert.Spec.elu ((y : S8192x128.Idx → EReal) i) := by
  unfold eluv
  have hexpm1 : ∀ (v : FVec Ideal S8192x128 .f32), Host.expm1 v i = Ideal.exp (v i) - 1 := fun _ => rfl
  have hb : ∀ w : BitVec 32, (broadcastInDim S8192x128 ![] bcast_S_S8192x128 (constant (F := Ideal) S_ .f32 w) : S8192x128.Idx → EReal) i
      = Ideal.ofBits .f32 w := fun w => bcastConst_apply bcast_S_S8192x128 w i
  simp only [select_apply, cmpf_apply, mulf_apply, hexpm1, hb, Cert.Math.ofBits_zero, Cert.Math.ofBits_one,
    Ideal.cmpf_def, one_mul]
  unfold Cert.Spec.elu
  by_cases hpos : 0 < (y : S8192x128.Idx → EReal) i
  · have hc : Ideal.cmp .ogt ((y : S8192x128.Idx → EReal) i) 0 = 1#1 := by simp [Ideal.cmp, hpos]
    rw [hc, select_one, if_pos hpos]
  · have hc : Ideal.cmp .ogt ((y : S8192x128.Idx → EReal) i) 0 = 0#1 := by simp [Ideal.cmp, hpos]
    rw [hc, select_zero, select_zero, if_neg hpos]

/-! ## The stages over the masked scores are the specification's -/

section Final
variable (adj : IVec S8192x8192 32) (h : FVec Ideal S8192x128 .f32) (W : FVec Ideal S128x128 .f32) (a : FVec Ideal S256x1 .f32)

/-- Over a matrix whose entries are the masked scores, the row maximum is the specification's. -/
theorem rowMax_spec (X : FVec Ideal S8192x8192 .f32)
    (hX : ∀ r c : Fin 8192, (X : S8192x8192.Idx → EReal) (ix2 r c) = Cert.Spec.x adj h W a r c) (r : Fin 8192) :
    (rowMax X : S8192.Idx → EReal) (ix1 r) = Cert.Spec.M adj h W a r := by
  rw [rowMax_apply]
  unfold Cert.Spec.M
  exact congrArg (fun f => Finset.fold max (⊥ : EReal) f (Finset.univ : Finset (Fin 8192))) (funext fun c => hX r c)

/-- … the unnormalised weight is the specification's … -/
theorem expw_spec (X : FVec Ideal S8192x8192 .f32)
    (hX : ∀ r c : Fin 8192, (X : S8192x8192.Idx → EReal) (ix2 r c) = Cert.Spec.x adj h W a r c) (r c : Fin 8192) :
    (expw X : S8192x8192.Idx → EReal) (ix2 r c) = Cert.Spec.p adj h W a r c := by
  rw [expw_apply, rowMax_spec adj h W a X hX, hX]
  rfl

/-- … and the softmax weight is the specification's weight over its normaliser. -/
theorem attn_spec (X : FVec Ideal S8192x8192 .f32)
    (hX : ∀ r c : Fin 8192, (X : S8192x8192.Idx → EReal) (ix2 r c) = Cert.Spec.x adj h W a r c) (r c : Fin 8192) :
    (attn X : S8192x8192.Idx → EReal) (ix2 r c) = Ideal.div (Cert.Spec.p adj h W a r c) (Cert.Spec.L adj h W a r) := by
  rw [attn_apply, rowSum_apply, expw_spec adj h W a X hX]
  unfold Cert.Spec.L
  exact congrArg (Ideal.div (Cert.Spec.p adj h W a r c)) (Finset.sum_congr rfl fun c' _ => expw_spec adj h W a X hX r c')

/-- The reference's result is the specification, index by index: ELU of the softmax rows of the masked scores against
    the projected features. -/
theorem refOut_eq_G (adj : IVec S8192x8192 32) (h : FVec Ideal S8192x128 .f32) (W : FVec Ideal S128x128 .f32) (a : FVec Ideal S256x1 .f32) :
    refOut (F := Ideal) adj h W a = Cert.Spec.G adj h W a := by
  funext i
  obtain ⟨r, k, rfl⟩ : ∃ (r : Fin 8192) (k : Fin 128), i = ix2 r k := ⟨i 0, i 1, eq_ix2 i⟩
  unfold refOut
  rw [eluv_apply, agg_apply]
  show Cert.Spec.elu _ = Cert.Spec.elu (Cert.Spec.hp adj h W a r k)
  refine congrArg Cert.Spec.elu ?_
  unfold Cert.Spec.hp
  exact Finset.sum_congr rfl fun c _ => by
    rw [attn_spec adj h W a _ (masked_score_apply adj h W a) r c, wh_apply]

end Final

end Cert.ReferenceIdeal.Hand

end
-- ==== Proof.PreFinite.lean ====
/-
  The precondition read back: its one word is 1 only if every entry of the three float inputs is a real.

  The word is the conjunction (and) of three words, one per array h, W, a; each is the reduction by and, over all
  elements, of the comparison |x| < +∞, where |x| = max x (-x) and +∞ is the f32 word 0x7F800000. A conjunction is 1
  only if both sides are; a reduction by and into a single index is 1 only if every element is; and |x| < ⊤ on the
  extended reals excludes ⊥ and ⊤, leaving the coercion of a real.
-/
import proofs.«413953_j28767690949412_3_alg».proof.Pre_finite_inputs
import proofs.«413953_j28767690949412_3_alg».proof.Proof.Spec
import Idealize.ShloMosaic.Lib.ReduceAll
import Idealize.ShloMosaic.Lib.ValueIdx

noncomputable section

namespace Cert.PreFin

open Idealize.ShloMosaic

/-- The rank-0 shape has exactly one index. -/
instance : Subsingleton Cert.Pre_finite_inputs.S_.Idx := ⟨fun a b => funext fun d => d.elim0⟩

/-- The f32 word 0x7F800000 denotes +∞. -/
theorem inf_word : Ideal.ofBits .f32 0x7F800000#32 = (⊤ : EReal) := by
  simp [Ideal.ofBits, Ideal.ieee]

/-- An extended real whose absolute value max x (-x) lies strictly below +∞ is the coercion of a real:
    at ⊥ and at ⊤ the absolute value is ⊤. -/
theorem real_of_abs_lt_top (x : EReal) (hx : max x (-x) < (⊤ : EReal)) : ∃ v : ℝ, x = (v : EReal) := by
  induction x using EReal.rec with
  | bot => simp at hx
  | coe v => exact ⟨v, rfl⟩
  | top => simp at hx

/-- One element of the comparison |x| < +∞ being the word 1 says x is a real: the word is the truth value of
    max x (-x) < ⊤, so a false comparison would give the word 0. -/
theorem real_of_cmp (x : EReal)
    (hx : FloatOps.cmpf (F := Ideal) (φ := .f32) .olt (FloatOps.hostAbsf (F := Ideal) (φ := .f32) x)
      (FloatOps.ofBits (F := Ideal) .f32 0x7F800000#32) = 1#1) : ∃ v : ℝ, x = (v : EReal) := by
  apply real_of_abs_lt_top
  have h2 : Ideal.cmp .olt (max x (-x)) (Ideal.ofBits .f32 0x7F800000#32) = 1#1 := hx
  rw [inf_word] at h2
  by_contra hn
  have hd : Ideal.cmp .olt (max x (-x)) (⊤ : EReal) = BitVec.ofBool (decide (max x (-x) < (⊤ : EReal))) := rfl
  rw [hd, decide_eq_false hn] at h2
  exact absurd h2 (by decide)

/-- The all-elements reduction by and of the comparison |x| < +∞ being 1 says every entry of x is a real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (e : Host.reduce IntOp.andi
        (cmpf .olt (Host.absf x) (broadcastInDim s ![] hb (constant Cert.Pre_finite_inputs.S_ .f32 0x7F800000#32)))
        (constantI Cert.Pre_finite_inputs.S_ 1 1#1) hr h0 ValueIdx.ix0 = 1#1) :
    ∀ i, ∃ v : ℝ, x i = (v : EReal) := by
  intro i
  have hi := Host.reduce_andi_all _ _ hr h0 ValueIdx.ix0 e i
  exact real_of_cmp (x i) hi

/-- The precondition holding (its one word is 1) says every entry of h, W and a is a real:
    the word is the conjunction of three all-elements reductions, one per array, each of the comparison |x| < +∞. -/
theorem finite_of_pre [Cert.Pre_finite_inputs.Facts]
    (adj : Idealize.ShloMosaic.IVec Cert.Pre_finite_inputs.S8192x8192 32)
    (h : Idealize.ShloMosaic.FVec Idealize.ShloMosaic.Ideal Cert.Pre_finite_inputs.S8192x128 .f32)
    (W : Idealize.ShloMosaic.FVec Idealize.ShloMosaic.Ideal Cert.Pre_finite_inputs.S128x128 .f32)
    (a : Idealize.ShloMosaic.FVec Idealize.ShloMosaic.Ideal Cert.Pre_finite_inputs.S256x1 .f32)
    (hpre : Cert.Pre_finite_inputs.fn (F := Idealize.ShloMosaic.Ideal) adj h W a = (fun _ => 1#1)) :
    Cert.Spec.Finite h W a := by
  have e := congrFun hpre ValueIdx.ix0
  dsimp only [Cert.Pre_finite_inputs.fn, Idealize.ShloMosaic.andi] at e
  obtain ⟨e8, e12⟩ := IntOp.andi_eq_one.1 e
  obtain ⟨e3, e7⟩ := IntOp.andi_eq_one.1 e8
  exact ⟨all_real h _ _ _ e3, all_real W _ _ _ e7, all_real a _ _ _ e12⟩

end Cert.PreFin

end
-- ==== Proof.lean ====
/-
  The certificate of a graph-attention layer: the Pallas kernel (a projection call and a flash-style attention call)
  against its jnp reference, over the extended reals.

  Both programs compute, from the adjacency words adj and the real arrays h, W, a:  Wh = h·W;  s1 = Wh·a[0:128],
  s2 = Wh·a[128:256];  the masked score x r c = leaky(s1 r + s2 c) on an edge and the fill value off it;  the softmax of
  each row of x;  its aggregate against Wh;  and ELU of that (Proof/Spec.lean). The reference takes each row's softmax
  whole; the kernel runs it block by block, carrying a running maximum, denominator and numerator through eight column
  blocks and rescaling by exp(m_old − m_new) at each (Proof/Math.lean proves the two equal on real data, which the
  precondition gives: Proof/PreFinite.lean).

  The three frames: the reference is one straight line of host operations (Proof/Ref/Run.lean); each kernel program is
  host operations, the projection call, a transpose, the attention call — run as four segments (Proof/KI/Run.lean for the
  idealized program, Proof/K/Run.lean the same text for the word-level one), each call's body obligation in
  Proof/KI/Body0.lean and Proof/KI/Body1.lean (the attention call keeps its three scratch buffers at the running state
  between grid points). The idealization rewrote nothing, so `preserves` is trivial.
-/
import proofs.«413953_j28767690949412_3_alg».proof.Defs
import proofs.«413953_j28767690949412_3_alg».proof.Proof.Gen.Kernel
import proofs.«413953_j28767690949412_3_alg».proof.Proof.Gen.KernelIdeal
import proofs.«413953_j28767690949412_3_alg».proof.Proof.Gen.ReferenceIdeal
import proofs.«413953_j28767690949412_3_alg».proof.Proof.Gen.Pre_finite_inputs
import proofs.«413953_j28767690949412_3_alg».proof.Proof.K.Run
import proofs.«413953_j28767690949412_3_alg».proof.Proof.KI.Final
import proofs.«413953_j28767690949412_3_alg».proof.Proof.Ref.Value
import proofs.«413953_j28767690949412_3_alg».proof.Proof.PreFinite
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Hand.frame m ρ

/-- The idealized kernel runs and leaves its arguments unchanged. -/
theorem frame_ki : Cert.frame_KernelIdeal := fun m ρ _ => Cert.KernelIdeal.Hand.frame m ρ

/-- The reference runs and leaves its arguments unchanged: its run with the result dropped. -/
theorem frame_ri : Cert.frame_ReferenceIdeal := fun m ρ _ =>
  (θ_run (Cert.ReferenceIdeal.defs (F := Ideal)) _ _).mono (fun _ h c => (h c).2) (Cert.ReferenceIdeal.Hand.run_out (F := Ideal) m ρ)

/-- From memories agreeing on the arguments, both idealized programs end at the specification of the arguments. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Hand.run_val m ρ (fun c => Cert.PreFin.finite_of_pre _ _ _ _ (hpre c)), ?_⟩
  refine (θ_run (Cert.ReferenceIdeal.defs (F := Ideal)) _ _).mono (fun r h c => ⟨(h c).1.trans ?_, (h c).2⟩)
    (Cert.ReferenceIdeal.Hand.run_out (F := Ideal) m' ρ')
  rw [(hagree c).1, (hagree c).2.1, (hagree c).2.2.1, (hagree c).2.2.2]
  exact Cert.ReferenceIdeal.Hand.refOut_eq_G _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
